-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x1000 : Shape := ⟨2, ![32768, 1000]⟩
abbrev S32768 : Shape := ⟨1, ![32768]⟩
abbrev S_ : Shape := ⟨0, ![]⟩

class Facts : Prop where
  bcast_S_S32768x1000 : S_.BroadcastsInDim S32768x1000 (![] : Fin 0 → Fin S32768x1000.rank)
  reducesTo_S32768x1000_S_d0_1 : S32768x1000.ReducesTo [0, 1] S_
  h_S_ : 0 < S_.numel
  bcast_S_S32768 : S_.BroadcastsInDim S32768 (![] : Fin 0 → Fin S32768.rank)
  reducesTo_S32768_S_d0 : S32768.ReducesTo [0] S_

variable [Facts]

def fn {F : FTy → Type} [FloatOps F] (main_arg0 : FVec F S32768x1000 .f32) (main_arg1 : IVec S32768 32) : IVec S_ 1 :=
  let main_v0 : FVec F S32768x1000 .f32 := Host.absf main_arg0
  let main_cst : FVec F S_ .f32 := constant S_ .f32 0x7F800000#32
  let main_v1 : FVec F S32768x1000 .f32 := broadcastInDim S32768x1000 ![] bcast_S_S32768x1000 main_cst
  let main_v2 : IVec S32768x1000 1 := cmpf .olt main_v0 main_v1
  let main_c : IVec S_ 1 := constantI S_ 1 1#1
  let main_v3 : IVec S_ 1 := (fun x v => Host.reduce IntOp.andi x v reducesTo_S32768x1000_S_d0_1 h_S_) main_v2 main_c
  let main_c_0 : IVec S_ 32 := constantI S_ 32 0#32
  let main_v4 : IVec S32768 32 := broadcastInDim S32768 ![] bcast_S_S32768 main_c_0
  let main_v5 : IVec S32768 1 := cmpi .sge main_arg1 main_v4
  let main_c_1 : IVec S_ 1 := constantI S_ 1 1#1
  let main_v6 : IVec S_ 1 := (fun x v => Host.reduce IntOp.andi x v reducesTo_S32768_S_d0 h_S_) main_v5 main_c_1
  let main_v7 : IVec S_ 1 := andi main_v3 main_v6
  let main_c_2 : IVec S_ 32 := constantI S_ 32 1000#32
  let main_v8 : IVec S32768 32 := broadcastInDim S32768 ![] bcast_S_S32768 main_c_2
  let main_v9 : IVec S32768 1 := cmpi .slt main_arg1 main_v8
  let main_c_3 : IVec S_ 1 := constantI S_ 1 1#1
  let main_v10 : IVec S_ 1 := (fun x v => Host.reduce IntOp.andi x v reducesTo_S32768_S_d0 h_S_) main_v9 main_c_3
  let main_v11 : IVec S_ 1 := andi main_v7 main_v10
  main_v11
-- ==== Kernel.lean ====
abbrev S32768x1000 : Shape := ⟨2, ![32768, 1000]⟩
abbrev S32768 : Shape := ⟨1, ![32768]⟩
abbrev S32768x1 : Shape := ⟨2, ![32768, 1]⟩
abbrev S1x128 : Shape := ⟨2, ![1, 128]⟩
abbrev S512x1000 : Shape := ⟨2, ![512, 1000]⟩
abbrev S512x1 : Shape := ⟨2, ![512, 1]⟩
abbrev S1x512x1000 : Shape := ⟨3, ![1, 512, 1000]⟩
abbrev S1 : Shape := ⟨1, ![1]⟩
abbrev S1x1x1 : Shape := ⟨3, ![1, 1, 1]⟩
abbrev S1x10 : Shape := ⟨2, ![1, 10]⟩
abbrev S10 : Shape := ⟨1, ![10]⟩
abbrev S_ : Shape := ⟨0, ![]⟩
abbrev S2 : Shape := ⟨1, ![2]⟩
abbrev S1x1 : Shape := ⟨2, ![1, 1]⟩
abbrev S512 : Shape := ⟨1, ![512]⟩
abbrev S1x512x1 : Shape := ⟨3, ![1, 512, 1]⟩

abbrev nBuf : Space → Nat
  | .hbm => 34
  | .vmem => 11
  | .smem => 0
  | _ => 0

abbrev bufTy : (tb : Table) → Fin (tcTables nBuf tb) → BufTy
  | .hbm, ⟨0, _⟩ => ⟨S32768x1000, .f32⟩
  | .hbm, ⟨1, _⟩ => ⟨S32768, .i32⟩
  | .hbm, ⟨2, _⟩ => ⟨S32768x1, .i32⟩
  | .hbm, ⟨3, _⟩ => ⟨S1x128, .f32⟩
  | .hbm, ⟨4, _⟩ => ⟨S1x10, .f32⟩
  | .hbm, ⟨5, _⟩ => ⟨S10, .f32⟩
  | .hbm, ⟨6, _⟩ => ⟨S_, .f32⟩
  | .hbm, ⟨7, _⟩ => ⟨S10, .f32⟩
  | .hbm, ⟨8, _⟩ => ⟨S10, .i1⟩
  | .hbm, ⟨9, _⟩ => ⟨S10, .i32⟩
  | .hbm, ⟨10, _⟩ => ⟨S_, .i32⟩
  | .hbm, ⟨11, _⟩ => ⟨S_, .i32⟩
  | .hbm, ⟨12, _⟩ => ⟨S_, .f32⟩
  | .hbm, ⟨13, _⟩ => ⟨S_, .f32⟩
  | .hbm, ⟨14, _⟩ => ⟨S10, .f32⟩
  | .hbm, ⟨15, _⟩ => ⟨S10, .f32⟩
  | .hbm, ⟨16, _⟩ => ⟨S_, .f32⟩
  | .hbm, ⟨17, _⟩ => ⟨S10, .f32⟩
  | .hbm, ⟨18, _⟩ => ⟨S10, .f32⟩
  | .hbm, ⟨19, _⟩ => ⟨S10, .f32⟩
  | .hbm, ⟨20, _⟩ => ⟨S10, .f32⟩
  | .hbm, ⟨21, _⟩ => ⟨S_, .f32⟩
  | .hbm, ⟨22, _⟩ => ⟨S1x128, .f32⟩
  | .hbm, ⟨23, _⟩ => ⟨S_, .i32⟩
  | .hbm, ⟨24, _⟩ => ⟨S1, .i32⟩
  | .hbm, ⟨25, _⟩ => ⟨S_, .i32⟩
  | .hbm, ⟨26, _⟩ => ⟨S1, .i32⟩
  | .hbm, ⟨27, _⟩ => ⟨S2, .i32⟩
  | .hbm, ⟨28, _⟩ => ⟨S1x128, .f32⟩
  | .hbm, ⟨29, _⟩ => ⟨S1x128, .f32⟩
  | .hbm, ⟨30, _⟩ => ⟨S1x1, .f32⟩
  | .hbm, ⟨31, _⟩ => ⟨S_, .f32⟩
  | .hbm, ⟨32, _⟩ => ⟨S_, .f32⟩
  | .hbm, ⟨33, _⟩ => ⟨S_, .f32⟩
  | .local _ .vmem, ⟨0, _⟩ => ⟨S512x1000, .f32⟩
  | .local _ .vmem, ⟨1, _⟩ => ⟨S512x1000, .f32⟩
  | .local _ .vmem, ⟨2, _⟩ => ⟨S512x1, .i32⟩
  | .local _ .vmem, ⟨3, _⟩ => ⟨S512x1, .i32⟩
  | .local _ .vmem, ⟨4, _⟩ => ⟨S1x128, .f32⟩
  | .local _ .vmem, ⟨5, _⟩ => ⟨S512x1000, .f32⟩
  | .local _ .vmem, ⟨6, _⟩ => ⟨S512x1000, .f32⟩
  | .local _ .vmem, ⟨7, _⟩ => ⟨S512x1, .i32⟩
  | .local _ .vmem, ⟨8, _⟩ => ⟨S512x1, .i32⟩
  | .local _ .vmem, ⟨9, _⟩ => ⟨S1x128, .f32⟩
  | .local _ .vmem, ⟨10, _⟩ => ⟨S1x128, .f32⟩
  | _, _ => ⟨S32768x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_c_3 : Ref sig .tc := ⟨.hbm, 23, rfl⟩
abbrev main_v16 : Ref sig .tc := ⟨.hbm, 24, rfl⟩
abbrev main_c_4 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x1000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

class Facts₀ : Prop where
  shapeCasts_S32768_S32768x1 : S32768.ShapeCasts S32768x1
  iota_S512x1000_d1_w32 : S512x1000.Iotas .tc 32 [1]
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x1000 : S512x1.Broadcasts S512x1000
  natLt_1_32 : 1 < 32
  inb_S512x1000_S512x1000_0_0 : ∀ a, (![0, 0] : Fin 2 → Nat) a + S512x1000.size a ≤ S512x1000.size a
  h_S512x1000 : 0 < S512x1000.numel
  inb_S1x128_S1x128_0_0 : ∀ a, (![0, 0] : Fin 2 → Nat) a + S1x128.size a ≤ S1x128.size a
  h_S1x128 : 0 < S1x128.numel
  iota_S1x128_d1_w32 : S1x128.Iotas .tc 32 [1]
  shapeCasts_S512x1000_S1x512x1000 : S512x1000.ShapeCasts S1x512x1000
  reduces_S1x512x1000_S1 : S1x512x1000.Reduces [1, 2] S1
  shapeCasts_S1_S1x1x1 : S1.ShapeCasts S1x1x1
  inpos_S1x1x1_p0_0_0 : ∀ a, (![0, 0, 0] : Fin 3 → Nat) a < S1x1x1.size a
  shapeCasts_S1x128_S1x128 : S1x128.ShapeCasts S1x128
  slices_S1x128_S1x10_0_0 : S1x128.Slices ![0, 0] S1x10
  shapeCasts_S1x10_S10 : S1x10.ShapeCasts S10
  bcast_S_S10 : S_.BroadcastsInDim S10 (![] : Fin 0 → Fin S10.rank)
  reducesTo_S10_S_d0 : S10.ReducesTo [0] S_
  h_S_ : 0 < S_.numel
  bcast_S_S1x128 : S_.BroadcastsInDim S1x128 (![] : Fin 0 → Fin S1x128.rank)
  bcast_S_S1 : S_.BroadcastsInDim S1 (![] : Fin 0 → Fin S1.rank)
  concatenates_S1_S1_S2_d0 : Shape.Concatenates [S1, S1] S2 0
  inb_S1x128_S1x1_0_0 : ∀ a, (![0, 0] : Fin 2 → Nat) a + S1x1.size a ≤ S1x128.size a
  h_S1x1 : 0 < S1x1.numel
  inpos_S1x1_p0_0 : ∀ a, (![0, 0] : Fin 2 → Nat) a < S1x1.size a
  inb_S1x128_S1x1_0_1 : ∀ a, (![0, 1] : Fin 2 → Nat) a + S1x1.size a ≤ S1x128.size a
  inb_S1x128_S1x1_0_2 : ∀ a, (![0, 2] : Fin 2 → Nat) a + S1x1.size a ≤ S1x128.size a
  inb_S1x128_S1x1_0_3 : ∀ a, (![0, 3] : Fin 2 → Nat) a + S1x1.size a ≤ S1x128.size a
  inb_S1x128_S1x1_0_4 : ∀ a, (![0, 4] : Fin 2 → Nat) a + S1x1.size a ≤ S1x128.size a
  inb_S1x128_S1x1_0_5 : ∀ a, (![0, 5] : Fin 2 → Nat) a + S1x1.size a ≤ S1x128.size a
  inb_S1x128_S1x1_0_6 : ∀ a, (![0, 6] : Fin 2 → Nat) a + S1x1.size a ≤ S1x128.size a
  inb_S1x128_S1x1_0_7 : ∀ a, (![0, 7] : Fin 2 → Nat) a + S1x1.size a ≤ S1x128.size a
  inb_S1x128_S1x1_0_8 : ∀ a, (![0, 8] : Fin 2 → Nat) a + S1x1.size a ≤ S1x128.size a
  inb_S1x128_S1x1_0_9 : ∀ a, (![0, 9] : Fin 2 → Nat) a + S1x1.size a ≤ S1x128.size a
  reduces_S512x1000_S512 : S512x1000.Reduces [1] S512
  shapeCasts_S512_S512x1 : S512.ShapeCasts S512x1
  shapeCasts_S512x1_S1x512x1 : S512x1.ShapeCasts S1x512x1
  reduces_S1x512x1_S1 : S1x512x1.Reduces [1, 2] S1
  slices_S1x128_S1x1_0_0 : S1x128.Slices ![0, 0] S1x1
  shapeCasts_S1x1_S_ : S1x1.ShapeCasts S_
  scatter_S1x128_S2_S10_0_0_01_0_wf : ScatterDims.WF S1x128 S2 S10 [0] [0] [0, 1] 0
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1000.size a ≤ S32768x1000.size a
  hwx0_0 : ∀ i : grid0.Coords, EltTy.bits .f32 = 32 ∨ (Rect.block (s := S32768x1000) S512x1000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S32768x1.size a
  hwx0_1 : ∀ i : grid0.Coords, EltTy.bits .i32 = 32 ∨ (Rect.block (s := S32768x1) S512x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1000.size a ≤ S32768x1000.size a
  hwx1_0 : ∀ i : grid1.Coords, EltTy.bits .f32 = 32 ∨ (Rect.block (s := S32768x1000) S512x1000.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x1.size a ≤ S32768x1.size a
  hwx1_1 : ∀ i : grid1.Coords, EltTy.bits .i32 = 32 ∨ (Rect.block (s := S32768x1) S512x1.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)

variable [Facts₀]

def scatter_S1x128_S2_S10_0_0_01_0 : ScatterDims S1x128 S2 S10 where
  updateWindowDims := [0]
  insertedWindowDims := [0]
  scatterDimsToOperandDims := [0, 1]
  indexVectorDim := 0
  wf := scatter_S1x128_S2_S10_0_0_01_0_wf

abbrev win0_0 : Pipeline.Window sig grid0 :=
  Pipeline.Window.ofSpec (Memref.whole main_arg0) S512x1000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x128.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S512x1000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S512x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v19) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v20) S1x128.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S32768x1000 : Shape := ⟨2, ![32768, 1000]⟩
abbrev S32768 : Shape := ⟨1, ![32768]⟩
abbrev S32768x1 : Shape := ⟨2, ![32768, 1]⟩
abbrev S1x1000 : Shape := ⟨2, ![1, 1000]⟩
abbrev S_ : Shape := ⟨0, ![]⟩
abbrev S10 : Shape := ⟨1, ![10]⟩
abbrev S32768000 : Shape := ⟨1, ![32768000]⟩
abbrev S32768000x1 : Shape := ⟨2, ![32768000, 1]⟩
abbrev S32768x1000x1 : Shape := ⟨3, ![32768, 1000, 1]⟩
abbrev S32768x1x1 : Shape := ⟨3, ![32768, 1, 1]⟩
abbrev S1 : Shape := ⟨1, ![1]⟩
abbrev S1x1x1 : Shape := ⟨3, ![1, 1, 1]⟩

abbrev nBuf : Space → Nat
  | .hbm => 114
  | .vmem => 0
  | .smem => 0
  | _ => 0

abbrev bufTy : (tb : Table) → Fin (tcTables nBuf tb) → BufTy
  | .hbm, ⟨0, _⟩ => ⟨S32768x1000, .f32⟩
  | .hbm, ⟨1, _⟩ => ⟨S32768, .i32⟩
  | .hbm, ⟨2, _⟩ => ⟨S32768x1, .i32⟩
  | .hbm, ⟨3, _⟩ => ⟨S1x1000, .i32⟩
  | .hbm, ⟨4, _⟩ => ⟨S32768x1000, .i32⟩
  | .hbm, ⟨5, _⟩ => ⟨S32768x1000, .i32⟩
  | .hbm, ⟨6, _⟩ => ⟨S32768x1000, .i1⟩
  | .hbm, ⟨7, _⟩ => ⟨S32768x1000, .f32⟩
  | .hbm, ⟨8, _⟩ => ⟨S32768x1000, .f32⟩
  | .hbm, ⟨9, _⟩ => ⟨S32768x1000, .f32⟩
  | .hbm, ⟨10, _⟩ => ⟨S_, .f32⟩
  | .hbm, ⟨11, _⟩ => ⟨S32768x1000, .f32⟩
  | .hbm, ⟨12, _⟩ => ⟨S32768x1000, .f32⟩
  | .hbm, ⟨13, _⟩ => ⟨S_, .f32⟩
  | .hbm, ⟨14, _⟩ => ⟨S32768x1000, .f32⟩
  | .hbm, ⟨15, _⟩ => ⟨S32768x1000, .f32⟩
  | .hbm, ⟨16, _⟩ => ⟨S32768x1000, .f32⟩
  | .hbm, ⟨17, _⟩ => ⟨S32768x1000, .f32⟩
  | .hbm, ⟨18, _⟩ => ⟨S_, .f32⟩
  | .hbm, ⟨19, _⟩ => ⟨S32768x1000, .f32⟩
  | .hbm, ⟨20, _⟩ => ⟨S32768x1000, .f32⟩
  | .hbm, ⟨21, _⟩ => ⟨S32768x1000, .i32⟩
  | .hbm, ⟨22, _⟩ => ⟨S_, .i32⟩
  | .hbm, ⟨23, _⟩ => ⟨S32768x1000, .i32⟩
  | .hbm, ⟨24, _⟩ => ⟨S32768x1000, .i32⟩
  | .hbm, ⟨25, _⟩ => ⟨S_, .f32⟩
  | .hbm, ⟨26, _⟩ => ⟨S10, .f32⟩
  | .hbm, ⟨27, _⟩ => ⟨S32768000, .i32⟩
  | .hbm, ⟨28, _⟩ => ⟨S_, .i32⟩
  | .hbm, ⟨29, _⟩ => ⟨S32768000, .i32⟩
  | .hbm, ⟨30, _⟩ => ⟨S32768000, .i1⟩
  | .hbm, ⟨31, _⟩ => ⟨S_, .i32⟩
  | .hbm, ⟨32, _⟩ => ⟨S32768000, .i32⟩
  | .hbm, ⟨33, _⟩ => ⟨S32768000, .i32⟩
  | .hbm, ⟨34, _⟩ => ⟨S32768000, .i32⟩
  | .hbm, ⟨35, _⟩ => ⟨S32768000x1, .i32⟩
  | .hbm, ⟨36, _⟩ => ⟨S_, .f32⟩
  | .hbm, ⟨37, _⟩ => ⟨S32768000, .f32⟩
  | .hbm, ⟨38, _⟩ => ⟨S10, .f32⟩
  | .hbm, ⟨39, _⟩ => ⟨S_, .f32⟩
  | .hbm, ⟨40, _⟩ => ⟨S10, .f32⟩
  | .hbm, ⟨41, _⟩ => ⟨S10, .i1⟩
  | .hbm, ⟨42, _⟩ => ⟨S10, .i32⟩
  | .hbm, ⟨43, _⟩ => ⟨S_, .i32⟩
  | .hbm, ⟨44, _⟩ => ⟨S_, .i32⟩
  | .hbm, ⟨45, _⟩ => ⟨S_, .f32⟩
  | .hbm, ⟨46, _⟩ => ⟨S_, .f32⟩
  | .hbm, ⟨47, _⟩ => ⟨S10, .f32⟩
  | .hbm, ⟨48, _⟩ => ⟨S10, .f32⟩
  | .hbm, ⟨49, _⟩ => ⟨S_, .f32⟩
  | .hbm, ⟨50, _⟩ => ⟨S10, .f32⟩
  | .hbm, ⟨51, _⟩ => ⟨S10, .f32⟩
  | .hbm, ⟨52, _⟩ => ⟨S_, .i32⟩
  | .hbm, ⟨53, _⟩ => ⟨S32768x1000, .i32⟩
  | .hbm, ⟨54, _⟩ => ⟨S32768x1000, .i1⟩
  | .hbm, ⟨55, _⟩ => ⟨S_, .i32⟩
  | .hbm, ⟨56, _⟩ => ⟨S32768x1000, .i32⟩
  | .hbm, ⟨57, _⟩ => ⟨S32768x1000, .i32⟩
  | .hbm, ⟨58, _⟩ => ⟨S32768x1000, .i32⟩
  | .hbm, ⟨59, _⟩ => ⟨S32768x1000x1, .i32⟩
  | .hbm, ⟨60, _⟩ => ⟨S32768x1000, .f32⟩
  | .hbm, ⟨61, _⟩ => ⟨S32768x1000, .f32⟩
  | .hbm, ⟨62, _⟩ => ⟨S32768x1000, .f32⟩
  | .hbm, ⟨63, _⟩ => ⟨S32768x1, .i32⟩
  | .hbm, ⟨64, _⟩ => ⟨S_, .i32⟩
  | .hbm, ⟨65, _⟩ => ⟨S32768x1, .i32⟩
  | .hbm, ⟨66, _⟩ => ⟨S32768x1, .i1⟩
  | .hbm, ⟨67, _⟩ => ⟨S_, .i32⟩
  | .hbm, ⟨68, _⟩ => ⟨S32768x1, .i32⟩
  | .hbm, ⟨69, _⟩ => ⟨S32768x1, .i32⟩
  | .hbm, ⟨70, _⟩ => ⟨S32768x1, .i32⟩
  | .hbm, ⟨71, _⟩ => ⟨S32768x1x1, .i32⟩
  | .hbm, ⟨72, _⟩ => ⟨S1, .i32⟩
  | .hbm, ⟨73, _⟩ => ⟨S_, .i32⟩
  | .hbm, ⟨74, _⟩ => ⟨S32768x1x1, .i32⟩
  | .hbm, ⟨75, _⟩ => ⟨S32768x1x1, .i1⟩
  | .hbm, ⟨76, _⟩ => ⟨S1x1x1, .i32⟩
  | .hbm, ⟨77, _⟩ => ⟨S32768x1x1, .i32⟩
  | .hbm, ⟨78, _⟩ => ⟨S32768x1x1, .i1⟩
  | .hbm, ⟨79, _⟩ => ⟨S32768x1x1, .i1⟩
  | .hbm, ⟨80, _⟩ => ⟨S_, .i1⟩
  | .hbm, ⟨81, _⟩ => ⟨S32768x1, .i1⟩
  | .hbm, ⟨82, _⟩ => ⟨S32768x1, .f32⟩
  | .hbm, ⟨83, _⟩ => ⟨S_, .f32⟩
  | .hbm, ⟨84, _⟩ => ⟨S32768x1, .f32⟩
  | .hbm, ⟨85, _⟩ => ⟨S32768x1, .f32⟩
  | .hbm, ⟨86, _⟩ => ⟨S32768x1000, .f32⟩
  | .hbm, ⟨87, _⟩ => ⟨S32768x1000, .f32⟩
  | .hbm, ⟨88, _⟩ => ⟨S_, .f32⟩
  | .hbm, ⟨89, _⟩ => ⟨S32768x1000, .f32⟩
  | .hbm, ⟨90, _⟩ => ⟨S32768x1000, .f32⟩
  | .hbm, ⟨91, _⟩ => ⟨S32768x1000, .f32⟩
  | .hbm, ⟨92, _⟩ => ⟨S32768x1000, .f32⟩
  | .hbm, ⟨93, _⟩ => ⟨S_, .f32⟩
  | .hbm, ⟨94, _⟩ => ⟨S32768, .f32⟩
  | .hbm, ⟨95, _⟩ => ⟨S_, .f32⟩
  | .hbm, ⟨96, _⟩ => ⟨S32768, .f32⟩
  | .hbm, ⟨97, _⟩ => ⟨S32768, .f32⟩
  | .hbm, ⟨98, _⟩ => ⟨S32768x1, .f32⟩
  | .hbm, ⟨99, _⟩ => ⟨S32768x1000, .f32⟩
  | .hbm, ⟨100, _⟩ => ⟨S32768x1000, .f32⟩
  | .hbm, ⟨101, _⟩ => ⟨S32768x1000, .f32⟩
  | .hbm, ⟨102, _⟩ => ⟨S_, .f32⟩
  | .hbm, ⟨103, _⟩ => ⟨S32768, .f32⟩
  | .hbm, ⟨104, _⟩ => ⟨S32768x1, .f32⟩
  | .hbm, ⟨105, _⟩ => ⟨S32768x1, .f32⟩
  | .hbm, ⟨106, _⟩ => ⟨S32768x1000, .f32⟩
  | .hbm, ⟨107, _⟩ => ⟨S32768x1000, .f32⟩
  | .hbm, ⟨108, _⟩ => ⟨S32768x1000, .f32⟩
  | .hbm, ⟨109, _⟩ => ⟨S_, .f32⟩
  | .hbm, ⟨110, _⟩ => ⟨S_, .f32⟩
  | .hbm, ⟨111, _⟩ => ⟨S_, .f32⟩
  | .hbm, ⟨112, _⟩ => ⟨S_, .f32⟩
  | .hbm, ⟨113, _⟩ => ⟨S_, .f32⟩
  | _, _ => ⟨S32768x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_v3 : Ref sig .tc := ⟨.hbm, 5, rfl⟩
abbrev main_call0_v4 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_c_3 : Ref sig .tc := ⟨.hbm, 28, rfl⟩
abbrev main_v16 : Ref sig .tc := ⟨.hbm, 29, rfl⟩
abbrev main_v17 : Ref sig .tc := ⟨.hbm, 30, rfl⟩
abbrev main_c_4 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_7 : Ref sig .tc := ⟨.hbm, 43, rfl⟩
abbrev main_v27 : Ref sig .tc := ⟨.hbm, 44, rfl⟩
abbrev main_v28 : Ref sig .tc := ⟨.hbm, 45, rfl⟩
abbrev main_cst_8 : Ref sig .tc := ⟨.hbm, 46, rfl⟩
abbrev main_v29 : Ref sig .tc := ⟨.hbm, 47, rfl⟩
abbrev main_v30 : Ref sig .tc := ⟨.hbm, 48, rfl⟩
abbrev main_cst_9 : Ref sig .tc := ⟨.hbm, 49, rfl⟩
abbrev main_v31 : Ref sig .tc := ⟨.hbm, 50, rfl⟩
abbrev main_v32 : Ref sig .tc := ⟨.hbm, 51, rfl⟩
abbrev main_c_10 : Ref sig .tc := ⟨.hbm, 52, rfl⟩
abbrev main_v33 : Ref sig .tc := ⟨.hbm, 53, rfl⟩
abbrev main_v34 : Ref sig .tc := ⟨.hbm, 54, rfl⟩
abbrev main_c_11 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_call1_c : Ref sig .tc := ⟨.hbm, 64, rfl⟩
abbrev main_call1_v0 : Ref sig .tc := ⟨.hbm, 65, rfl⟩
abbrev main_call1_v1 : Ref sig .tc := ⟨.hbm, 66, rfl⟩
abbrev main_call1_c_0 : Ref sig .tc := ⟨.hbm, 67, rfl⟩
abbrev main_call1_v2 : Ref sig .tc := ⟨.hbm, 68, rfl⟩
abbrev main_call1_v3 : Ref sig .tc := ⟨.hbm, 69, rfl⟩
abbrev main_call1_v4 : Ref sig .tc := ⟨.hbm, 70, rfl⟩
abbrev main_call1_v5 : Ref sig .tc := ⟨.hbm, 71, rfl⟩
abbrev main_call1_c_1 : Ref sig .tc := ⟨.hbm, 72, rfl⟩
abbrev main_call1_c_2 : Ref sig .tc := ⟨.hbm, 73, rfl⟩
abbrev main_call1_v6 : Ref sig .tc := ⟨.hbm, 74, rfl⟩
abbrev main_call1_v7 : Ref sig .tc := ⟨.hbm, 75, rfl⟩
abbrev main_call1_v8 : Ref sig .tc := ⟨.hbm, 76, rfl⟩
abbrev main_call1_v9 : Ref sig .tc := ⟨.hbm, 77, rfl⟩
abbrev main_call1_v10 : Ref sig .tc := ⟨.hbm, 78, rfl⟩
abbrev main_call1_v11 : Ref sig .tc := ⟨.hbm, 79, rfl⟩
abbrev main_call1_c_3 : Ref sig .tc := ⟨.hbm, 80, rfl⟩
abbrev main_call1_v12 : Ref sig .tc := ⟨.hbm, 81, rfl⟩
abbrev main_call1_v13 : Ref sig .tc := ⟨.hbm, 82, rfl⟩
abbrev main_call1_cst : Ref sig .tc := ⟨.hbm, 83, rfl⟩
abbrev main_call1_v14 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_cst_12 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_call2_cst : Ref sig .tc := ⟨.hbm, 93, rfl⟩
abbrev main_call2_v0 : Ref sig .tc := ⟨.hbm, 94, rfl⟩
abbrev main_call2_cst_0 : Ref sig .tc := ⟨.hbm, 95, rfl⟩
abbrev main_call2_v1 : Ref sig .tc := ⟨.hbm, 96, rfl⟩
abbrev main_call2_v2 : Ref sig .tc := ⟨.hbm, 97, rfl⟩
abbrev main_call2_v3 : Ref sig .tc := ⟨.hbm, 98, rfl⟩
abbrev main_call2_v4 : Ref sig .tc := ⟨.hbm, 99, rfl⟩
abbrev main_call2_v5 : Ref sig .tc := ⟨.hbm, 100, rfl⟩
abbrev main_call2_v6 : Ref sig .tc := ⟨.hbm, 101, rfl⟩
abbrev main_call2_cst_1 : Ref sig .tc := ⟨.hbm, 102, rfl⟩
abbrev main_call2_v7 : Ref sig .tc := ⟨.hbm, 103, rfl⟩
abbrev main_call2_v8 : Ref sig .tc := ⟨.hbm, 104, rfl⟩
abbrev main_call2_v9 : Ref sig .tc := ⟨.hbm, 105, rfl⟩
abbrev main_call2_v10 : Ref sig .tc := ⟨.hbm, 106, rfl⟩
abbrev main_v50 : Ref sig .tc := ⟨.hbm, 107, rfl⟩
abbrev main_v51 : Ref sig .tc := ⟨.hbm, 108, rfl⟩
abbrev main_cst_13 : Ref sig .tc := ⟨.hbm, 109, rfl⟩
abbrev main_v52 : Ref sig .tc := ⟨.hbm, 110, rfl⟩
abbrev main_v53 : Ref sig .tc := ⟨.hbm, 111, rfl⟩
abbrev main_cst_14 : Ref sig .tc := ⟨.hbm, 112, rfl⟩
abbrev main_v54 : Ref sig .tc := ⟨.hbm, 113, rfl⟩

abbrev nD : Nat := 1
abbrev τ : Topo := Topo.v7x

variable {F : FTy → Type} [FloatOps F]

class Facts₀ : Prop where
  bcast_S32768_S32768x1_0 : S32768.BroadcastsInDim S32768x1 (![0] : Fin 1 → Fin S32768x1.rank)
  bcast_S32768x1_S32768x1000_0_1 : S32768x1.BroadcastsInDim S32768x1000 (![0, 1] : Fin 2 → Fin S32768x1000.rank)
  bcast_S1x1000_S32768x1000_0_1 : S1x1000.BroadcastsInDim S32768x1000 (![0, 1] : Fin 2 → Fin S32768x1000.rank)
  bcast_S_S32768x1000 : S_.BroadcastsInDim S32768x1000 (![] : Fin 0 → Fin S32768x1000.rank)
  bcast_S_S10 : S_.BroadcastsInDim S10 (![] : Fin 0 → Fin S10.rank)
  shapeCasts_S32768x1000_S32768000 : S32768x1000.ShapeCasts S32768000
  bcast_S_S32768000 : S_.BroadcastsInDim S32768000 (![] : Fin 0 → Fin S32768000.rank)
  bcast_S32768000_S32768000x1_0 : S32768000.BroadcastsInDim S32768000x1 (![0] : Fin 1 → Fin S32768000x1.rank)
  natLt_1_32 : 1 < 32
  reducesTo_S10_S_d0 : S10.ReducesTo [0] S_
  h_S_ : 0 < S_.numel
  bcast_S32768x1000_S32768x1000x1_0_1 : S32768x1000.BroadcastsInDim S32768x1000x1 (![0, 1] : Fin 2 → Fin S32768x1000x1.rank)
  bcast_S_S32768x1 : S_.BroadcastsInDim S32768x1 (![] : Fin 0 → Fin S32768x1.rank)
  shapeCasts_S32768x1_S32768x1x1 : S32768x1.ShapeCasts S32768x1x1
  bcast_S_S32768x1x1 : S_.BroadcastsInDim S32768x1x1 (![] : Fin 0 → Fin S32768x1x1.rank)
  bcast_S1_S1x1x1_2 : S1.BroadcastsInDim S1x1x1 (![2] : Fin 1 → Fin S1x1x1.rank)
  bcast_S1x1x1_S32768x1x1_0_1_2 : S1x1x1.BroadcastsInDim S32768x1x1 (![0, 1, 2] : Fin 3 → Fin S32768x1x1.rank)
  reducesTo_S32768x1x1_S32768x1_d2 : S32768x1x1.ReducesTo [2] S32768x1
  reducesTo_S32768x1000_S32768_d1 : S32768x1000.ReducesTo [1] S32768
  bcast_S_S32768 : S_.BroadcastsInDim S32768 (![] : Fin 0 → Fin S32768.rank)
  reducesTo_S32768x1000_S_d0_1 : S32768x1000.ReducesTo [0, 1] S_
  scatter_S10_S32768000x1_S32768000_n_0_0_1_wf : ScatterDims.WF S10 S32768000x1 S32768000 [] [0] [0] 1
  gather_S10_S32768x1000x1_S32768x1000_n_0_n_n_0_2_1_wf : GatherDims.WF S10 S32768x1000x1 S32768x1000 [] [0] [] [0] [] 2 ![1]
  gather_S32768x1000_S32768x1x1_S32768x1_n_1_0_0_1_2_11_wf : GatherDims.WF S32768x1000 S32768x1x1 S32768x1 [] [1] [0] [1] [0] 2 ![1, 1]

variable [Facts₀]

def scatter_S10_S32768000x1_S32768000_n_0_0_1 : ScatterDims S10 S32768000x1 S32768000 where
  updateWindowDims := []
  insertedWindowDims := [0]
  scatterDimsToOperandDims := [0]
  indexVectorDim := 1
  wf := scatter_S10_S32768000x1_S32768000_n_0_0_1_wf
def gather_S10_S32768x1000x1_S32768x1000_n_0_n_n_0_2_1 : GatherDims S10 S32768x1000x1 S32768x1000 where
  offsetDims := []
  collapsedSliceDims := [0]
  operandBatchingDims := []
  startIndicesBatchingDims := []
  startIndexMap := [0]
  indexVectorDim := 2
  sliceSizes := ![1]
  wf := gather_S10_S32768x1000x1_S32768x1000_n_0_n_n_0_2_1_wf
def gather_S32768x1000_S32768x1x1_S32768x1_n_1_0_0_1_2_11 : GatherDims S32768x1000 S32768x1x1 S32768x1 where
  offsetDims := []
  collapsedSliceDims := [1]
  operandBatchingDims := [0]
  startIndicesBatchingDims := [0]
  startIndexMap := [1]
  indexVectorDim := 2
  sliceSizes := ![1, 1]
  wf := gather_S32768x1000_S32768x1x1_S32768x1_n_1_0_0_1_2_11_wf

class Facts : Prop extends Facts₀ where

variable [Facts]
-- ==== Proof.RefStaged.lean ====
/- The reference's run, with its result stated over the stages of the Read module: every weakly fair execution of
   the reference's @main terminates, nothing faulting, with the result buffer at the last stage's value of the two
   argument arrays and the arguments as launched. The 112 operations are cut into stretches at points where few
   buffers are live; each stretch's results are read off the fold of its operations and identified with the stages. -/
import proofs.«400093_j38671885533689_1_alg».proof.Proof.RefRun
import proofs.«400093_j38671885533689_1_alg».proof.Proof.RefRead
import Idealize.ShloMosaic.Lib.StableHlo.Run

noncomputable section

namespace Cert.ReferenceIdeal.Staged

open Cert.ReferenceIdeal Cert.ReferenceIdeal.Gen Cert.ReferenceIdeal.Value Cert.ReferenceIdeal.Read
  Idealize.ShloMosaic Idealize.ShloMosaic.TcCoe Idealize.SL.Sem Idealize.ShloMosaic.StableHlo

variable {F : FTy → Type} [FloatOps F]

/-- The type of the first argument array: the logits, 32768 rows of 1000 columns. -/
abbrev Arr0 (F : FTy → Type) [FloatOps F] := (⟨S32768x1000, .f32⟩ : BufTy).Contents (Elt F)
/-- The type of the second argument array: the labels, one word per row. -/
abbrev Arr1 (F : FTy → Type) [FloatOps F] := (⟨S32768, .i32⟩ : BufTy).Contents (Elt F)

/-- A transport along an equation of types and back is the identity. -/
theorem cast_cast_cancel {A B : Sort _} (h : B = A) (h' : A = B) (v : A) : cast h (cast h' v) = v := by
  subst h'; rfl

/-- The fold of a list of operations is the fold of its first `k`, then the fold of the rest. -/
theorem after_split (k : Nat) (l : List (HloOp τ sig (Elt F))) (V : Valuation τ sig (Elt F)) :
    after l V = after (l.drop k) (after (l.take k) V) := by
  rw [← after_append, List.take_append_drop]

/-! ## First stretch: operations 1 to 23, from the arguments to the array of bins

Written: the one-hot array `main_v0` of the labels and the array of bins `main_v13`
(the sigmoid of the logits, minus the one-hot array, in absolute value, times ten, truncated, capped at nine).
Afterwards only `main_v0`, `main_v13` and the two arguments are read again. -/

/-- After the first stretch the array of bins holds its stage. -/
theorem stretchA_v13 (W : Valuation τ sig (Elt F)) (x0 : Arr0 F) (x1 : Arr1 F)
    (h0 : W (Proc.devRef .tc main_arg0) = x0) (h1 : W (Proc.devRef .tc main_arg1) = x1) :
    after ((ops (F := F)).take 23) W (Proc.devRef .tc main_v13) = val_main_v13 (F := F) x0 x1 := by
  subst h0 h1
  simp only [ops, List.take_succ_cons, List.take_zero, List.drop_succ_cons, List.drop_zero]
  after_results_simp
  simp only [TRef.ofBuf, TRef.toBuf, cast_cast_cancel]
  simp only [cast_eq]
  unfold val_main_v13 val_main_v12 val_main_c val_main_v11 val_main_v10 val_main_v9 val_main_cst_1 val_main_v8 val_main_v7
    val_main_v6 val_main_v5 val_main_cst_0 val_main_v4 val_main_v3 val_main_cst val_main_v2 val_main_v1 val_main_v0
    val_main_call0_v4 val_main_call0_v3 val_main_call0_v2 val_main_call0_v1 val_main_call0_v0
  rfl

/-- After the first stretch the one-hot array holds its stage. -/
theorem stretchA_v0 (W : Valuation τ sig (Elt F)) (x1 : Arr1 F)
    (h1 : W (Proc.devRef .tc main_arg1) = x1) :
    after ((ops (F := F)).take 23) W (Proc.devRef .tc main_v0) = val_main_v0 (F := F) x1 := by
  subst h1
  simp only [ops, List.take_succ_cons, List.take_zero, List.drop_succ_cons, List.drop_zero]
  after_results_simp
  simp only [TRef.ofBuf, TRef.toBuf, cast_cast_cancel]
  simp only [cast_eq]
  unfold val_main_v0 val_main_call0_v4 val_main_call0_v3 val_main_call0_v2 val_main_call0_v1 val_main_call0_v0
  rfl

/-- The first stretch writes neither argument: the logits are as before. -/
theorem stretchA_arg0 (W : Valuation τ sig (Elt F)) :
    after ((ops (F := F)).take 23) W (Proc.devRef .tc main_arg0) = W (Proc.devRef .tc main_arg0) := by
  simp only [ops, List.take_succ_cons, List.take_zero, List.drop_succ_cons, List.drop_zero]
  after_results_simp

/-- The first stretch writes neither argument: the labels are as before. -/
theorem stretchA_arg1 (W : Valuation τ sig (Elt F)) :
    after ((ops (F := F)).take 23) W (Proc.devRef .tc main_arg1) = W (Proc.devRef .tc main_arg1) := by
  simp only [ops, List.take_succ_cons, List.take_zero, List.drop_succ_cons, List.drop_zero]
  after_results_simp

/-! ## Second stretch: operations 24 to 61, from the bins to the per-entry weights

The histogram of the bins (a scatter-add of ones into ten zeros), the number of non-empty bins, each bin's weight
one over its count capped below at one, the gather of an entry's bin weight, and its quotient by the number of
non-empty bins: `main_v41`. The stretch reads, of what was written before, only the array of bins. -/

/-- After the second stretch the array of weights holds its stage, given the bins at entry. -/
theorem stretchB_v41 (W : Valuation τ sig (Elt F)) (x0 : Arr0 F) (x1 : Arr1 F)
    (h13 : W (Proc.devRef .tc main_v13) = val_main_v13 (F := F) x0 x1) :
    after (((ops (F := F)).drop 23).take 38) W (Proc.devRef .tc main_v41) = val_main_v41 (F := F) x0 x1 := by
  simp only [ops, List.take_succ_cons, List.take_zero, List.drop_succ_cons, List.drop_zero]
  after_results_simp
  rw [h13]
  unfold val_main_v41 val_main_v40 val_main_v39 val_main_v38 val_main_v37 val_main_v36 val_main_v35 val_main_c_11
    val_main_v34 val_main_v33 val_main_c_10 val_main_v32 val_main_v31 val_main_cst_9 val_main_v30 val_main_v29 val_main_cst_8
    val_main_v28 val_main_v27 val_main_c_7 val_main_v26 val_main_v25 val_main_v24 val_main_cst_6 val_main_v23 val_main_v22
    val_main_cst_5 val_main_v21 val_main_v20 val_main_v19 val_main_v18 val_main_c_4 val_main_v17 val_main_v16 val_main_c_3
    val_main_v15 val_main_v14 val_main_cst_2
  rfl

/-- The second stretch does not write the one-hot array. -/
theorem stretchB_v0 (W : Valuation τ sig (Elt F)) :
    after (((ops (F := F)).drop 23).take 38) W (Proc.devRef .tc main_v0) = W (Proc.devRef .tc main_v0) := by
  simp only [ops, List.take_succ_cons, List.take_zero, List.drop_succ_cons, List.drop_zero]
  after_results_simp

/-- The second stretch does not write the logits. -/
theorem stretchB_arg0 (W : Valuation τ sig (Elt F)) :
    after (((ops (F := F)).drop 23).take 38) W (Proc.devRef .tc main_arg0) = W (Proc.devRef .tc main_arg0) := by
  simp only [ops, List.take_succ_cons, List.take_zero, List.drop_succ_cons, List.drop_zero]
  after_results_simp

/-- The second stretch does not write the labels. -/
theorem stretchB_arg1 (W : Valuation τ sig (Elt F)) :
    after (((ops (F := F)).drop 23).take 38) W (Proc.devRef .tc main_arg1) = W (Proc.devRef .tc main_arg1) := by
  simp only [ops, List.take_succ_cons, List.take_zero, List.drop_succ_cons, List.drop_zero]
  after_results_simp

/-! ## Third stretch: operations 62 to 91, from the weights to the shifted logits

The label's weight of each row (a gather along the row at the label, wrapped and range-checked), its quotient by
each entry's weight capped above at one, the logarithm of that, added to the logits: `main_v49`.
The stretch reads, of what was written before, only the weights; and the two arguments. -/

/-- After the third stretch the shifted logits hold their stage, given the weights and the arguments at entry. -/
theorem stretchC_v49 (W : Valuation τ sig (Elt F)) (x0 : Arr0 F) (x1 : Arr1 F)
    (h0 : W (Proc.devRef .tc main_arg0) = x0) (h1 : W (Proc.devRef .tc main_arg1) = x1)
    (h41 : W (Proc.devRef .tc main_v41) = val_main_v41 (F := F) x0 x1) :
    after ((((ops (F := F)).drop 23).drop 38).take 30) W (Proc.devRef .tc main_v49) = val_main_v49 (F := F) x0 x1 := by
  simp only [ops, List.take_succ_cons, List.take_zero, List.drop_succ_cons, List.drop_zero]
  after_results_simp
  simp only [TRef.ofBuf, TRef.toBuf, cast_cast_cancel]
  simp only [cast_eq]
  rw [h41, h0, h1]
  unfold val_main_v49 val_main_v48 val_main_v47 val_main_v46 val_main_cst_12 val_main_v45 val_main_v44 val_main_v43
    val_main_call1_v14 val_main_call1_cst val_main_call1_v13 val_main_call1_v12 val_main_call1_c_3 val_main_call1_v11
    val_main_call1_v10 val_main_call1_v9 val_main_call1_v8 val_main_call1_v7 val_main_call1_v6 val_main_call1_c_2
    val_main_call1_c_1 val_main_call1_v5 val_main_call1_v4 val_main_call1_v3 val_main_call1_v2 val_main_call1_c_0
    val_main_call1_v1 val_main_call1_v0 val_main_call1_c val_main_v42
  rfl

/-- The third stretch does not write the one-hot array. -/
theorem stretchC_v0 (W : Valuation τ sig (Elt F)) :
    after ((((ops (F := F)).drop 23).drop 38).take 30) W (Proc.devRef .tc main_v0) = W (Proc.devRef .tc main_v0) := by
  simp only [ops, List.take_succ_cons, List.take_zero, List.drop_succ_cons, List.drop_zero]
  after_results_simp

/-! ## Last stretch: operations 92 to 112, from the shifted logits to the result

The log-softmax of each shifted row (the row less its maximum, less the logarithm of the sum of the exponentials of
that), times the one-hot array, summed over all entries, negated, divided by the number of rows: `main_v54`.
The stretch reads, of what was written before, only the shifted logits and the one-hot array. -/

/-- After the last stretch the result holds the last stage, given the shifted logits and the one-hot array at entry. -/
theorem stretchD_v54 (W : Valuation τ sig (Elt F)) (x0 : Arr0 F) (x1 : Arr1 F)
    (hv0 : W (Proc.devRef .tc main_v0) = val_main_v0 (F := F) x1)
    (h49 : W (Proc.devRef .tc main_v49) = val_main_v49 (F := F) x0 x1) :
    after ((((ops (F := F)).drop 23).drop 38).drop 30) W (Proc.devRef .tc main_v54) = val_main_v54 (F := F) x0 x1 := by
  simp only [ops, List.take_succ_cons, List.take_zero, List.drop_succ_cons, List.drop_zero]
  after_results_simp
  simp only [TRef.ofBuf, TRef.toBuf, cast_cast_cancel]
  simp only [cast_eq]
  rw [h49, hv0]
  unfold val_main_v54 val_main_cst_14 val_main_v53 val_main_v52 val_main_cst_13 val_main_v51 val_main_v50
    val_main_call2_v10 val_main_call2_v9 val_main_call2_v8 val_main_call2_v7 val_main_call2_cst_1 val_main_call2_v6
    val_main_call2_v5 val_main_call2_v4 val_main_call2_v3 val_main_call2_v2 val_main_call2_v1 val_main_call2_cst_0
    val_main_call2_v0 val_main_call2_cst
  rfl

/-- The fold of all the operations, at the result buffer, is the last stage of the two argument arrays. -/
theorem after_result (W : Valuation τ sig (Elt F)) :
    after (ops (F := F)) W (Proc.devRef .tc main_v54)
      = val_main_v54 (F := F) (W (Proc.devRef .tc main_arg0)) (W (Proc.devRef .tc main_arg1)) := by
  rw [after_split 23 (ops (F := F)) W, after_split 38 ((ops (F := F)).drop 23),
    after_split 30 (((ops (F := F)).drop 23).drop 38)]
  exact stretchD_v54 _ _ _
    ((stretchC_v0 _).trans ((stretchB_v0 _).trans (stretchA_v0 W _ rfl)))
    (stretchC_v49 _ _ _ ((stretchB_arg0 _).trans (stretchA_arg0 W)) ((stretchB_arg1 _).trans (stretchA_arg1 W))
      (stretchB_v41 _ _ _ (stretchA_v13 W _ _ rfl rfl)))

/-- The run, its result at the last stage. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v54)
          = val_main_v54 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v54).trans (after_result _),
      (h c main_arg0).trans (by after_results_simp <;> rfl),
      (h c main_arg1).trans (by after_results_simp <;> rfl)⟩)
    (run_seq scopedRefs_eq scopedSems_eq defs main (fun _ => ops) main_eq (fun _ => ops_sub) m ρ)

end Cert.ReferenceIdeal.Staged

end
-- ==== Proof.Spec.lean ====
/- The mathematics of the loss, as plain functions of the logits `X` (32768 rows of 1000 extended reals) and the
   labels `T` (one 32-bit word per row), with no program in sight.

   Every entry (r, j) has a gradient density g = |σ(X r j) − [T r = j]| and a bin min(trunc(10·g), 9). The
   histogram counts the entries of each of the ten bins; a bin's weight is (1 / max(count, 1)) / (number of
   non-empty bins); an entry's weight is its bin's. A row's logits are shifted by log(min(w_target / w, 1)),
   where w_target is the weight of the row's label entry, and the row's loss is the cross-entropy of the shifted
   row at the label: logsumexp(shifted) − X r (T r). The result is the mean of the rows' losses.

   Two arrangements of this one number are defined: the kernel's (`lossTiled`: the histogram and the sum of the
   rows' losses accumulated tile by tile, 64 tiles of 512 rows; the label entry picked out by a sum against the
   one-hot row; the bin's weight picked by a chain of ten selects) and the reference's (`lossWhole`: the histogram
   and the sum over all entries at once; the label entry read at its index; minus the one-hot-weighted sum of the
   log-softmax). -/
import Idealize.ShloMosaic.PureOps.Ideal

noncomputable section

namespace Cert.Ghm

open Idealize.ShloMosaic

/-- The logits: 32768 rows of 1000 entries. -/
abbrev Logits := Fin 32768 → Fin 1000 → EReal
/-- The labels: one 32-bit word per row. -/
abbrev LabelVec := Fin 32768 → BitVec 32

/-- Row `q` of tile `t`: the tiles are 64 consecutive stretches of 512 rows. -/
def tileRow (t : Fin 64) (q : Fin 512) : Fin 32768 := ⟨512 * t.val + q.val, by omega⟩

/-- The one-hot row of a label: 1 at the label's column, 0 elsewhere. -/
def hot (T : LabelVec) (r : Fin 32768) (j : Fin 1000) : EReal := if T r = BitVec.ofNat 32 j.val then 1 else 0

/-- The bin of an entry with logit `v` and one-hot value `h`: min(trunc(10 · |σ(v) − h|), 9). -/
def binOf (v h : EReal) : BitVec 32 :=
  IntOp.minsi (Ideal.fptosi 32 (max (Ideal.logistic v - h) (-(Ideal.logistic v - h)) * ((10 : ℝ) : EReal))) 9#32

/-- The bin of entry (r, j). -/
def bin (X : Logits) (T : LabelVec) (r : Fin 32768) (j : Fin 1000) : BitVec 32 := binOf (X r j) (hot T r j)

/-- 1 if entry (r, j) falls in bin `b`, else 0. -/
def inBin (X : Logits) (T : LabelVec) (b : ℕ) (r : Fin 32768) (j : Fin 1000) : EReal :=
  if bin X T r j = BitVec.ofNat 32 b then 1 else 0

/-- The histogram as accumulated tile by tile. -/
def countTiled (X : Logits) (T : LabelVec) (b : ℕ) : EReal :=
  ∑ t : Fin 64, ∑ q : Fin 512, ∑ j : Fin 1000, inBin X T b (tileRow t q) j

/-- The histogram over all entries at once. -/
def countWhole (X : Logits) (T : LabelVec) (b : ℕ) : EReal :=
  ∑ r : Fin 32768, ∑ j : Fin 1000, inBin X T b r j

/-- The number of non-empty bins among the ten, as an extended real. -/
def nonEmpty (cn : ℕ → EReal) : EReal :=
  (((∑ b : Fin 10, (if 0 < cn b.val then (1 : ℤ) else 0) : ℤ) : ℝ) : EReal)

/-- A bin's weight: (1 / max(count, 1)) / (number of non-empty bins). -/
def binWeight (cn : ℕ → EReal) (b : ℕ) : EReal :=
  Ideal.div (Ideal.div 1 (max (cn b) 1)) (nonEmpty cn)

/-- The weight table read through a chain of ten selects: the entry of the matching bin, 0 if none matches. -/
def pick (W : ℕ → EReal) (bn : BitVec 32) : EReal :=
  if bn = 9#32 then W 9 else if bn = 8#32 then W 8 else if bn = 7#32 then W 7 else if bn = 6#32 then W 6
  else if bn = 5#32 then W 5 else if bn = 4#32 then W 4 else if bn = 3#32 then W 3 else if bn = 2#32 then W 2
  else if bn = 1#32 then W 1 else if bn = 0#32 then W 0 else 0

/-- A row's running maximum from minus infinity. -/
def rowMax (f : Fin 1000 → EReal) : EReal := (Finset.univ : Finset (Fin 1000)).fold max ⊥ f

/-- A logit shifted by the log of its clamped weight ratio: x + log(min(w_target / w, 1)). -/
def shiftBy (wt xv wv : EReal) : EReal := xv + Ideal.log (min (Ideal.div wt wv) 1)

/-- log-sum-exp of a row, shifted by its maximum. -/
def logSumExp (f : Fin 1000 → EReal) : EReal := rowMax f + Ideal.log (∑ j : Fin 1000, Ideal.exp (f j - rowMax f))

/-- The log-softmax of a row at column `j`. -/
def logSoftmaxAt (f : Fin 1000 → EReal) (j : Fin 1000) : EReal :=
  (f j - rowMax f) - Ideal.log (∑ k : Fin 1000, Ideal.exp (f k - rowMax f))

/-- One row's loss in the kernel's arrangement, from the row's logits `xr`, its one-hot row `hr` and its entries'
    weights `wr`: the label entries are the sums against the one-hot row. -/
def rowLossTiled (xr hr wr : Fin 1000 → EReal) : EReal :=
  logSumExp (fun j => shiftBy (∑ k : Fin 1000, hr k * wr k) (xr j) (wr j)) - ∑ j : Fin 1000, hr j * xr j

/-- The kernel's arrangement of the loss. -/
def lossTiled (X : Logits) (T : LabelVec) : EReal :=
  Ideal.div
    (∑ t : Fin 64, ∑ q : Fin 512,
      rowLossTiled (X (tileRow t q)) (hot T (tileRow t q))
        (fun j => pick (binWeight (countTiled X T)) (bin X T (tileRow t q) j)))
    ((32768 : ℝ) : EReal)

/-- The column a label names (total: reduced modulo 1000; a label in range names itself). -/
def labelCol (T : LabelVec) (r : Fin 32768) : Fin 1000 := ⟨(T r).toNat % 1000, Nat.mod_lt _ (by decide)⟩

/-- An entry's weight in the reference's arrangement: its bin's weight over the whole histogram. -/
def weightWhole (X : Logits) (T : LabelVec) (r : Fin 32768) (j : Fin 1000) : EReal :=
  binWeight (countWhole X T) (bin X T r j).toNat

/-- The reference's arrangement of the loss. -/
def lossWhole (X : Logits) (T : LabelVec) : EReal :=
  Ideal.div
    (-(0 + ∑ r : Fin 32768, ∑ j : Fin 1000,
        hot T r j * logSoftmaxAt (fun k => shiftBy (weightWhole X T r (labelCol T r)) (X r k) (weightWhole X T r k)) j))
    ((32768 : ℝ) : EReal)

/-- The domain: every logit a real number, every label a column index. -/
def Admissible (X : Logits) (T : LabelVec) : Prop :=
  (∀ r j, ∃ a : ℝ, X r j = (a : EReal)) ∧ ∀ r, (T r).toNat < 1000

end Cert.Ghm

end
-- ==== Proof.LibFinite.lean ====
/-
  Finiteness in the extended reals: which operations keep a value the coercion of a real.

  The extended reals `[-∞, +∞]` are not a ring (distributivity fails at the infinities), so
  an algebraic identity is proved over the reals and transported along the coercion. This
  file collects what the transport needs: a value clamped between two reals is a real in
  that interval; sums, differences, products, minima and maxima of coerced reals are the
  coerced ones; the ideal quotient by a nonzero real and the ideal power of two reals are
  coerced reals; zero annihilates every extended real; and the ideal floor and the
  conversions between reals and 32-bit words are exact on the integers that fit.
-/
import Mathlib.Data.EReal.Operations
import Mathlib.Data.EReal.Inv
import Mathlib.Algebra.Order.Floor.Ring
import Mathlib.Analysis.SpecialFunctions.Pow.Real
import Mathlib.Algebra.BigOperators.Group.Finset.Basic
import Idealize.ShloMosaic.PureOps.Ideal
import Idealize.ShloMosaic.PureOps.Ideal.Laws

namespace Cert.Lib

open Idealize.ShloMosaic

/-! ### Clamping -/

/-- Clamping any extended real `z` between two reals `lo ≤ hi` gives the coercion of a real
    in `[lo, hi]`: `-∞` goes to `lo`, `+∞` to `hi`, and a real to its real clamp. -/
theorem clamp_coe (lo hi : ℝ) (h : lo ≤ hi) (z : EReal) :
    ∃ r : ℝ, lo ≤ r ∧ r ≤ hi ∧ min (hi : EReal) (max (lo : EReal) z) = (r : EReal) := by
  induction z using EReal.rec with
  | bot =>
    refine ⟨lo, le_refl lo, h, ?_⟩
    rw [max_eq_left bot_le, min_eq_right (EReal.coe_le_coe_iff.mpr h)]
  | coe x =>
    refine ⟨min hi (max lo x), le_min h (le_max_left lo x), min_le_left _ _, ?_⟩
    rw [EReal.coe_strictMono.monotone.map_min, EReal.coe_strictMono.monotone.map_max]
  | top =>
    refine ⟨hi, h, le_refl hi, ?_⟩
    rw [max_eq_right le_top, min_eq_left le_top]

/-! ### Arithmetic of coerced reals -/

/-- The sum of two coerced reals is the coerced sum. -/
theorem coe_add_coe (a b : ℝ) : (a : EReal) + (b : EReal) = ((a + b : ℝ) : EReal) :=
  (EReal.coe_add a b).symm

/-- The difference of two coerced reals is the coerced difference. -/
theorem coe_sub_coe (a b : ℝ) : (a : EReal) - (b : EReal) = ((a - b : ℝ) : EReal) :=
  (EReal.coe_sub a b).symm

/-- The product of two coerced reals is the coerced product. -/
theorem coe_mul_coe (a b : ℝ) : (a : EReal) * (b : EReal) = ((a * b : ℝ) : EReal) :=
  (EReal.coe_mul a b).symm

/-- The negation of a coerced real is the coerced negation. -/
theorem neg_coe (a : ℝ) : -(a : EReal) = ((-a : ℝ) : EReal) :=
  (EReal.coe_neg a).symm

/-- The minimum of two coerced reals is the coerced minimum. -/
theorem coe_min_coe (a b : ℝ) : min (a : EReal) (b : EReal) = ((min a b : ℝ) : EReal) :=
  (EReal.coe_strictMono.monotone.map_min).symm

/-- The maximum of two coerced reals is the coerced maximum. -/
theorem coe_max_coe (a b : ℝ) : max (a : EReal) (b : EReal) = ((max a b : ℝ) : EReal) :=
  (EReal.coe_strictMono.monotone.map_max).symm

/-- Zero times any extended real, infinite or not, is zero. -/
theorem zero_mul_ereal (z : EReal) : 0 * z = 0 := zero_mul z

/-- Any extended real, infinite or not, times zero is zero. -/
theorem mul_zero_ereal (z : EReal) : z * 0 = 0 := mul_zero z

/-! ### The ideal quotient and power -/

/-- The ideal quotient of a coerced real by a nonzero coerced real is the coerced quotient. -/
theorem div_coe_coe (a b : ℝ) (hb : b ≠ 0) :
    Ideal.div (a : EReal) (b : EReal) = ((a / b : ℝ) : EReal) := by
  rw [Ideal.div_coe hb, ← EReal.coe_mul, mul_one_div]

/-- The same, for the quotient as a kernel's float operation. -/
theorem divf_coe_coe {φ : FTy} (a b : ℝ) (hb : b ≠ 0) :
    FloatOps.divf (F := Ideal) (φ := φ) (a : EReal) (b : EReal) = ((a / b : ℝ) : EReal) :=
  div_coe_coe a b hb

/-- The same, for the quotient as the host's float operation. -/
theorem hostDivf_coe_coe {φ : FTy} (a b : ℝ) (hb : b ≠ 0) :
    FloatOps.hostDivf (F := Ideal) (φ := φ) (a : EReal) (b : EReal) = ((a / b : ℝ) : EReal) :=
  div_coe_coe a b hb

/-- The ideal power of two coerced reals is the coerced real power. -/
theorem pow_coe_coe (a b : ℝ) : Ideal.pow (a : EReal) (b : EReal) = ((a ^ b : ℝ) : EReal) := rfl

/-- The same, for the power as a kernel's float operation. -/
theorem powf_coe_coe {φ : FTy} (a b : ℝ) :
    FloatOps.powf (F := Ideal) (φ := φ) (a : EReal) (b : EReal) = ((a ^ b : ℝ) : EReal) := rfl

/-- The same, for the power as the host's float operation. -/
theorem hostPowf_coe_coe {φ : FTy} (a b : ℝ) :
    FloatOps.hostPowf (F := Ideal) (φ := φ) (a : EReal) (b : EReal) = ((a ^ b : ℝ) : EReal) := rfl

/-! ### Floor -/

/-- The ideal floor of a coerced real `r` is the coercion of the integer `⌊r⌋`. -/
theorem floor_coe (r : ℝ) :
    Ideal.liftRound Int.floor (r : EReal) = (((⌊r⌋ : ℤ) : ℝ) : EReal) := rfl

/-- The same, for the floor as a kernel's float operation. -/
theorem floorf_coe {φ : FTy} (r : ℝ) :
    FloatOps.floor (F := Ideal) (φ := φ) (r : EReal) = (((⌊r⌋ : ℤ) : ℝ) : EReal) := rfl

/-- The same, for the floor as the host's float operation. -/
theorem hostFloor_coe {φ : FTy} (r : ℝ) :
    FloatOps.hostUnary (F := Ideal) (φ := φ) .floor (r : EReal) = (((⌊r⌋ : ℤ) : ℝ) : EReal) := rfl

/-- The floor of a real in `[lo, hi]`, for integers `lo` and `hi`, is an integer in `[lo, hi]`. -/
theorem floor_mem_Icc (lo hi : ℤ) (r : ℝ) (h0 : (lo : ℝ) ≤ r) (h1 : r ≤ (hi : ℝ)) :
    lo ≤ ⌊r⌋ ∧ ⌊r⌋ ≤ hi :=
  ⟨Int.le_floor.mpr h0, Int.cast_le.mp ((Int.floor_le r).trans h1)⟩

/-! ### Conversions between reals and 32-bit words -/

/-- The conversion of a coerced integer that fits a signed 32-bit word is the word of that
    integer: the rounding toward zero fixes an integer and the clamp does not bind. -/
theorem fptosi32_coe_int (n : ℤ) (hlo : -(2 : ℤ) ^ 31 ≤ n) (hhi : n ≤ 2 ^ 31 - 1) :
    Ideal.fptosi 32 (((n : ℤ) : ℝ) : EReal) = BitVec.ofInt 32 n := by
  unfold Ideal.fptosi
  rw [Ideal.toIntClamped_coe]
  congr 1
  simp only [Int.floor_intCast, Int.ceil_intCast, ite_self]
  rw [min_eq_right (by norm_num; omega), max_eq_right (by norm_num; omega)]

/-- In particular for an integer `0 ≤ n ≤ 19999`. -/
theorem fptosi32_coe_int_small (n : ℤ) (h0 : 0 ≤ n) (h1 : n ≤ 19999) :
    Ideal.fptosi 32 (((n : ℤ) : ℝ) : EReal) = BitVec.ofInt 32 n :=
  fptosi32_coe_int n (by omega) (by omega)

/-- The same, for the conversion as a float operation (kernel's or host's: one field). -/
theorem fptosi32_field_coe_int {φ : FTy} (n : ℤ) (hlo : -(2 : ℤ) ^ 31 ≤ n) (hhi : n ≤ 2 ^ 31 - 1) :
    FloatOps.fptosi (F := Ideal) (φ := φ) 32 (((n : ℤ) : ℝ) : EReal) = BitVec.ofInt 32 n :=
  fptosi32_coe_int n hlo hhi

/-- The conversion of a word to a float is the coercion of the word read as a signed integer. -/
theorem sitofp_coe {φ : FTy} {w : ℕ} (b : BitVec w) :
    FloatOps.sitofp (F := Ideal) φ b = ((b.toInt : ℝ) : EReal) := rfl

/-- The 32-bit word of an integer that fits reads back, signed, as that integer. -/
theorem toInt_ofInt32 (n : ℤ) (hlo : -(2 : ℤ) ^ 31 ≤ n) (hhi : n ≤ 2 ^ 31 - 1) :
    (BitVec.ofInt 32 n).toInt = n :=
  BitVec.toInt_ofInt_eq_self (by norm_num) (by norm_num; omega) (by norm_num; omega)

/-- The 32-bit word of an integer `0 ≤ n < 2 ^ 31` reads, unsigned, as that number. -/
theorem toNat_ofInt32 (n : ℤ) (h0 : 0 ≤ n) (hhi : n ≤ 2 ^ 31 - 1) :
    ((BitVec.ofInt 32 n).toNat : ℤ) = n := by
  rw [BitVec.toNat_ofInt]
  omega

/-- Converting a coerced integer that fits to a word and back is the identity. -/
theorem sitofp_fptosi32_coe_int {φ : FTy} (n : ℤ) (hlo : -(2 : ℤ) ^ 31 ≤ n) (hhi : n ≤ 2 ^ 31 - 1) :
    FloatOps.sitofp (F := Ideal) φ (Ideal.fptosi 32 (((n : ℤ) : ℝ) : EReal))
      = (((n : ℤ) : ℝ) : EReal) := by
  rw [sitofp_coe, fptosi32_coe_int n hlo hhi, toInt_ofInt32 n hlo hhi]

/-! ### Finite values as a predicate, and its closure properties -/

/-- An extended real is *finite* when it is the coercion of a real. -/
def IsReal (z : EReal) : Prop := ∃ r : ℝ, z = (r : EReal)

/-- A coerced real is finite. -/
theorem isReal_coe (r : ℝ) : IsReal (r : EReal) := ⟨r, rfl⟩

/-- Zero is finite. -/
theorem isReal_zero : IsReal 0 := ⟨0, EReal.coe_zero.symm⟩

/-- One is finite. -/
theorem isReal_one : IsReal 1 := ⟨1, EReal.coe_one.symm⟩

/-- Finite means neither of the two infinities. -/
theorem isReal_iff (z : EReal) : IsReal z ↔ z ≠ ⊥ ∧ z ≠ ⊤ := by
  constructor
  · rintro ⟨r, rfl⟩
    exact ⟨EReal.coe_ne_bot r, EReal.coe_ne_top r⟩
  · rintro ⟨hb, ht⟩
    exact ⟨z.toReal, (EReal.coe_toReal ht hb).symm⟩

/-- A finite value is the coercion of its real part. -/
theorem IsReal.coe_toReal {z : EReal} (h : IsReal z) : ((z.toReal : ℝ) : EReal) = z :=
  EReal.coe_toReal ((isReal_iff z).mp h).2 ((isReal_iff z).mp h).1

/-- A sum of two finite values is finite. -/
theorem IsReal.add {x y : EReal} (hx : IsReal x) (hy : IsReal y) : IsReal (x + y) := by
  obtain ⟨a, rfl⟩ := hx
  obtain ⟨b, rfl⟩ := hy
  exact ⟨a + b, coe_add_coe a b⟩

/-- A difference of two finite values is finite. -/
theorem IsReal.sub {x y : EReal} (hx : IsReal x) (hy : IsReal y) : IsReal (x - y) := by
  obtain ⟨a, rfl⟩ := hx
  obtain ⟨b, rfl⟩ := hy
  exact ⟨a - b, coe_sub_coe a b⟩

/-- A product of two finite values is finite. -/
theorem IsReal.mul {x y : EReal} (hx : IsReal x) (hy : IsReal y) : IsReal (x * y) := by
  obtain ⟨a, rfl⟩ := hx
  obtain ⟨b, rfl⟩ := hy
  exact ⟨a * b, coe_mul_coe a b⟩

/-- The negation of a finite value is finite. -/
theorem IsReal.neg {x : EReal} (hx : IsReal x) : IsReal (-x) := by
  obtain ⟨a, rfl⟩ := hx
  exact ⟨-a, neg_coe a⟩

/-- The minimum of two finite values is finite. -/
theorem IsReal.min {x y : EReal} (hx : IsReal x) (hy : IsReal y) : IsReal (min x y) := by
  obtain ⟨a, rfl⟩ := hx
  obtain ⟨b, rfl⟩ := hy
  exact ⟨Min.min a b, coe_min_coe a b⟩

/-- The maximum of two finite values is finite. -/
theorem IsReal.max {x y : EReal} (hx : IsReal x) (hy : IsReal y) : IsReal (max x y) := by
  obtain ⟨a, rfl⟩ := hx
  obtain ⟨b, rfl⟩ := hy
  exact ⟨Max.max a b, coe_max_coe a b⟩

/-- A finite sum of finite values is finite. -/
theorem IsReal.sum {ι : Type*} (s : Finset ι) (f : ι → EReal) (h : ∀ i ∈ s, IsReal (f i)) :
    IsReal (∑ i ∈ s, f i) :=
  Finset.sum_induction f IsReal (fun _ _ hx hy => hx.add hy) isReal_zero h

/-- A value clamped between two reals `lo ≤ hi` is finite, whatever it was. -/
theorem isReal_clamp (lo hi : ℝ) (h : lo ≤ hi) (z : EReal) :
    IsReal (Min.min (hi : EReal) (Max.max (lo : EReal) z)) := by
  obtain ⟨r, _, _, hr⟩ := clamp_coe lo hi h z
  exact ⟨r, hr⟩

/-- The ideal quotient of a finite value by a finite nonzero value is finite. -/
theorem IsReal.div {x y : EReal} (hx : IsReal x) (hy : IsReal y) (h0 : y ≠ 0) :
    IsReal (Ideal.div x y) := by
  obtain ⟨a, rfl⟩ := hx
  obtain ⟨b, rfl⟩ := hy
  exact ⟨a / b, div_coe_coe a b (fun e => h0 (by rw [e, EReal.coe_zero]))⟩

/-- The ideal power of two finite values is finite. -/
theorem IsReal.pow {x y : EReal} (hx : IsReal x) (hy : IsReal y) : IsReal (Ideal.pow x y) := by
  obtain ⟨a, rfl⟩ := hx
  obtain ⟨b, rfl⟩ := hy
  exact ⟨a ^ b, pow_coe_coe a b⟩

/-- The ideal floor of a finite value is finite. -/
theorem IsReal.floor {x : EReal} (hx : IsReal x) : IsReal (Ideal.liftRound Int.floor x) := by
  obtain ⟨a, rfl⟩ := hx
  exact ⟨((⌊a⌋ : ℤ) : ℝ), floor_coe a⟩

end Cert.Lib
-- ==== Proof.MathBins.lean ====
/- Facts about bins, histograms and weights that hold of the mathematics alone (no program):
   every entry's bin is one of 0..9; the tile-by-tile histogram is the histogram over all entries; a count is a
   natural number; at least one bin is non-empty; every bin's weight is a positive real; a chain of ten selects
   on a bin in range reads the table at that bin; a sum over tiles and rows in a tile is the sum over rows. -/
import proofs.«400093_j38671885533689_1_alg».proof.Proof.Spec
import proofs.«400093_j38671885533689_1_alg».proof.Proof.LibFinite
import Mathlib.Data.Fintype.BigOperators
import Mathlib.Algebra.BigOperators.Group.Finset.Basic
import Mathlib.Algebra.Order.BigOperators.Group.Finset
import Mathlib.Analysis.SpecialFunctions.Exp
import Mathlib.Tactic.IntervalCases
import Mathlib.Tactic.Positivity

noncomputable section

namespace Cert.Ghm

open Idealize.ShloMosaic

/-! ### Tiles and rows -/

/-- The pairs (tile, row in the tile) are the rows: row 512·t + q has tile t = r / 512 and place q = r mod 512. -/
def tileEquiv : Fin 64 × Fin 512 ≃ Fin 32768 where
  toFun p := tileRow p.1 p.2
  invFun r := (⟨r.val / 512, by omega⟩, ⟨r.val % 512, by omega⟩)
  left_inv := by
    rintro ⟨t, q⟩
    apply Prod.ext <;> apply Fin.ext <;> simp only [tileRow] <;> omega
  right_inv := by
    intro r
    apply Fin.ext
    simp only [tileRow]
    omega

/-- A sum over the 64 tiles and the 512 rows of each is the sum over all 32768 rows. -/
theorem sum_tiles {M : Type*} [AddCommMonoid M] (f : Fin 32768 → M) :
    ∑ t : Fin 64, ∑ q : Fin 512, f (tileRow t q) = ∑ r : Fin 32768, f r :=
  -- the double sum is the sum over the pairs, and the pairs are the rows
  (Fintype.sum_prod_type' (fun t q => f (tileRow t q))).symm.trans
    (Fintype.sum_equiv tileEquiv _ _ (fun _ => rfl))

/-! ### The bin of an entry -/

/-- The word of an integer 0..9, capped at 9, is the word of that number. -/
theorem minsi_nine (n : ℤ) (h0 : 0 ≤ n) (h9 : n ≤ 9) :
    IntOp.minsi (BitVec.ofInt 32 n) 9#32 = BitVec.ofNat 32 n.toNat := by
  interval_cases n <;> decide

/-- The logistic function of a real is a real strictly between 0 and 1. -/
theorem logistic_real (a : ℝ) : ∃ s : ℝ, 0 < s ∧ s < 1 ∧ Ideal.logistic (a : EReal) = (s : EReal) := by
  refine ⟨(1 + Real.exp (-a))⁻¹, ?_, ?_, Ideal.logistic_coe (r := a)⟩
  · have := Real.exp_pos (-a); positivity
  · have := Real.exp_pos (-a)
    exact inv_lt_one_of_one_lt₀ (by linarith)

/-- The bin of a real logit against a one-hot value 0 or 1 is one of 0..9. -/
theorem binOf_range (v h : EReal) (hv : ∃ a : ℝ, v = (a : EReal)) (hh : h = 0 ∨ h = 1) :
    ∃ b : Fin 10, binOf v h = BitVec.ofNat 32 b.val := by
  obtain ⟨a, rfl⟩ := hv
  obtain ⟨s, hs0, hs1, hs⟩ := logistic_real a
  -- the difference σ(a) − h is a real d with −1 < d < 1
  obtain ⟨d, hd0, hd1, hd⟩ : ∃ d : ℝ, -1 < d ∧ d < 1 ∧ Ideal.logistic (a : EReal) - h = (d : EReal) := by
    rcases hh with rfl | rfl
    · exact ⟨s - 0, by linarith, by linarith, by rw [hs, ← EReal.coe_zero, Cert.Lib.coe_sub_coe]⟩
    · exact ⟨s - 1, by linarith, by linarith, by rw [hs, ← EReal.coe_one, Cert.Lib.coe_sub_coe]⟩
  -- so y = 10·|d| is a real with 0 ≤ y < 10, and its integer part is one of 0..9
  have hy : max (Ideal.logistic (a : EReal) - h) (-(Ideal.logistic (a : EReal) - h)) * ((10 : ℝ) : EReal)
      = ((max d (-d) * 10 : ℝ) : EReal) := by
    rw [hd, Cert.Lib.neg_coe, Cert.Lib.coe_max_coe, Cert.Lib.coe_mul_coe]
  have hy0 : 0 ≤ max d (-d) * 10 := by
    have : 0 ≤ max d (-d) := by rcases le_total 0 d with h | h <;> [exact le_max_of_le_left h; exact le_max_of_le_right (by linarith)]
    positivity
  have hy1 : max d (-d) * 10 < 10 := by
    have : max d (-d) < 1 := max_lt hd1 (by linarith)
    linarith
  have hf0 : 0 ≤ ⌊max d (-d) * 10⌋ := Int.floor_nonneg.mpr hy0
  have hf9 : ⌊max d (-d) * 10⌋ ≤ 9 := by
    have : ⌊max d (-d) * 10⌋ < 10 := Int.floor_lt.mpr (by exact_mod_cast hy1)
    omega
  refine ⟨⟨⌊max d (-d) * 10⌋.toNat, by omega⟩, ?_⟩
  unfold binOf
  rw [hy]
  unfold Ideal.fptosi
  rw [Ideal.toIntClamped_coe, if_pos hy0]
  have hclamp : max (-((2 ^ (32 - 1) : ℕ) : ℤ)) (min (((2 ^ (32 - 1) : ℕ) : ℤ) - 1) ⌊max d (-d) * 10⌋)
      = ⌊max d (-d) * 10⌋ := by
    rw [min_eq_right (by norm_num; omega), max_eq_right (by norm_num; omega)]
  rw [hclamp]
  exact minsi_nine _ hf0 hf9

/-- A one-hot value is 0 or 1. -/
theorem hot_zero_or_one (T : LabelVec) (r : Fin 32768) (j : Fin 1000) : hot T r j = 0 ∨ hot T r j = 1 := by
  unfold hot
  split_ifs
  · exact Or.inr rfl
  · exact Or.inl rfl

/-- So every entry's bin, read as a natural number, is below 10. -/
theorem bin_toNat_lt (X : Logits) (T : LabelVec) (hX : ∀ r j, ∃ a : ℝ, X r j = (a : EReal)) (r : Fin 32768) (j : Fin 1000) :
    (bin X T r j).toNat < 10 := by
  obtain ⟨b, hb⟩ := binOf_range (X r j) (hot T r j) (hX r j) (hot_zero_or_one T r j)
  unfold bin
  rw [hb, BitVec.toNat_ofNat]
  have := b.isLt
  omega

/-! ### The histogram -/

/-- The histogram accumulated tile by tile is the histogram over all entries. -/
theorem countTiled_eq_countWhole (X : Logits) (T : LabelVec) (b : ℕ) : countTiled X T b = countWhole X T b :=
  sum_tiles (fun r => ∑ j : Fin 1000, inBin X T b r j)

/-- A finite sum of coerced reals is the coerced sum. -/
theorem coe_sum_coe {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The number of entries in bin b. -/
def natCount (X : Logits) (T : LabelVec) (b : ℕ) : ℕ :=
  ∑ r : Fin 32768, ∑ j : Fin 1000, if bin X T r j = BitVec.ofNat 32 b then 1 else 0

/-- The histogram's value at b is that number. -/
theorem countWhole_eq_natCount (X : Logits) (T : LabelVec) (b : ℕ) :
    countWhole X T b = ((natCount X T b : ℝ) : EReal) := by
  unfold countWhole natCount
  have h1 : ∀ r j, inBin X T b r j = (((if bin X T r j = BitVec.ofNat 32 b then 1 else 0 : ℕ) : ℝ) : EReal) := by
    intro r j
    unfold inBin
    split_ifs <;> simp
  simp only [h1, coe_sum_coe, Nat.cast_sum]

/-- A count is a natural number. -/
theorem countWhole_nat (X : Logits) (T : LabelVec) (b : ℕ) : ∃ n : ℕ, countWhole X T b = ((n : ℝ) : EReal) :=
  ⟨natCount X T b, countWhole_eq_natCount X T b⟩

/-- With real logits some bin among the ten is non-empty: the number of non-empty bins is a natural number ≥ 1. -/
theorem nonEmpty_pos (X : Logits) (T : LabelVec) (hX : ∀ r j, ∃ a : ℝ, X r j = (a : EReal)) :
    ∃ n : ℕ, 1 ≤ n ∧ nonEmpty (countWhole X T) = ((n : ℝ) : EReal) := by
  -- a count is positive as an extended real exactly when the number of entries is positive
  have hpos : ∀ b : ℕ, (0 < countWhole X T b) ↔ 0 < natCount X T b := by
    intro b
    rw [countWhole_eq_natCount, ← EReal.coe_zero, EReal.coe_lt_coe_iff, Nat.cast_pos]
  refine ⟨∑ b : Fin 10, if 0 < natCount X T b.val then 1 else 0, ?_, ?_⟩
  · -- the bin of entry (0, 0) is some b0 among the ten, and entry (0, 0) is counted there
    obtain ⟨b0, hb0⟩ := binOf_range (X 0 0) (hot T 0 0) (hX 0 0) (hot_zero_or_one T 0 0)
    have h1 : (1 : ℕ) ≤ ∑ j : Fin 1000, if bin X T 0 j = BitVec.ofNat 32 b0.val then 1 else 0 :=
      calc (1 : ℕ) = if bin X T 0 0 = BitVec.ofNat 32 b0.val then 1 else 0 :=
            (if_pos (show bin X T 0 0 = BitVec.ofNat 32 b0.val from hb0)).symm
        _ ≤ _ := Finset.single_le_sum (f := fun j => if bin X T 0 j = BitVec.ofNat 32 b0.val then 1 else 0)
            (fun _ _ => Nat.zero_le _) (Finset.mem_univ 0)
    have hc : 0 < natCount X T b0.val :=
      calc 0 < 1 := one_pos
        _ ≤ _ := h1
        _ ≤ _ := Finset.single_le_sum
            (f := fun r => ∑ j : Fin 1000, if bin X T r j = BitVec.ofNat 32 b0.val then 1 else 0)
            (fun _ _ => Nat.zero_le _) (Finset.mem_univ 0)
    -- so the b0 term of the number of non-empty bins is 1
    calc 1 = if 0 < natCount X T b0.val then 1 else 0 := (if_pos hc).symm
      _ ≤ _ := Finset.single_le_sum (f := fun b : Fin 10 => if 0 < natCount X T b.val then 1 else 0)
            (fun _ _ => Nat.zero_le _) (Finset.mem_univ b0)
  · unfold nonEmpty
    simp only [hpos]
    have hcast : ((∑ b : Fin 10, (if 0 < natCount X T b.val then (1 : ℤ) else 0) : ℤ) : ℝ)
        = ((∑ b : Fin 10, (if 0 < natCount X T b.val then 1 else 0) : ℕ) : ℝ) := by
      push_cast
      rfl
    rw [hcast]

/-- With real logits every bin's weight is a positive real. -/
theorem binWeight_pos (X : Logits) (T : LabelVec) (hX : ∀ r j, ∃ a : ℝ, X r j = (a : EReal)) (b : ℕ) :
    ∃ a : ℝ, 0 < a ∧ binWeight (countWhole X T) b = (a : EReal) := by
  obtain ⟨m, hm1, hm⟩ := nonEmpty_pos X T hX
  -- max(count, 1) is a real ≥ 1, and the number of non-empty bins a natural number ≥ 1
  have hmax : max (countWhole X T b) 1 = ((max (natCount X T b : ℝ) 1 : ℝ) : EReal) := by
    rw [countWhole_eq_natCount, ← EReal.coe_one, Cert.Lib.coe_max_coe]
  have hmaxpos : (0 : ℝ) < max (natCount X T b : ℝ) 1 := lt_max_of_lt_right one_pos
  have hmpos : (0 : ℝ) < (m : ℝ) := by exact_mod_cast hm1
  -- so both quotients are quotients of reals by nonzero reals
  refine ⟨1 / max (natCount X T b : ℝ) 1 / m, div_pos (div_pos one_pos hmaxpos) hmpos, ?_⟩
  unfold binWeight
  rw [hmax, hm, ← EReal.coe_one, Cert.Lib.div_coe_coe _ _ hmaxpos.ne', Cert.Lib.div_coe_coe _ _ hmpos.ne']

/-- The chain of ten selects, on a bin in range, reads the table at that bin. -/
theorem pick_eq (W : ℕ → EReal) (bn : BitVec 32) (h : bn.toNat < 10) : pick W bn = W bn.toNat := by
  obtain ⟨k, hk⟩ : ∃ k, bn.toNat = k := ⟨_, rfl⟩
  have hbn : bn = BitVec.ofNat 32 k := BitVec.eq_of_toNat_eq (by rw [BitVec.toNat_ofNat, hk]; omega)
  rw [hk] at h ⊢
  rw [hbn]
  interval_cases k <;> simp [pick]

/-- A label in range names its own column: the one-hot row is 1 exactly at `labelCol`. -/
theorem hot_eq (T : LabelVec) (hT : ∀ r, (T r).toNat < 1000) (r : Fin 32768) (j : Fin 1000) :
    hot T r j = if j = labelCol T r then 1 else 0 := by
  -- the label's word is the word of column j exactly when j is the label's column
  have hiff : T r = BitVec.ofNat 32 j.val ↔ j = labelCol T r := by
    have hj := j.isLt
    have hr := hT r
    constructor
    · intro h
      apply Fin.ext
      simp only [labelCol]
      rw [h, BitVec.toNat_ofNat]
      omega
    · intro h
      apply BitVec.eq_of_toNat_eq
      rw [BitVec.toNat_ofNat, h]
      simp only [labelCol]
      omega
  unfold hot
  simp only [hiff]

end Cert.Ghm

end
-- ==== Proof.MathRows.lean ====
/- The law that joins the two arrangements of the loss. For a row of real logits, positive real weights and a
   one-hot row at column k: the sums against the one-hot row read the entry at k; the weight ratio at k is 1, its
   log 0, so the shifted logit at k is the logit itself; hence logsumexp(shifted) − x_k is minus the log-softmax
   of the shifted row at k, which is minus the one-hot-weighted sum of that log-softmax. Summed over the rows
   (tile by tile, or all at once) and divided by the number of rows, the two arrangements are one number. -/
import proofs.«400093_j38671885533689_1_alg».proof.Proof.Spec
import proofs.«400093_j38671885533689_1_alg».proof.Proof.MathBins
import proofs.«400093_j38671885533689_1_alg».proof.Proof.LibFinite
import Mathlib.Data.Finset.Fold
import Mathlib.Analysis.SpecialFunctions.Log.Basic
import Mathlib.Algebra.Order.BigOperators.Group.Finset

noncomputable section

namespace Cert.Ghm

open Idealize.ShloMosaic

/-- A finite sum of coerced reals is the coerced sum of the reals. -/
theorem coe_sum_real {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A sum against the one-hot row at k reads the entry at k: every other term is 0 · _ = 0 (also when the
    entry is infinite), the term at k is 1 · f k. -/
theorem sum_onehot (k : Fin 1000) (f : Fin 1000 → EReal) :
    ∑ j : Fin 1000, (if j = k then (1 : EReal) else 0) * f j = f k := by
  rw [Finset.sum_eq_single k]
  · rw [if_pos rfl, one_mul]
  · intro j _ hj
    rw [if_neg hj, zero_mul]
  · intro hk
    exact absurd (Finset.mem_univ k) hk

/-- With a real logit x and positive real weights wk, wj, the shifted logit is the real
    x + log(min(wk / wj, 1)): the ratio is a positive real, so is its minimum with 1, and the log of a positive
    real is the real log. -/
theorem shiftBy_coe (wk x wj : ℝ) (hk : 0 < wk) (hj : 0 < wj) :
    shiftBy (wk : EReal) (x : EReal) (wj : EReal) = ((x + Real.log (min (wk / wj) 1) : ℝ) : EReal) := by
  have hpos : 0 < min (wk / wj) 1 := lt_min (div_pos hk hj) one_pos
  unfold shiftBy
  rw [Cert.Lib.div_coe_coe wk wj (ne_of_gt hj), ← EReal.coe_one, Cert.Lib.coe_min_coe, Ideal.log_coe,
    if_neg (not_le.mpr hpos), ← EReal.coe_add]

/-- The running maximum, from minus infinity, of a row of reals is a real: it is at least the row's first entry,
    so not minus infinity, and every entry is below plus infinity, so it is. -/
theorem rowMax_coe (s : Fin 1000 → ℝ) : ∃ M : ℝ, rowMax (fun j => (s j : EReal)) = (M : EReal) := by
  have hbot : rowMax (fun j => (s j : EReal)) ≠ ⊥ := by
    intro h
    have h0 : ((s 0 : ℝ) : EReal) ≤ rowMax (fun j => (s j : EReal)) := by
      unfold rowMax
      exact (Finset.le_fold_max _).mpr (Or.inr ⟨0, Finset.mem_univ _, le_refl _⟩)
    rw [h] at h0
    exact EReal.coe_ne_bot _ (le_bot_iff.mp h0)
  have htop : rowMax (fun j => (s j : EReal)) ≠ ⊤ := by
    have hlt : rowMax (fun j => (s j : EReal)) < ⊤ := by
      unfold rowMax
      exact (Finset.fold_max_lt _).mpr ⟨bot_lt_top, fun j _ => EReal.coe_lt_top _⟩
    exact ne_of_lt hlt
  exact ⟨_, (EReal.coe_toReal htop hbot).symm⟩

/-- For a row of reals s with maximum M and S = ∑ exp(s j − M) (a sum of positive reals, so positive): the
    log-sum-exp is the real L = M + log S, and the log-softmax at any column k is the real s k − L. -/
theorem lse_coe (s : Fin 1000 → ℝ) :
    ∃ L : ℝ, logSumExp (fun j => (s j : EReal)) = (L : EReal)
      ∧ ∀ k, logSoftmaxAt (fun j => (s j : EReal)) k = ((s k - L : ℝ) : EReal) := by
  obtain ⟨M, hM⟩ := rowMax_coe s
  have hS : ∑ j : Fin 1000, Ideal.exp ((s j : EReal) - (M : EReal))
      = ((∑ j : Fin 1000, Real.exp (s j - M) : ℝ) : EReal) := by
    rw [← coe_sum_real]
    refine Finset.sum_congr rfl fun j _ => ?_
    rw [← EReal.coe_sub, Ideal.exp_coe]
  have hpos : 0 < ∑ j : Fin 1000, Real.exp (s j - M) :=
    Finset.sum_pos (fun j _ => Real.exp_pos _) Finset.univ_nonempty
  refine ⟨M + Real.log (∑ j : Fin 1000, Real.exp (s j - M)), ?_, fun k => ?_⟩
  · unfold logSumExp
    rw [hM, hS, Ideal.log_coe, if_neg (not_le.mpr hpos), ← EReal.coe_add]
  · unfold logSoftmaxAt
    rw [hM, hS, Ideal.log_coe, if_neg (not_le.mpr hpos), ← EReal.coe_sub, ← EReal.coe_sub]
    congr 1
    ring

/-- One row: the kernel's arrangement is minus the one-hot-weighted sum of the log-softmax of the shifted row, and
    it is a real number. -/
theorem rowLossTiled_eq (xr wr : Fin 1000 → EReal) (k : Fin 1000)
    (hx : ∀ j, ∃ a : ℝ, xr j = (a : EReal)) (hw : ∀ j, ∃ a : ℝ, 0 < a ∧ wr j = (a : EReal)) :
    ∃ a : ℝ, rowLossTiled xr (fun j => if j = k then 1 else 0) wr = (a : EReal)
      ∧ ∑ j : Fin 1000, (if j = k then (1 : EReal) else 0) * logSoftmaxAt (fun i => shiftBy (wr k) (xr i) (wr i)) j
          = ((-a : ℝ) : EReal) := by
  choose x hx using hx
  choose w hw0 hw using hw
  obtain rfl : xr = fun j => (x j : EReal) := funext hx
  obtain rfl : wr = fun j => (w j : EReal) := funext hw
  -- the shifted row is a row of reals, and at the label's column the ratio is 1, its log 0
  have hshift : (fun j => shiftBy ((w k : ℝ) : EReal) ((x j : ℝ) : EReal) ((w j : ℝ) : EReal))
      = fun j => ((x j + Real.log (min (w k / w j) 1) : ℝ) : EReal) :=
    funext fun j => shiftBy_coe (w k) (x j) (w j) (hw0 k) (hw0 j)
  have hsk : x k + Real.log (min (w k / w k) 1) = x k := by
    rw [div_self (ne_of_gt (hw0 k)), min_self, Real.log_one, add_zero]
  obtain ⟨L, hL, hLs⟩ := lse_coe (fun j => x j + Real.log (min (w k / w j) 1))
  refine ⟨L - x k, ?_, ?_⟩
  · unfold rowLossTiled
    rw [sum_onehot k (fun j => ((w j : ℝ) : EReal)), sum_onehot k (fun j => ((x j : ℝ) : EReal)), hshift, hL,
      ← EReal.coe_sub]
  · rw [sum_onehot k (logSoftmaxAt (fun i => shiftBy ((w k : ℝ) : EReal) ((x i : ℝ) : EReal) ((w i : ℝ) : EReal)))]
    rw [hshift]
    rw [hLs k]
    rw [hsk]
    exact congrArg _ (by ring)

/-- On admissible inputs the two arrangements of the loss are equal. -/
theorem lossTiled_eq_lossWhole (X : Logits) (T : LabelVec) (h : Admissible X T) : lossTiled X T = lossWhole X T := by
  obtain ⟨hX, hT⟩ := h
  -- each row: its weights are the whole histogram's bin weights, its one-hot row is 1 at the label's column, so
  -- the row's loss is a real a r and the reference's inner sum is −a r
  have hrow : ∀ r : Fin 32768, ∃ a : ℝ,
      rowLossTiled (X r) (hot T r) (fun j => pick (binWeight (countTiled X T)) (bin X T r j)) = (a : EReal)
      ∧ ∑ j : Fin 1000, hot T r j
          * logSoftmaxAt (fun k => shiftBy (weightWhole X T r (labelCol T r)) (X r k) (weightWhole X T r k)) j
          = ((-a : ℝ) : EReal) := by
    intro r
    have hc : countTiled X T = countWhole X T := funext (countTiled_eq_countWhole X T)
    have hwt : (fun j => pick (binWeight (countTiled X T)) (bin X T r j)) = weightWhole X T r := by
      funext j
      rw [hc, pick_eq _ _ (bin_toNat_lt X T hX r j)]
      rfl
    have hh : hot T r = fun j => if j = labelCol T r then 1 else 0 := funext (hot_eq T hT r)
    rw [hwt, hh]
    exact rowLossTiled_eq (X r) (weightWhole X T r) (labelCol T r) (hX r)
      (fun j => binWeight_pos X T hX (bin X T r j).toNat)
  choose a ha1 ha2 using hrow
  unfold lossTiled lossWhole
  refine congrArg (fun z => Ideal.div z ((32768 : ℝ) : EReal)) ?_
  -- the numerators: ∑ over tiles and rows of a tile = ∑ over rows of a r; and −(0 + ∑ r, −a r) = ∑ r, a r
  rw [sum_tiles (fun r => rowLossTiled (X r) (hot T r) (fun j => pick (binWeight (countTiled X T)) (bin X T r j)))]
  simp only [ha1, ha2]
  rw [coe_sum_real, coe_sum_real, zero_add, Finset.sum_neg_distrib, EReal.coe_neg, neg_neg]

end Cert.Ghm

end
-- ==== Proof.Consts.lean ====
/- The float literals the two programs spell, as the extended reals their bit patterns denote:
   0, 1, 10, 32768 and minus infinity. Stated once here, so that no other module unfolds a pattern. -/
import Idealize.ShloMosaic.PureOps.Ideal

noncomputable section

namespace Cert.Ghm.Consts

open Idealize.ShloMosaic

/-- The pattern of `+0.0` denotes `0`. -/
theorem ofBits_zero : Ideal.ofBits .f32 0x00000000#32 = 0 := by
  simp [Ideal.ofBits, Ideal.ieee]

/-- The pattern of `1.0` denotes `1`. -/
theorem ofBits_one : Ideal.ofBits .f32 0x3F800000#32 = 1 := by
  simp [Ideal.ofBits, Ideal.ieee, -EReal.coe_mul]; norm_num

/-- The pattern of `10.0` (the number of bins, as a factor) denotes the real `10`. -/
theorem ofBits_ten : Ideal.ofBits .f32 0x41200000#32 = ((10 : ℝ) : EReal) := by
  simp [Ideal.ofBits, Ideal.ieee, -EReal.coe_mul]; norm_num

/-- The pattern of `32768.0` (the number of rows, as a divisor) denotes the real `32768`. -/
theorem ofBits_rows : Ideal.ofBits .f32 0x47000000#32 = ((32768 : ℝ) : EReal) := by
  simp [Ideal.ofBits, Ideal.ieee, -EReal.coe_mul]; norm_num

/-- The pattern of `-inf` (the start value of a running maximum) denotes the bottom element. -/
theorem ofBits_neg_inf : Ideal.ofBits .f32 0xFF800000#32 = ⊥ := by
  simp [Ideal.ofBits, Ideal.ieee]

end Cert.Ghm.Consts

end
-- ==== Proof.KView.lean ====
/- How the kernel's two regions see their operands: the logits, the labels (as a column) and the weight table, read
   off the buffer contents `V` a region is entered with, as plain functions of row, column and bin. -/
import proofs.«400093_j38671885533689_1_alg».proof.Proof.Gen.KernelIdeal.Frame
import proofs.«400093_j38671885533689_1_alg».proof.Proof.Spec
import proofs.«400093_j38671885533689_1_alg».proof.Proof.Consts
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Val

open Cert.KernelIdeal Cert.KernelIdeal.Gen Idealize.ShloMosaic Idealize.ShloMosaic.TcCoe Idealize.ShloMosaic.ValueIdx
open Idealize.SL.Sem
open Idealize.ShloMosaic.Pipeline (Dat Cfg Window)
open Cert.Ghm

variable (V : (c : Dev nD) → (b : Ref sig .tc) → Buf (Elt Ideal) ((c : Thread nD τ).loc b))

/-- The logits as a region finds them. -/
abbrev logitsAt (c : Dev nD) : Logits := fun r j => (V c main_arg0 : S32768x1000.Idx → EReal) (ix2 r j)
/-- The labels as a region finds them: the one column of the reshaped label array. -/
abbrev labelsAt (c : Dev nD) : LabelVec := fun r => (V c main_v0 : S32768x1.Idx → BitVec 32) (ix2 r (0 : Fin 1))
/-- The weight table as the second region finds it: lane p of its one row (0 beyond the 128 lanes). -/
abbrev tableAt (c : Dev nD) : ℕ → EReal :=
  fun p => if h : p < 128 then (V c main_v19 : S1x128.Idx → EReal) (ix2 (0 : Fin 1) ⟨p, h⟩) else 0

end Cert.KernelIdeal.Val

end
-- ==== Proof.Hist.lean ====
/- The first region's value. Each of the 64 grid points adds to the one output block, lane b < 10, the number of
   entries of its tile (512 rows) whose bin is b, and nothing to the other lanes; the first point starts from zero.
   So after the last point lane b holds the histogram accumulated tile by tile. -/
import proofs.«400093_j38671885533689_1_alg».proof.Proof.Gen.KernelIdeal.Frame
import proofs.«400093_j38671885533689_1_alg».proof.Proof.Spec
import proofs.«400093_j38671885533689_1_alg».proof.Proof.Consts
import proofs.«400093_j38671885533689_1_alg».proof.Proof.KView
import Idealize.ShloMosaic.Lib.ValueIdx
import Idealize.ShloMosaic.Lib.ValueLayout
import Idealize.ShloMosaic.Lib.Pipeline.Value
import Idealize.ShloMosaic.PureOps.Ideal.Laws
import Idealize.ShloMosaic.Lib.Tactic

set_option maxRecDepth 16384

noncomputable section

namespace Cert.KernelIdeal.Val

open Cert.KernelIdeal Cert.KernelIdeal.Gen Idealize.ShloMosaic Idealize.ShloMosaic.TcCoe Idealize.ShloMosaic.ValueIdx
open Idealize.SL.Sem
open Idealize.ShloMosaic.Pipeline (Dat Cfg Window)
open Cert.Ghm

variable (V : (c : Dev nD) → (b : Ref sig .tc) → Buf (Elt Ideal) ((c : Thread nD τ).loc b))

namespace Hist

/-! ## Words and sums -/

/-- A one-bit compare result, widened to 32 bits, read as a signed integer and made a float: 1 when the bit is set, else 0. -/
theorem bit_value (b : Bool) : ((((BitVec.ofBool b).setWidth 32).toInt : ℝ) : EReal) = if b then 1 else 0 := by
  cases b
  · show (((0 : ℤ) : ℝ) : EReal) = 0
    rw [Int.cast_zero, EReal.coe_zero]
  · show (((1 : ℤ) : ℝ) : EReal) = 1
    rw [Int.cast_one, EReal.coe_one]

/-- The same for the compare of two words: 1 when they are equal, else 0. -/
theorem eq_value (a b : BitVec 32) :
    FloatOps.sitofp (F := Ideal) .f32 ((IntOp.cmpi .eq a b).setWidth 32) = if a = b then (1 : EReal) else 0 := by
  show ((((BitVec.ofBool (a == b)).setWidth 32).toInt : ℝ) : EReal) = _
  rw [bit_value]
  by_cases h : a = b
  · rw [if_pos h, if_pos (beq_iff_eq.mpr h)]
  · rw [if_neg h, if_neg (fun h' => h (beq_iff_eq.mp h'))]

/-- A rank-3 index set is the product of its three coordinate ranges, -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- The number of entries of a 512 × 1000 block of bin words that equal the word `bw`. -/
def cnt (v : IVec S512x1000 32) (bw : BitVec 32) : EReal :=
  ∑ q : Fin 512, ∑ j : Fin 1000, if v (ix2 q j) = bw then (1 : EReal) else 0

/-- The kernel's count of a bin: the block of bin words compared with the bin's word, the bits made floats, the block
    given a leading unit axis and summed over its two long axes into one number, which is then extracted. By the law of
    a sum into a shape of unit axes this is the sum over every entry, entry by entry 1 or 0. -/
theorem cnt_extract (v : IVec S512x1000 32) (bw : BitVec 32) (h1 : 1 < 32) (hsc : S512x1000.ShapeCasts S1x512x1000)
    (hr : S1x512x1000.Reduces [1, 2] S1) (hφ : FKind.Formats .f32) (hacc : (0x00000000#32 : BitVec 32) = 0x00000000#32)
    (hsc' : S1.ShapeCasts S1x1x1) (hpos : ∀ a, (![0, 0, 0] : Fin 3 → Nat) a < S1x1x1.size a) :
    extractAt ![0, 0, 0] (shapeCast S1x1x1
        (multiReduction (F := Ideal) .add [1, 2] S1
          (shapeCast S1x512x1000 (sitofp .f32 (extui 32 (cmpi .eq v (broadcast S512x1000 bw)) h1)) hsc)
          0x00000000#32 hr hφ hacc) hsc') hpos
      = cnt v bw := by
  unfold extractAt
  refine (shapeCast_apply _ hsc' _ (ix1 (0 : Fin 1)) ?_).trans ?_
  · rw [Shape.rowMajor_val_one, Shape.rowMajor_val_three]
    rfl
  refine (Ideal.multiReduction_add_total _ 0x00000000#32 hr (fun b => ?_) hφ hacc (ix1 (0 : Fin 1))).trans ?_
  · match b with
    | ⟨0, _⟩ => rfl
  rw [sum_idx3, Fin.sum_univ_one]
  unfold cnt
  refine Finset.sum_congr rfl fun q _ => Finset.sum_congr rfl fun j _ => ?_
  rw [shapeCast_ab_1ab_apply]
  exact eq_value (v (ix2 q j)) bw

/-! ## The bin of an entry of a block -/

/-- The column number at entry (q, j) of the block is `j`. -/
theorem iota_col (q : Fin 512) (j : Fin 1000) (h : S512x1000.Iotas .tc 32 [1]) :
    iota .tc S512x1000 32 [1] h (ix2 q j) = BitVec.ofNat 32 j.val := by
  show BitVec.ofNat 32 (0 * 1000 + j.val) = _
  rw [Nat.zero_mul, Nat.zero_add]

/-- The label column spread over the block's columns reads row `q`'s label at every column. -/
theorem label_col (x1 : Vec Ideal S512x1 .i32) (q : Fin 512) (j : Fin 1000) (hsc : S512x1.ShapeCasts S512x1)
    (hbc : S512x1.Broadcasts S512x1000) :
    broadcastTo S512x1000 (shapeCast S512x1 x1 hsc) hbc (ix2 q j) = x1 (ix2 q (0 : Fin 1)) := by
  rw [shapeCast_self]
  exact broadcastTo_apply x1 hbc (ix2 q j) (ix2 q (0 : Fin 1)) fun a => match a with
    | ⟨0, _⟩ => rfl
    | ⟨1, _⟩ => rfl

/-- The one-hot entry the body forms at (q, j): 1 when row `q`'s label word is the column's number, else 0. -/
theorem onehot_entry (x1 : Vec Ideal S512x1 .i32) (q : Fin 512) (j : Fin 1000) (hio : S512x1000.Iotas .tc 32 [1])
    (hsc : S512x1.ShapeCasts S512x1) (hbc : S512x1.Broadcasts S512x1000) (h1 : 1 < 32) :
    (sitofp .f32 (extui 32 (cmpi .eq (iota .tc S512x1000 32 [1] hio) (broadcastTo S512x1000 (shapeCast S512x1 x1 hsc) hbc)) h1)
        : FVec Ideal S512x1000 .f32) (ix2 q j)
      = if x1 (ix2 q (0 : Fin 1)) = BitVec.ofNat 32 j.val then (1 : EReal) else 0 := by
  show FloatOps.sitofp (F := Ideal) .f32 ((IntOp.cmpi .eq (iota .tc S512x1000 32 [1] hio (ix2 q j))
      (broadcastTo S512x1000 (shapeCast S512x1 x1 hsc) hbc (ix2 q j))).setWidth 32) = _
  rw [eq_value, iota_col, label_col]
  by_cases h : x1 (ix2 q (0 : Fin 1)) = BitVec.ofNat 32 j.val
  · rw [if_pos h, if_pos h.symm]
  · rw [if_neg h, if_neg (fun h' => h h'.symm)]

/-- The bin word the body computes at entry (q, j) of a block: the specification's bin of the entry's logit and its
    one-hot value; the factor ten is the literal the body multiplies by. -/
theorem bin_entry (x1 : Vec Ideal S512x1 .i32) (x0 : Vec Ideal S512x1000 .f32) (q : Fin 512) (j : Fin 1000) :
    k0_pay2 x1 x0 (ix2 q j)
      = binOf (x0 (ix2 q j)) (if x1 (ix2 q (0 : Fin 1)) = BitVec.ofNat 32 j.val then 1 else 0) := by
  have hA := onehot_entry x1 q j Facts₀.iota_S512x1000_d1_w32 Facts₀.shapeCasts_S512x1_S512x1
    Facts₀.broadcasts_S512x1_S512x1000 Facts₀.natLt_1_32
  have hC : Ideal.ofBits .f32 0x41200000#32 = ((10 : ℝ) : EReal) := Consts.ofBits_ten
  unfold binOf
  rw [← hA, ← hC]
  rfl

/-! ## The lanes of the stored vector -/

/-- The lane number at lane `p` of the one-row block is `p`. -/
theorem iota_lane (u : Fin 1) (p : Fin 128) (h : S1x128.Iotas .tc 32 [1]) :
    iota .tc S1x128 32 [1] h (ix2 u p) = BitVec.ofNat 32 p.val := by
  show BitVec.ofNat 32 (0 * 128 + p.val) = _
  rw [Nat.zero_mul, Nat.zero_add]

/-- Two numbers below 2³² have the same 32-bit word only if they are equal. -/
theorem ofNat_eq_iff (a b : ℕ) (ha : a < 2 ^ 32) (hb : b < 2 ^ 32) : BitVec.ofNat 32 a = BitVec.ofNat 32 b ↔ a = b := by
  constructor
  · intro h
    have h' := congrArg BitVec.toNat h
    rw [BitVec.toNat_ofNat, BitVec.toNat_ofNat, Nat.mod_eq_of_lt ha, Nat.mod_eq_of_lt hb] at h'
    exact h'
  · rintro rfl; rfl

/-- The compare of two equal words is the set bit, -/
theorem cmpi_eq_of_eq {x y : BitVec 32} (h : x = y) : IntOp.cmpi .eq x y = 1#1 := by
  show BitVec.ofBool (x == y) = 1#1
  rw [beq_iff_eq.mpr h]; rfl

/-- and of two different words the clear bit. -/
theorem cmpi_eq_of_ne {x y : BitVec 32} (h : x ≠ y) : IntOp.cmpi .eq x y = 0#1 := by
  show BitVec.ofBool (x == y) = 0#1
  rw [beq_eq_false_iff_ne.mpr h]; rfl

/-- One link of the chain of selects: lane `k` takes the number `a`, every other lane keeps what it had. -/
def laneSel (k : ℕ) (a : Ideal .f32) (rest : FVec Ideal S1x128 .f32) : FVec Ideal S1x128 .f32 :=
  select (cmpi .eq (iota .tc S1x128 32 [1] Facts₀.iota_S1x128_d1_w32) (broadcast S1x128 (BitVec.ofNat 32 k)))
    (broadcast S1x128 a) rest

/-- A link read at lane `p`: the number when `p` is the link's lane, else what was there. -/
theorem laneSel_apply (k : ℕ) (hk : k < 128) (a : Ideal .f32) (rest : FVec Ideal S1x128 .f32) (u : Fin 1) (p : Fin 128) :
    laneSel k a rest (ix2 u p) = if p.val = k then a else rest (ix2 u p) := by
  show Scalar.select (IntOp.cmpi .eq (iota .tc S1x128 32 [1] Facts₀.iota_S1x128_d1_w32 (ix2 u p)) (BitVec.ofNat 32 k)) a
    (rest (ix2 u p)) = _
  rw [iota_lane]
  have hp : p.val < 2 ^ 32 := by have := p.isLt; omega
  have hk' : k < 2 ^ 32 := by omega
  by_cases h : p.val = k
  · rw [if_pos h, cmpi_eq_of_eq (congrArg (BitVec.ofNat 32) h), select_one]
  · rw [if_neg h, cmpi_eq_of_ne (fun h' => h ((ofNat_eq_iff _ _ hp hk').mp h')), select_zero]

/-- The count of the bin with word `bw` as the body's operations spell it. -/
def cntTerm (v : IVec S512x1000 32) (bw : BitVec 32) : Ideal .f32 :=
  extractAt ![0, 0, 0] (shapeCast S1x1x1
      (multiReduction (F := Ideal) .add [1, 2] S1
        (shapeCast S1x512x1000 (sitofp .f32 (extui 32 (cmpi .eq v (broadcast S512x1000 bw)) Facts₀.natLt_1_32))
          Facts₀.shapeCasts_S512x1000_S1x512x1000)
        0x00000000#32 Facts₀.reduces_S1x512x1000_S1 (.inl rfl) rfl) Facts₀.shapeCasts_S1_S1x1x1)
    Facts₀.inpos_S1x1x1_p0_0_0

/-- It is the number of the block's entries equal to `bw`. -/
theorem cntTerm_eq (v : IVec S512x1000 32) (bw : BitVec 32) : cntTerm v bw = cnt v bw :=
  cnt_extract v bw _ _ _ _ rfl _ _

/-- What the body stores into the accumulator block holding `acc`, from the logit block `x0` and the label block `x1`:
    the payloads of the body's parts composed as the body composes them (generic in the float instance). -/
def stored {F : FTy → Type} [FloatOps F] (x0 : Vec F S512x1000 .f32) (x1 : Vec F S512x1 .i32) (acc : Vec F S1x128 .f32) :
    FVec F S1x128 .f32 :=
  k0_pay1
    (k0_pay10 (k0_pay2 x1 x0) (iota .tc S1x128 32 [1] Facts₀.iota_S1x128_d1_w32)
      (k0_pay7 (k0_pay2 x1 x0) (iota .tc S1x128 32 [1] Facts₀.iota_S1x128_d1_w32) (k0_pay4 x1 x0) (k0_pay5 x1 x0) k0_pay6)
      (k0_pay8 (k0_pay2 x1 x0)) (k0_pay9 (iota .tc S1x128 32 [1] Facts₀.iota_S1x128_d1_w32)))
    (k0_pay11 (k0_pay2 x1 x0)) (k0_pay12 (iota .tc S1x128 32 [1] Facts₀.iota_S1x128_d1_w32)) acc

/-- At the extended reals the stored vector is the accumulator plus the chain of ten selects over the ten counts,
    starting from the zero vector: the payloads unfold to exactly this. -/
theorem stored_eq (x0 : Vec Ideal S512x1000 .f32) (x1 : Vec Ideal S512x1 .i32) (acc : Vec Ideal S1x128 .f32) :
    stored x0 x1 acc
      = addf (shapeCast S1x128 acc Facts₀.shapeCasts_S1x128_S1x128)
          (laneSel 9 (cntTerm (k0_pay2 x1 x0) 9#32) (laneSel 8 (cntTerm (k0_pay2 x1 x0) 8#32)
          (laneSel 7 (cntTerm (k0_pay2 x1 x0) 7#32) (laneSel 6 (cntTerm (k0_pay2 x1 x0) 6#32)
          (laneSel 5 (cntTerm (k0_pay2 x1 x0) 5#32) (laneSel 4 (cntTerm (k0_pay2 x1 x0) 4#32)
          (laneSel 3 (cntTerm (k0_pay2 x1 x0) 3#32) (laneSel 2 (cntTerm (k0_pay2 x1 x0) 2#32)
          (laneSel 1 (cntTerm (k0_pay2 x1 x0) 1#32) (laneSel 0 (cntTerm (k0_pay2 x1 x0) 0#32)
          (broadcast S1x128 (Scalar.ofBits .f32 0x00000000#32)))))))))))) := rfl

/-- A chain of ten choices on a number, highest first, is the choice by the number itself when it is below ten. -/
theorem chain10 (W : ℕ → EReal) (z : EReal) (p : ℕ) :
    (if p = 9 then W 9 else if p = 8 then W 8 else if p = 7 then W 7 else if p = 6 then W 6 else if p = 5 then W 5
      else if p = 4 then W 4 else if p = 3 then W 3 else if p = 2 then W 2 else if p = 1 then W 1
      else if p = 0 then W 0 else z)
      = if p < 10 then W p else z := by
  by_cases h : p < 10
  · rw [if_pos h]
    interval_cases p <;> simp
  · rw [if_neg h, if_neg (by omega), if_neg (by omega), if_neg (by omega), if_neg (by omega), if_neg (by omega),
      if_neg (by omega), if_neg (by omega), if_neg (by omega), if_neg (by omega), if_neg (by omega)]

/-- THE STORED VECTOR AT A LANE: what the accumulator held there, plus, in lane p < 10, the number of the block's
    entries whose bin is p, and nothing in the other lanes. -/
theorem stored_apply (x0 : Vec Ideal S512x1000 .f32) (x1 : Vec Ideal S512x1 .i32) (acc : Vec Ideal S1x128 .f32)
    (u : Fin 1) (p : Fin 128) :
    stored x0 x1 acc (ix2 u p)
      = acc (ix2 u p) + (if p.val < 10 then cnt (k0_pay2 x1 x0) (BitVec.ofNat 32 p.val) else 0) := by
  rw [stored_eq, addf_apply, shapeCast_self]
  rw [laneSel_apply 9 (by omega), laneSel_apply 8 (by omega), laneSel_apply 7 (by omega), laneSel_apply 6 (by omega),
    laneSel_apply 5 (by omega), laneSel_apply 4 (by omega), laneSel_apply 3 (by omega), laneSel_apply 2 (by omega),
    laneSel_apply 1 (by omega), laneSel_apply 0 (by omega)]
  simp only [cntTerm_eq, broadcast_apply]
  show _ + (if p.val = 9 then _ else if p.val = 8 then _ else if p.val = 7 then _ else if p.val = 6 then _
    else if p.val = 5 then _ else if p.val = 4 then _ else if p.val = 3 then _ else if p.val = 2 then _
    else if p.val = 1 then _ else if p.val = 0 then _ else Ideal.ofBits .f32 0x00000000#32) = _
  rw [Consts.ofBits_zero]
  exact congrArg (acc (ix2 u p) + ·) (chain10 (fun k => cnt (k0_pay2 x1 x0) (BitVec.ofNat 32 k)) 0 p.val)

/-! ## What each control case leaves in the output block -/

/-- The offsets of a whole-block access are all zero. -/
theorem hz2 : (![0, 0] : Fin 2 → Nat) = fun _ => 0 := funext fun a => by fin_cases a <;> rfl

section Pieces
variable {F : FTy → Type} [FloatOps F]

/-- The other 63 points: the one store covers the block; its payload reads the three staging buffers whole, the
    accumulator block at what the point before left. -/
theorem out_B (c : Dev nD) (i : grid0.Coords) (a1 : Memref sig .tc .vmem S512x1000 .f32) (h1 : a1.IsWhole)
    (a2 : Memref sig .tc .vmem S512x1 .i32) (h2 : a2.IsWhole) (a3 : Memref sig .tc .vmem S1x128 .f32) (h3 : a3.IsWhole)
    (hc : ¬cond0_0 i) (x0 : Vec F S512x1000 .f32) (x1 : Vec F S512x1 .i32) (xo : Vec F S1x128 .f32) :
    out0_B_2 c i a1 h1 a2 h2 a3 h3 hc x0 x1 xo = stored x0 x1 xo := by
  unfold out0_B_2
  rw [View.read_writes_eq_canon _ _ _ (cover0_B_2 c i a1 h1 a2 h2 a3 h3 hc x0 x1 xo)]
  unfold kernelRun0_B
  dsimp only
  sl_unfold_words
  rw [View.canon_unit_zero hz2]
  simp only [View.readAt_eq_ld, h1.read_unread, h2.read_unread, h3.read_unread, View.ld_unit_zero (S := S1x128) hz2,
    View.ld_unit_zero (S := S512x1000) hz2, View.ld_unit_zero (S := S512x1) hz2]
  rfl

/-- The first point: the block is zeroed, read back, and the same sum is stored over the zero block. -/
theorem out_A (c : Dev nD) (i : grid0.Coords) (a1 : Memref sig .tc .vmem S512x1000 .f32) (h1 : a1.IsWhole)
    (a2 : Memref sig .tc .vmem S512x1 .i32) (h2 : a2.IsWhole) (a3 : Memref sig .tc .vmem S1x128 .f32) (h3 : a3.IsWhole)
    (hc : cond0_0 i) (x0 : Vec F S512x1000 .f32) (x1 : Vec F S512x1 .i32) :
    out0_A_2 c i a1 h1 a2 h2 a3 h3 hc x0 x1 = stored x0 x1 (k0_pay3 (F := F)) := by
  unfold out0_A_2
  rw [View.read_writes_eq_canon _ _ _ (cover0_A_2 c i a1 h1 a2 h2 a3 h3 hc x0 x1)]
  unfold kernelRun0_A
  dsimp only
  sl_unfold_words
  rw [View.canon_cons_unit_zero (S := S1x128) hz2, View.readCov_unit_zero (S := S1x128) _ hz2]
  simp only [View.readAt_eq_ld, h1.read_unread, h2.read_unread, View.ld_unit_zero (S := S1x128) hz2,
    View.ld_unit_zero (S := S512x1000) hz2, View.ld_unit_zero (S := S512x1) hz2]
  rfl

end Pieces

/-! ## The blocks, read off the arrays -/

/-- The logit block and the label block of grid point `t`, at their literal types. -/
abbrev xblk (c : Dev nD) (t : Fin cfg0.N) : Vec Ideal S512x1000 .f32 := iblk0 (F := Ideal) V c 0 t
abbrev lblk (c : Dev nD) (t : Fin cfg0.N) : Vec Ideal S512x1 .i32 := iblk0 (F := Ideal) V c 1 t

/-- Both input windows step along the rows with the grid point and stay at column block 0 (decided over the grid). -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, win0_0.index t (0 : Fin 2) = t.val ∧ win0_0.index t (1 : Fin 2) = 0
    ∧ win0_1.index t (0 : Fin 2) = t.val ∧ win0_1.index t (1 : Fin 2) = 0)

/-- Entry (q, j) of tile t's logit block is the logit of row 512 t + q at column j. -/
theorem xblk_apply (c : Dev nD) (t : Fin cfg0.N) (ht : t.val < 64) (q : Fin 512) (j : Fin 1000) :
    xblk V c t (ix2 q j) = logitsAt V c (tileRow ⟨t.val, ht⟩ q) j := by
  show iblk0 (F := Ideal) V c 0 t (ix2 q j) = _
  unfold iblk0
  rw [View.read_apply]
  show V c main_arg0 _ = V c main_arg0 _
  congr 1
  funext a
  apply Fin.ext
  match a with
  | ⟨0, _⟩ =>
    show win0_0.index t 0 * 512 + 1 * q.val = 512 * t.val + q.val
    rw [(idx_facts t).1]; omega
  | ⟨1, _⟩ =>
    show win0_0.index t 1 * 1000 + 1 * j.val = j.val
    rw [(idx_facts t).2.1]; omega

/-- Row q of tile t's label block is the label of row 512 t + q. -/
theorem lblk_apply (c : Dev nD) (t : Fin cfg0.N) (ht : t.val < 64) (q : Fin 512) :
    lblk V c t (ix2 q (0 : Fin 1)) = labelsAt V c (tileRow ⟨t.val, ht⟩ q) := by
  show iblk0 (F := Ideal) V c 1 t (ix2 q (0 : Fin 1)) = _
  unfold iblk0
  rw [View.read_apply]
  show V c main_v0 _ = V c main_v0 _
  congr 1
  funext a
  apply Fin.ext
  match a with
  | ⟨0, _⟩ =>
    show win0_1.index t 0 * 512 + 1 * q.val = 512 * t.val + q.val
    rw [(idx_facts t).2.2.1]; omega
  | ⟨1, _⟩ =>
    show win0_1.index t 1 * 1 + 1 * 0 = 0
    rw [(idx_facts t).2.2.2]

/-! ## The accumulation over the grid -/

/-- The number of entries of tile `t` in bin `b` (0 past the last tile). -/
def tileCount (X : Logits) (T : LabelVec) (b t : ℕ) : EReal :=
  if h : t < 64 then ∑ q : Fin 512, ∑ j : Fin 1000, inBin X T b (tileRow ⟨t, h⟩ q) j else 0

/-- The count the body takes of grid point t's blocks for bin b is the tile's count. -/
theorem cnt_block (c : Dev nD) (t : Fin cfg0.N) (b : ℕ) :
    cnt (k0_pay2 (lblk V c t) (xblk V c t)) (BitVec.ofNat 32 b) = tileCount (logitsAt V c) (labelsAt V c) b t.val := by
  have ht : t.val < 64 := lt_of_lt_of_eq t.isLt (show cfg0.N = 64 from N_0)
  unfold cnt tileCount
  rw [dif_pos ht]
  refine Finset.sum_congr rfl fun q _ => Finset.sum_congr rfl fun j _ => ?_
  rw [bin_entry, xblk_apply V c t ht, lblk_apply V c t ht]
  rfl

/-- The block a point leaves, lane by lane, from the block it started from. -/
theorem stored_block (c : Dev nD) (t : Fin cfg0.N) (acc : Vec Ideal S1x128 .f32) (i : S1x128.Idx) :
    stored (xblk V c t) (lblk V c t) acc i
      = acc i + (if (i 1).val < 10 then tileCount (logitsAt V c) (labelsAt V c) (i 1).val t.val else 0) := by
  obtain ⟨u, p, rfl⟩ : ∃ (u : Fin 1) (p : Fin 128), i = ix2 u p := ⟨i 0, i 1, eq_ix2 i⟩
  rw [stored_apply, cnt_block]

/-- THE INVARIANT. After grid point n the output block holds, in lane b < 10, the counts of bin b over tiles 0 … n, and
    0 in the other lanes: by induction on the point, the first point from the zeroed block, every other from what the
    point before left. -/
theorem outsAt_eq (c : Dev nD) : ∀ (n : ℕ) (h : n < cfg0.N),
    (outsAt0 (F := Ideal) V c n h : S1x128.Idx → EReal)
      = fun i => if (i 1).val < 10 then ∑ t ∈ Finset.range (n + 1), tileCount (logitsAt V c) (labelsAt V c) (i 1).val t else 0
  | 0, h => by
    rw [outsAt0_A V c ⟨0, h⟩ rfl]
    dsimp only
    rw [out_A (F := Ideal) c (grid0.coords ⟨0, h⟩) (ms0_0 ⟨0, h⟩) (hs0_0 ⟨0, h⟩) (ms0_1 ⟨0, h⟩) (hs0_1 ⟨0, h⟩) (ms0_2 ⟨0, h⟩)
      (hs0_2 ⟨0, h⟩) ((hcond0_0 ⟨0, h⟩).mpr rfl) (xblk V c ⟨0, h⟩) (lblk V c ⟨0, h⟩)]
    funext i
    rw [stored_block V c ⟨0, h⟩ _ i, Finset.sum_range_one]
    show Ideal.ofBits .f32 0x00000000#32 + _ = _
    rw [Consts.ofBits_zero, zero_add]
  | n + 1, h => by
    have hN : cfg0.N = 64 := N_0
    have hB : ¬(⟨n + 1, h⟩ : Fin cfg0.N).val % 64 = 0 := by dsimp only; omega
    rw [outsAt0_B V c ⟨n + 1, h⟩ hB]
    dsimp only
    refine (out_B (F := Ideal) c (grid0.coords ⟨n + 1, h⟩) (ms0_0 ⟨n + 1, h⟩) (hs0_0 ⟨n + 1, h⟩) (ms0_1 ⟨n + 1, h⟩)
      (hs0_1 ⟨n + 1, h⟩) (ms0_2 ⟨n + 1, h⟩) (hs0_2 ⟨n + 1, h⟩) (fun hh => hB ((hcond0_0 ⟨n + 1, h⟩).mp hh))
      (xblk V c ⟨n + 1, h⟩) (lblk V c ⟨n + 1, h⟩)
      (outsAt0 (F := Ideal) V c (n + 1 - 1) (Nat.lt_of_le_of_lt (Nat.sub_le _ _) h))).trans ?_
    funext i
    rw [stored_block V c ⟨n + 1, h⟩ _ i]
    have ih : (outsAt0 (F := Ideal) V c (n + 1 - 1) (Nat.lt_of_le_of_lt (Nat.sub_le _ _) h) : S1x128.Idx → EReal) i
        = if (i 1).val < 10 then ∑ t ∈ Finset.range (n + 1), tileCount (logitsAt V c) (labelsAt V c) (i 1).val t else 0 :=
      congrFun (outsAt_eq c n (Nat.lt_of_succ_lt h)) i
    rw [ih]
    by_cases hp : (i 1).val < 10
    · rw [if_pos hp, if_pos hp, if_pos hp, Finset.sum_range_succ (fun t => tileCount (logitsAt V c) (labelsAt V c) (i 1).val t) (n + 1)]
    · rw [if_neg hp, if_neg hp, if_neg hp, add_zero]

end Hist

open Hist

/-- After the last grid point the first region's output block holds, in lane b < 10, the tile-by-tile histogram of
    bin b, and 0 in the other lanes. -/
theorem hist_value (c : Dev nD) (h : 63 < cfg0.N) :
    (outsAt0 (F := Ideal) V c 63 h : S1x128.Idx → EReal)
      = fun i => if (i 1).val < 10 then countTiled (logitsAt V c) (labelsAt V c) (i 1).val else 0 := by
  rw [outsAt_eq V c 63 h]
  funext i
  by_cases hp : (i 1).val < 10
  · rw [if_pos hp, if_pos hp]
    unfold countTiled
    rw [Finset.sum_range (fun t => tileCount (logitsAt V c) (labelsAt V c) (i 1).val t)]
    refine Finset.sum_congr rfl fun t _ => ?_
    unfold tileCount
    rw [dif_pos t.isLt]
  · rw [if_neg hp, if_neg hp]

end Cert.KernelIdeal.Val

end
-- ==== Proof.Loss.lean ====
/- The second region's value. Each of the 64 grid points adds to lane 0 of the one output block the sum of its
   tile's 512 row losses, and nothing to the other lanes; the first point starts from zero. A row's loss is
   logsumexp of the shifted row minus the label's logit, the label entries taken as sums against the one-hot row and
   an entry's weight read from the weight table by a chain of ten selects on its bin.

   The road: what a grid point stores is one function of its three input blocks and of the accumulator block
   (the stored pieces read back); that function is read entry by entry over the extended reals (the one-hot row
   from the label column, the bin, the chain of selects as the table picked at the bin, the label entry's weight as
   a row sum, the shifted logits, the row maximum as a fold of max from minus infinity, log-sum-exp, the label's
   logit as a row sum, the sum of the 512 row losses, the lane-0 mask); the blocks are tile t's rows of the logits
   and labels and the whole weight table; and an induction over the grid points sums the tiles. -/
import proofs.«400093_j38671885533689_1_alg».proof.Proof.Gen.KernelIdeal.Frame
import proofs.«400093_j38671885533689_1_alg».proof.Proof.Spec
import proofs.«400093_j38671885533689_1_alg».proof.Proof.Consts
import proofs.«400093_j38671885533689_1_alg».proof.Proof.KView
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Val

open Cert.KernelIdeal Cert.KernelIdeal.Gen Idealize.ShloMosaic Idealize.ShloMosaic.TcCoe Idealize.ShloMosaic.ValueIdx
open Idealize.SL.Sem
open Idealize.ShloMosaic.Pipeline (Dat Cfg Window)
open Cert.Ghm

section Pieces
variable {F : FTy → Type} [FloatOps F]

theorem hz2 : (![0, 0] : Fin 2 → Nat) = fun _ => 0 := funext fun a => by fin_cases a <;> rfl

/-- The table's entry at lane b, as the 1 × 1 vector the body loads. -/
abbrev tld0 (x2 : Vec F S1x128 .f32) : Vec F S1x1 .f32 := View.ld x2 (Rect.unit ![0, 0] S1x1.size inb_S1x128_S1x1_0_0)
abbrev tld1 (x2 : Vec F S1x128 .f32) : Vec F S1x1 .f32 := View.ld x2 (Rect.unit ![0, 1] S1x1.size inb_S1x128_S1x1_0_1)
abbrev tld2 (x2 : Vec F S1x128 .f32) : Vec F S1x1 .f32 := View.ld x2 (Rect.unit ![0, 2] S1x1.size inb_S1x128_S1x1_0_2)
abbrev tld3 (x2 : Vec F S1x128 .f32) : Vec F S1x1 .f32 := View.ld x2 (Rect.unit ![0, 3] S1x1.size inb_S1x128_S1x1_0_3)
abbrev tld4 (x2 : Vec F S1x128 .f32) : Vec F S1x1 .f32 := View.ld x2 (Rect.unit ![0, 4] S1x1.size inb_S1x128_S1x1_0_4)
abbrev tld5 (x2 : Vec F S1x128 .f32) : Vec F S1x1 .f32 := View.ld x2 (Rect.unit ![0, 5] S1x1.size inb_S1x128_S1x1_0_5)
abbrev tld6 (x2 : Vec F S1x128 .f32) : Vec F S1x1 .f32 := View.ld x2 (Rect.unit ![0, 6] S1x1.size inb_S1x128_S1x1_0_6)
abbrev tld7 (x2 : Vec F S1x128 .f32) : Vec F S1x1 .f32 := View.ld x2 (Rect.unit ![0, 7] S1x1.size inb_S1x128_S1x1_0_7)
abbrev tld8 (x2 : Vec F S1x128 .f32) : Vec F S1x1 .f32 := View.ld x2 (Rect.unit ![0, 8] S1x1.size inb_S1x128_S1x1_0_8)
abbrev tld9 (x2 : Vec F S1x128 .f32) : Vec F S1x1 .f32 := View.ld x2 (Rect.unit ![0, 9] S1x1.size inb_S1x128_S1x1_0_9)

/-- The entries' weights as the body forms them: the chain of ten selects on the bin. -/
def wsel (x0 : Vec F S512x1000 .f32) (x1 : Vec F S512x1 .i32) (x2 : Vec F S1x128 .f32) : FVec F S512x1000 .f32 :=
  k1_pay8 (k1_pay4 x1 x0) (k1_pay5 x1 x0 (tld0 x2) (tld1 x2) (tld2 x2)) (k1_pay6 x1 x0) (k1_pay7 (tld3 x2))
    (tld4 x2) (tld5 x2) (tld6 x2) (tld7 x2) (tld8 x2) (tld9 x2)

/-- The label entry's weight, broadcast along its row, as the body forms it. -/
def wtgt (x0 : Vec F S512x1000 .f32) (x1 : Vec F S512x1 .i32) (x2 : Vec F S1x128 .f32) : FVec F S512x1000 .f32 :=
  k1_pay9 (k1_pay3 x1) (k1_pay4 x1 x0) (k1_pay5 x1 x0 (tld0 x2) (tld1 x2) (tld2 x2)) (k1_pay6 x1 x0) (k1_pay7 (tld3 x2))
    (tld4 x2) (tld5 x2) (tld6 x2) (tld7 x2) (tld8 x2) (tld9 x2)

/-- What one grid point stores: the accumulator block acc plus the point's contribution. -/
def bodyOut (x0 : Vec F S512x1000 .f32) (x1 : Vec F S512x1 .i32) (x2 : Vec F S1x128 .f32) (acc : Vec F S1x128 .f32) :
    FVec F S1x128 .f32 :=
  k1_pay2 (k1_pay3 x1) x0 (wsel x0 x1 x2) (wtgt x0 x1 x2) acc

/-- After a point other than the first, the output block holds the body's value over what the point before left. -/
theorem piece_B (c : Dev nD) (i : grid1.Coords) (a1 : Memref sig .tc .vmem S512x1000 .f32) (h1 : a1.IsWhole)
    (a2 : Memref sig .tc .vmem S512x1 .i32) (h2 : a2.IsWhole) (a3 : Memref sig .tc .vmem S1x128 .f32) (h3 : a3.IsWhole)
    (a4 : Memref sig .tc .vmem S1x128 .f32) (h4 : a4.IsWhole) (hc : ¬cond1_0 i)
    (x0 : Vec F S512x1000 .f32) (x1 : Vec F S512x1 .i32) (x2 : Vec F S1x128 .f32) (xo : Vec F S1x128 .f32) :
    out1_B_3 c i a1 h1 a2 h2 a3 h3 a4 h4 hc x0 x1 x2 xo = bodyOut x0 x1 x2 xo := by
  unfold out1_B_3
  rw [View.read_writes_eq_canon _ _ _ (cover1_B_3 c i a1 h1 a2 h2 a3 h3 a4 h4 hc x0 x1 x2 xo)]
  unfold kernelRun1_B
  dsimp only
  sl_unfold_words
  rw [View.canon_unit_zero hz2]
  simp only [View.readAt_eq_ld, h1.read_unread, h2.read_unread, h3.read_unread, h4.read_unread,
    View.ld_unit_zero (S := S512x1000) hz2, View.ld_unit_zero (S := S512x1) hz2, View.ld_unit_zero (S := S1x128) hz2]
  rfl

/-- After the first point, the output block holds the body's value over the zero block. -/
theorem piece_A (c : Dev nD) (i : grid1.Coords) (a1 : Memref sig .tc .vmem S512x1000 .f32) (h1 : a1.IsWhole)
    (a2 : Memref sig .tc .vmem S512x1 .i32) (h2 : a2.IsWhole) (a3 : Memref sig .tc .vmem S1x128 .f32) (h3 : a3.IsWhole)
    (a4 : Memref sig .tc .vmem S1x128 .f32) (h4 : a4.IsWhole) (hc : cond1_0 i)
    (x0 : Vec F S512x1000 .f32) (x1 : Vec F S512x1 .i32) (x2 : Vec F S1x128 .f32) :
    out1_A_3 c i a1 h1 a2 h2 a3 h3 a4 h4 hc x0 x1 x2 = bodyOut x0 x1 x2 (k1_pay1 (F := F)) := by
  unfold out1_A_3
  rw [View.read_writes_eq_canon _ _ _ (cover1_A_3 c i a1 h1 a2 h2 a3 h3 a4 h4 hc x0 x1 x2)]
  unfold kernelRun1_A
  dsimp only
  sl_unfold_words
  rw [View.canon_cons_unit_zero (S := S1x128) hz2, View.readCov_unit_zero (S := S1x128) _ hz2]
  simp only [View.readAt_eq_ld, h1.read_unread, h2.read_unread, h3.read_unread,
    View.ld_unit_zero (S := S512x1000) hz2, View.ld_unit_zero (S := S512x1) hz2]
  rfl

end Pieces

section Words
variable {s : Shape} {φ : FTy} {w : Nat}

theorem cmpi_at (p : CmpIPredicate) (a b : IVec s w) (i : s.Idx) : cmpi p a b i = IntOp.cmpi p (a i) (b i) := rfl
theorem minsi_at (a b : IVec s w) (i : s.Idx) : minsi a b i = IntOp.minsi (a i) (b i) := rfl
theorem fptosi_at (x : FVec Ideal s φ) (i : s.Idx) : fptosi w x i = Ideal.fptosi w (x i) := rfl
theorem logistic_at (x : FVec Ideal s φ) (i : s.Idx) : logistic x i = Ideal.logistic (x i) := rfl
theorem absf_at (x : FVec Ideal s φ) (i : s.Idx) : absf x i = max (x i) (-(x i)) := rfl
theorem log_at (x : FVec Ideal s φ) (i : s.Idx) : log x i = Ideal.log (x i) := rfl
theorem exp_at (x : FVec Ideal s φ) (i : s.Idx) : exp x i = Ideal.exp (x i) := rfl
theorem sitofp_at (x : IVec s w) (i : s.Idx) : (sitofp φ x : FVec Ideal s φ) i = (((x i).toInt : ℝ) : EReal) := rfl

/-- An equality test of two words answers the bit 1 exactly when they are equal. -/
theorem cmpi_eq_one_iff (a b : BitVec w) : IntOp.cmpi .eq a b = 1#1 ↔ a = b := by
  unfold IntOp.cmpi
  by_cases h : a = b
  · subst h; simp
  · have hb : (a == b) = false := by simpa using h
    simp [hb, h]

/-- A select on an equality test of two words is the `if` on their equality. -/
theorem select_cmpi_eq {α : Type} (a b : BitVec w) (u v : α) :
    Scalar.select (IntOp.cmpi .eq a b) u v = if a = b then u else v := by
  unfold Scalar.select
  show (if IntOp.cmpi .eq a b = 1#1 then u else v) = _
  by_cases h : a = b
  · rw [if_pos ((cmpi_eq_one_iff a b).mpr h), if_pos h]
  · rw [if_neg (mt (cmpi_eq_one_iff a b).mp h), if_neg h]

/-- A one-bit word widened to 32 bits and read as a signed integer is 1 or 0. -/
theorem onebit_toReal (b : BitVec 1) : (((b.setWidth 32).toInt : ℝ) : EReal) = if b = 1#1 then 1 else 0 := by
  rcases BitVec.eq_zero_or_eq_one b with h | h
  · subst h
    have e : (BitVec.setWidth 32 0#1).toInt = 0 := by decide
    rw [e, if_neg (by decide)]; simp
  · subst h
    have e : (BitVec.setWidth 32 1#1).toInt = 1 := by decide
    rw [e, if_pos rfl]; simp

/-- A vector cast to a column reads, at (i, 0), the vector at i. -/
theorem shapeCast_a_a1_apply {a : ℕ} {α : Type} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu]; omega)

end Words

section Elem
variable (x0 : Vec Ideal S512x1000 .f32) (x1 : Vec Ideal S512x1 .i32) (x2 : Vec Ideal S1x128 .f32)

/-- The label of block row q. -/
abbrev labB (q : Fin 512) : BitVec 32 := (x1 : S512x1.Idx → BitVec 32) (ix2 q (0 : Fin 1))
/-- The one-hot row of block row q. -/
def hotB (q : Fin 512) (j : Fin 1000) : EReal := if labB x1 q = BitVec.ofNat 32 j.val then 1 else 0
/-- The weight table as a function of the lane. -/
def tabB (p : ℕ) : EReal := if h : p < 128 then (x2 : S1x128.Idx → EReal) (ix2 (0 : Fin 1) ⟨p, h⟩) else 0
/-- The weights of block row q's entries. -/
def wB (q : Fin 512) (j : Fin 1000) : EReal := pick (tabB x2) (binOf ((x0 : S512x1000.Idx → EReal) (ix2 q j)) (hotB x1 q j))

theorem onehot_at (q : Fin 512) (j : Fin 1000) :
    (k1_pay3 (F := Ideal) x1 : S512x1000.Idx → EReal) (ix2 q j) = hotB x1 q j := by
  have e1 : iota .tc S512x1000 32 [1] iota_S512x1000_d1_w32 (ix2 q j) = BitVec.ofNat 32 j.val :=
    iota_single_apply .tc S512x1000 32 1 iota_S512x1000_d1_w32 (ix2 q j)
  have e2 : broadcastTo S512x1000 (shapeCast S512x1 x1 shapeCasts_S512x1_S512x1) broadcasts_S512x1_S512x1000 (ix2 q j)
      = labB x1 q := by
    rw [shapeCast_self]
    exact broadcastTo_apply _ _ _ (ix2 q (0 : Fin 1)) (fun a => match a with | ⟨0, _⟩ => rfl | ⟨1, _⟩ => rfl)
  unfold k1_pay3 hotB
  dsimp only
  rw [sitofp_at, extui_apply, cmpi_at, e1, e2, onebit_toReal]
  exact if_congr ((cmpi_eq_one_iff _ _).trans eq_comm) rfl rfl

theorem bin_at (q : Fin 512) (j : Fin 1000) :
    k1_pay4 (F := Ideal) x1 x0 (ix2 q j) = binOf ((x0 : S512x1000.Idx → EReal) (ix2 q j)) (hotB x1 q j) := by
  unfold k1_pay4 binOf
  try dsimp only
  rw [minsi_at, fptosi_at, mulf_apply, absf_at, subf_apply, logistic_at, onehot_at, broadcast_apply, broadcast_apply]
  rw [show (Scalar.ofBits .f32 0x41200000#32 : Ideal .f32) = ((10 : ℝ) : EReal) from Consts.ofBits_ten]

theorem tld_at (b : ℕ) (hb : b < 128) (inb : ∀ a, (![0, b] : Fin 2 → Nat) a + S1x1.size a ≤ S1x128.size a) :
    extractAt ![0, 0] (View.ld x2 (Rect.unit ![0, b] S1x1.size inb)) inpos_S1x1_p0_0 = tabB x2 b := by
  unfold extractAt tabB
  rw [dif_pos hb]
  show x2 _ = x2 _
  refine congrArg x2 (funext fun a => Fin.ext ?_)
  match a with
  | ⟨0, _⟩ => rfl
  | ⟨1, _⟩ => show b + 1 * 0 = b; omega

theorem wsel_at (q : Fin 512) (j : Fin 1000) : wsel x0 x1 x2 (ix2 q j) = wB x0 x1 x2 q j := by
  unfold wsel k1_pay8 k1_pay7 k1_pay6 k1_pay5 wB pick
  dsimp only
  simp only [select_apply, cmpi_at, broadcast_apply, select_cmpi_eq, bin_at,
    tld_at x2 0 (by decide), tld_at x2 1 (by decide), tld_at x2 2 (by decide), tld_at x2 3 (by decide),
    tld_at x2 4 (by decide), tld_at x2 5 (by decide), tld_at x2 6 (by decide), tld_at x2 7 (by decide),
    tld_at x2 8 (by decide), tld_at x2 9 (by decide)]
  rw [show (FloatOps.ofBits .f32 0x00000000#32 : Ideal .f32) = (0 : EReal) from Consts.ofBits_zero]

/-- Reducing a 512 × 1000 vector along its rows: the index of entry k of row q. -/
theorem lift_row (q : Fin 512) (k : Fin 1000) : (reduces_S512x1000_S512).lift (ix1 q) k = ix2 q k := by
  funext a; apply Fin.ext
  match a with
  | ⟨0, _⟩ => rfl
  | ⟨1, _⟩ => rfl

/-- A row sum of a 512 × 1000 vector, kept as a column. -/
theorem rowsum_col (v : FVec Ideal S512x1000 .f32) (q : Fin 512) :
    shapeCast S512x1 (multiReduction .add [1] S512 v 0x00000000#32 reduces_S512x1000_S512 (.inl rfl) rfl) shapeCasts_S512_S512x1
      (ix2 q (0 : Fin 1)) = ∑ k : Fin 1000, v (ix2 q k) := by
  refine (shapeCast_a_a1_apply _ _ q 0).trans ?_
  refine (Ideal.multiReduction_add_single v _ reduces_S512x1000_S512 _ _ (ix1 q)).trans ?_
  exact Finset.sum_congr rfl fun k _ => congrArg v (lift_row q k)

/-- A row maximum of a 512 × 1000 vector from minus infinity, kept as a column. -/
theorem rowmax_col (v : FVec Ideal S512x1000 .f32) (q : Fin 512) :
    shapeCast S512x1 (multiReduction .maximumf [1] S512 v 0xFF800000#32 reduces_S512x1000_S512 (.inl rfl) rfl) shapeCasts_S512_S512x1
      (ix2 q (0 : Fin 1)) = rowMax fun k => v (ix2 q k) := by
  refine (shapeCast_a_a1_apply _ _ q 0).trans ?_
  refine (Ideal.multiReduction_maximumf_single v _ reduces_S512x1000_S512 _ _ (ix1 q)).trans ?_
  unfold rowMax
  rw [show (FloatOps.ofBits .f32 0xFF800000#32 : Ideal .f32) = (⊥ : EReal) from Consts.ofBits_neg_inf]
  exact congrArg (fun f => Finset.fold max (⊥ : EReal) f Finset.univ) (funext fun k => congrArg v (lift_row q k))

/-- A column broadcast along the rows reads, at (q, j), the column at q. -/
theorem bcast_col {α : Type} (v : S512x1.Idx → α) (q : Fin 512) (j : Fin 1000) :
    broadcastTo S512x1000 v broadcasts_S512x1_S512x1000 (ix2 q j) = v (ix2 q (0 : Fin 1)) :=
  broadcastTo_apply _ _ _ (ix2 q (0 : Fin 1)) (fun a => match a with | ⟨0, _⟩ => rfl | ⟨1, _⟩ => rfl)

theorem wtgt_at (q : Fin 512) (j : Fin 1000) :
    wtgt x0 x1 x2 (ix2 q j) = ∑ k : Fin 1000, hotB x1 q k * wB x0 x1 x2 q k := by
  unfold wtgt k1_pay9
  try dsimp only
  refine (bcast_col _ q j).trans ?_
  refine (rowsum_col _ q).trans ?_
  exact Finset.sum_congr rfl fun k _ => congrArg₂ (· * ·) (onehot_at x1 q k) (wsel_at x0 x1 x2 q k)

end Elem

section Row
variable (x0 : Vec Ideal S512x1000 .f32) (x1 : Vec Ideal S512x1 .i32) (x2 : Vec Ideal S1x128 .f32)

/-- The label entry's weight of block row q: the sum of the row's weights against the one-hot row. -/
def wtB (q : Fin 512) : EReal := ∑ k : Fin 1000, hotB x1 q k * wB x0 x1 x2 q k
/-- The shifted logits of block row q. -/
def shB (q : Fin 512) (j : Fin 1000) : EReal :=
  shiftBy (wtB x0 x1 x2 q) ((x0 : S512x1000.Idx → EReal) (ix2 q j)) (wB x0 x1 x2 q j)

/-- The shifted logits as the body forms them: x + log(min(w_target / w, 1)). -/
def shifted : FVec Ideal S512x1000 .f32 :=
  addf x0 (log (minimumf (divf (wtgt x0 x1 x2) (wsel x0 x1 x2)) (broadcast S512x1000 (Scalar.ofBits .f32 0x3F800000#32))))

theorem shifted_at (q : Fin 512) (j : Fin 1000) : shifted x0 x1 x2 (ix2 q j) = shB x0 x1 x2 q j := by
  unfold shifted shB shiftBy wtB
  rw [addf_apply, log_at, minimumf_apply, divf_apply, broadcast_apply, wtgt_at, wsel_at]
  rw [show (Scalar.ofBits .f32 0x3F800000#32 : Ideal .f32) = (1 : EReal) from Consts.ofBits_one]

/-- The rows' maxima of the shifted logits, as a column. -/
def maxCol : FVec Ideal S512x1 .f32 :=
  shapeCast S512x1 (multiReduction .maximumf [1] S512 (shifted x0 x1 x2) 0xFF800000#32 reduces_S512x1000_S512 (.inl rfl) rfl)
    shapeCasts_S512_S512x1

theorem maxCol_at (q : Fin 512) : maxCol x0 x1 x2 (ix2 q (0 : Fin 1)) = rowMax (shB x0 x1 x2 q) := by
  unfold maxCol
  refine (rowmax_col _ q).trans ?_
  exact congrArg rowMax (funext fun k => shifted_at x0 x1 x2 q k)

/-- The rows' losses as the body forms them, as a column: max + log(sum of exp(shifted - max)) - the label's logit. -/
def lossCol : FVec Ideal S512x1 .f32 :=
  subf
    (addf (maxCol x0 x1 x2)
      (log (shapeCast S512x1
        (multiReduction .add [1] S512
          (exp (subf (shifted x0 x1 x2) (broadcastTo S512x1000 (maxCol x0 x1 x2) broadcasts_S512x1_S512x1000)))
          0x00000000#32 reduces_S512x1000_S512 (.inl rfl) rfl)
        shapeCasts_S512_S512x1)))
    (shapeCast S512x1
      (multiReduction .add [1] S512 (mulf (k1_pay3 (F := Ideal) x1) x0) 0x00000000#32 reduces_S512x1000_S512 (.inl rfl) rfl)
      shapeCasts_S512_S512x1)

theorem lossCol_at (q : Fin 512) :
    lossCol x0 x1 x2 (ix2 q (0 : Fin 1))
      = rowLossTiled (fun j => (x0 : S512x1000.Idx → EReal) (ix2 q j)) (hotB x1 q) (wB x0 x1 x2 q) := by
  unfold lossCol rowLossTiled logSumExp
  rw [subf_apply, addf_apply, log_at, rowsum_col, rowsum_col, maxCol_at]
  simp only [exp_at, subf_apply, bcast_col, maxCol_at, shifted_at, mulf_apply, onehot_at]
  rfl

/-- The sum of the block's 512 row losses, as the body forms it. -/
def pointSum : Ideal .f32 :=
  extractAt ![0, 0, 0]
    (shapeCast S1x1x1
      (multiReduction .add [1, 2] S1 (shapeCast S1x512x1 (lossCol x0 x1 x2) shapeCasts_S512x1_S1x512x1) 0x00000000#32
        reduces_S1x512x1_S1 (.inl rfl) rfl)
      shapeCasts_S1_S1x1x1)
    inpos_S1x1x1_p0_0_0

/-- The indices of a 1 × 512 × 1 vector are its 512 middle coordinates. -/
def midEquiv : Fin 512 ≃ S1x512x1.Idx where
  toFun q := ix3 (0 : Fin 1) q (0 : Fin 1)
  invFun i := i 1
  left_inv _ := rfl
  right_inv i := by
    funext a
    match a with
    | ⟨0, _⟩ => exact Subsingleton.elim (α := Fin 1) _ _
    | ⟨1, _⟩ => rfl
    | ⟨2, _⟩ => exact Subsingleton.elim (α := Fin 1) _ _

theorem pointSum_eq : pointSum x0 x1 x2 = ∑ q : Fin 512, lossCol x0 x1 x2 (ix2 q (0 : Fin 1)) := by
  unfold pointSum extractAt
  refine (shapeCast_apply _ _ _ (ix1 (0 : Fin 1)) ?_).trans ?_
  · rw [Shape.rowMajor_val_one, Shape.rowMajor_val_three]; rfl
  refine (Ideal.multiReduction_add_total _ _ reduces_S1x512x1_S1 (fun b => ?_) _ _ (ix1 (0 : Fin 1))).trans ?_
  · match b with
    | ⟨0, _⟩ => rfl
  rw [← Equiv.sum_comp midEquiv]
  exact Finset.sum_congr rfl fun q _ => shapeCast_ab_1ab_apply _ _ (0 : Fin 1) q (0 : Fin 1)

/-- The body's stored value in terms of the block's loss sum: the accumulator plus the sum in lane 0. -/
theorem bodyOut_eq (acc : Vec Ideal S1x128 .f32) :
    bodyOut x0 x1 x2 acc
      = addf (shapeCast S1x128 acc shapeCasts_S1x128_S1x128)
          (select (cmpi .eq (iota .tc S1x128 32 [1] iota_S1x128_d1_w32) (broadcast S1x128 0#32))
            (broadcast S1x128 (pointSum x0 x1 x2)) (broadcast S1x128 (Scalar.ofBits .f32 0x00000000#32))) := rfl

theorem lane_zero_iff (l : Fin 128) : BitVec.ofNat 32 l.val = 0#32 ↔ l.val = 0 := by
  constructor
  · intro h
    have := congrArg BitVec.toNat h
    simp at this
    omega
  · intro h; rw [h]

theorem bodyOut_at (acc : Vec Ideal S1x128 .f32) (l : Fin 128) :
    bodyOut x0 x1 x2 acc (ix2 (0 : Fin 1) l)
      = (acc : S1x128.Idx → EReal) (ix2 (0 : Fin 1) l)
        + if l.val = 0 then
            ∑ q : Fin 512, rowLossTiled (fun j => (x0 : S512x1000.Idx → EReal) (ix2 q j)) (hotB x1 q) (wB x0 x1 x2 q)
          else 0 := by
  rw [bodyOut_eq, addf_apply, shapeCast_self, select_apply, cmpi_at, broadcast_apply, broadcast_apply, broadcast_apply,
    iota_single_apply, select_cmpi_eq, pointSum_eq]
  rw [show (Scalar.ofBits .f32 0x00000000#32 : Ideal .f32) = (0 : EReal) from Consts.ofBits_zero]
  simp only [lossCol_at]
  exact congrArg _ (if_congr (lane_zero_iff l) rfl rfl)

end Row

section Blocks
variable (V : (c : Dev nD) → (b : Ref sig .tc) → Buf (Elt Ideal) ((c : Thread nD τ).loc b))

/-- The three input blocks of the second region at grid point t, at their literal types. -/
abbrev xblk (c : Dev nD) (t : Fin cfg1.N) : Vec Ideal S512x1000 .f32 := iblk1 V c 0 t
abbrev lblk (c : Dev nD) (t : Fin cfg1.N) : Vec Ideal S512x1 .i32 := iblk1 V c 1 t
abbrev tblk (c : Dev nD) (t : Fin cfg1.N) : Vec Ideal S1x128 .f32 := iblk1 V c 2 t

/-- The block indices over the grid: tile t of the logits and of the labels, the whole weight table. -/
theorem idx_facts1 : ∀ t : Fin cfg1.N, win1_0.index t 0 = t.val ∧ win1_0.index t 1 = 0 ∧ win1_1.index t 0 = t.val
    ∧ win1_1.index t 1 = 0 ∧ win1_2.index t 0 = 0 ∧ win1_2.index t 1 = 0 :=
  (by decide +kernel : ∀ t : Fin grid1.N, win1_0.index t 0 = t.val ∧ win1_0.index t 1 = 0 ∧ win1_1.index t 0 = t.val
    ∧ win1_1.index t 1 = 0 ∧ win1_2.index t 0 = 0 ∧ win1_2.index t 1 = 0)

/-- Row q of tile t's logit block is row 512 t + q of the logits. -/
theorem xblk_at (c : Dev nD) (t : Fin cfg1.N) (q : Fin 512) (j : Fin 1000) (r : Fin 32768)
    (hr : r.val = 512 * t.val + q.val) : xblk V c t (ix2 q j) = logitsAt V c r j := by
  have hi := idx_facts1 t
  show iblk1 V c 0 t (ix2 q j) = _
  unfold iblk1
  rw [View.read_apply]
  show V c main_arg0 _ = V c main_arg0 _
  congr 1
  funext a
  apply Fin.ext
  match a with
  | ⟨0, _⟩ => show win1_0.index t 0 * 512 + 1 * q.val = r.val; rw [hi.1, hr]; omega
  | ⟨1, _⟩ => show win1_0.index t 1 * 1000 + 1 * j.val = j.val; rw [hi.2.1]; omega

/-- Row q of tile t's label block is the label of row 512 t + q. -/
theorem lblk_at (c : Dev nD) (t : Fin cfg1.N) (q : Fin 512) (r : Fin 32768)
    (hr : r.val = 512 * t.val + q.val) : labB (lblk V c t) q = labelsAt V c r := by
  have hi := idx_facts1 t
  show iblk1 V c 1 t (ix2 q (0 : Fin 1)) = _
  unfold iblk1
  rw [View.read_apply]
  show V c main_v0 _ = V c main_v0 _
  congr 1
  funext a
  apply Fin.ext
  match a with
  | ⟨0, _⟩ => show win1_1.index t 0 * 512 + 1 * q.val = r.val; rw [hi.2.2.1, hr]; omega
  | ⟨1, _⟩ => show win1_1.index t 1 * 1 + 1 * 0 = 0; rw [hi.2.2.2.1]

/-- The weight-table block is the whole table at every grid point. -/
theorem tblk_at (c : Dev nD) (t : Fin cfg1.N) (p : Fin 128) :
    tblk V c t (ix2 (0 : Fin 1) p) = (V c main_v19 : S1x128.Idx → EReal) (ix2 (0 : Fin 1) p) := by
  have hi := idx_facts1 t
  show iblk1 V c 2 t (ix2 (0 : Fin 1) p) = _
  unfold iblk1
  rw [View.read_apply]
  show V c main_v19 _ = V c main_v19 _
  congr 1
  funext a
  apply Fin.ext
  match a with
  | ⟨0, _⟩ => show win1_2.index t 0 * 1 + 1 * 0 = 0; rw [hi.2.2.2.2.1]
  | ⟨1, _⟩ => show win1_2.index t 1 * 128 + 1 * p.val = p.val; rw [hi.2.2.2.2.2]; omega

end Blocks

section Accumulate
variable (V : (c : Dev nD) → (b : Ref sig .tc) → Buf (Elt Ideal) ((c : Thread nD τ).loc b))

/-- The sum of tile t's 512 row losses (0 beyond the 64 tiles). -/
def tileSum (c : Dev nD) (t : ℕ) : EReal :=
  if h : t < 64 then
    ∑ q : Fin 512,
      rowLossTiled (logitsAt V c (tileRow ⟨t, h⟩ q)) (hot (labelsAt V c) (tileRow ⟨t, h⟩ q))
        (fun j => pick (tableAt V c) (bin (logitsAt V c) (labelsAt V c) (tileRow ⟨t, h⟩ q) j))
  else 0

/-- The weight-table block read as a function of the lane is the table. -/
theorem tabB_tblk (c : Dev nD) (t : Fin cfg1.N) : tabB (tblk V c t) = tableAt V c := by
  funext p
  unfold tabB
  by_cases hp : p < 128
  · rw [dif_pos hp]
    show _ = dite _ _ _
    rw [dif_pos hp]
    exact tblk_at V c t ⟨p, hp⟩
  · rw [dif_neg hp]
    show _ = dite _ _ _
    rw [dif_neg hp]

/-- One grid point adds its tile's sum of row losses to lane 0 of the accumulator block, and nothing elsewhere. -/
theorem point_delta (c : Dev nD) (t : Fin cfg1.N) (acc : Vec Ideal S1x128 .f32) (i : S1x128.Idx) :
    bodyOut (xblk V c t) (lblk V c t) (tblk V c t) acc i
      = (acc : S1x128.Idx → EReal) i + if (i 1).val = 0 then tileSum V c t.val else 0 := by
  have hN : cfg1.N = 64 := N_1
  have ht : t.val < 64 := by have := t.isLt; omega
  obtain ⟨u, l, rfl⟩ : ∃ (u : Fin 1) (l : Fin 128), i = ix2 u l := ⟨i 0, i 1, eq_ix2 i⟩
  obtain rfl : u = 0 := Subsingleton.elim _ _
  refine (bodyOut_at (xblk V c t) (lblk V c t) (tblk V c t) acc l).trans ?_
  show _ + (if l.val = 0 then _ else 0) = _ + (if l.val = 0 then _ else 0)
  unfold tileSum
  rw [dif_pos ht]
  refine congrArg _ (if_congr Iff.rfl (Finset.sum_congr rfl fun q _ => ?_) rfl)
  have hr : (tileRow ⟨t.val, ht⟩ q).val = 512 * t.val + q.val := rfl
  have e1 : (fun j => (xblk V c t : S512x1000.Idx → EReal) (ix2 q j)) = logitsAt V c (tileRow ⟨t.val, ht⟩ q) :=
    funext fun j => xblk_at V c t q j _ hr
  have e2 : hotB (lblk V c t) q = hot (labelsAt V c) (tileRow ⟨t.val, ht⟩ q) := by
    funext j
    unfold hotB hot
    rw [lblk_at V c t q _ hr]
  have e3 : wB (xblk V c t) (lblk V c t) (tblk V c t) q
      = fun j => pick (tableAt V c) (bin (logitsAt V c) (labelsAt V c) (tileRow ⟨t.val, ht⟩ q) j) := by
    funext j
    unfold wB bin
    rw [tabB_tblk, e2, xblk_at V c t q j _ hr]
  rw [e1, e2, e3]

/-- The zero block the first point stores reads 0 everywhere. -/
theorem pay1_at (i : S1x128.Idx) : (k1_pay1 (F := Ideal) : S1x128.Idx → EReal) i = 0 := by
  unfold k1_pay1
  rw [broadcast_apply]
  exact Consts.ofBits_zero

/-- After grid point n the output block holds, in lane 0, the sum of the first n + 1 tiles' sums, and 0 elsewhere:
    by induction on the point, the first point over the zero block, every other over what the point before left. -/
theorem outsAt_eq (c : Dev nD) : ∀ (n : ℕ) (h : n < cfg1.N),
    (outsAt1 (F := Ideal) V c n h : S1x128.Idx → EReal)
      = fun i => if (i 1).val = 0 then ∑ t ∈ Finset.range (n + 1), tileSum V c t else 0
  | 0, h => by
    rw [outsAt1_A V c ⟨0, h⟩ rfl, piece_A]
    funext i
    refine (point_delta V c ⟨0, h⟩ _ i).trans ?_
    rw [pay1_at, zero_add, Finset.sum_range_one]
  | n + 1, h => by
    have hN : cfg1.N = 64 := N_1
    have hB : ¬(⟨n + 1, h⟩ : Fin cfg1.N).val % 64 = 0 := by dsimp only; omega
    rw [outsAt1_B V c ⟨n + 1, h⟩ hB, piece_B]
    funext i
    refine (point_delta V c ⟨n + 1, h⟩ _ i).trans ?_
    show (outsAt1 (F := Ideal) V c n _ : S1x128.Idx → EReal) i + _ = _
    rw [outsAt_eq c n]
    by_cases hl : (i 1).val = 0
    · simp only [if_pos hl]
      rw [Finset.sum_range_succ _ (n + 1)]
    · simp only [if_neg hl]
      exact add_zero _

end Accumulate

variable (V : (c : Dev nD) → (b : Ref sig .tc) → Buf (Elt Ideal) ((c : Thread nD τ).loc b))

/-- After the last grid point the second region's output block holds, in lane 0, the sum over the tiles of the
    tiles' row losses, and 0 in the other lanes. -/
theorem loss_value (c : Dev nD) (h : 63 < cfg1.N) :
    (outsAt1 (F := Ideal) V c 63 h : S1x128.Idx → EReal)
      = fun i => if (i 1).val = 0 then
          ∑ t : Fin 64, ∑ q : Fin 512,
            rowLossTiled (logitsAt V c (tileRow t q)) (hot (labelsAt V c) (tileRow t q))
              (fun j => pick (tableAt V c) (bin (logitsAt V c) (labelsAt V c) (tileRow t q) j))
        else 0 := by
  rw [outsAt_eq V c 63 h]
  funext i
  refine if_congr Iff.rfl ?_ rfl
  rw [← Fin.sum_univ_eq_sum_range (fun t => tileSum V c t) 64]
  exact Finset.sum_congr rfl fun t _ => by unfold tileSum; rw [dif_pos t.isLt]

end Cert.KernelIdeal.Val

end
-- ==== Proof.KArr.lean ====
/- What the two regions leave in their output arrays. Each region has ONE output block (the whole 1 × 128 array, the
   same at every grid point), so the array after the region is what the last grid point left in the block. -/
import proofs.«400093_j38671885533689_1_alg».proof.Proof.Gen.KernelIdeal.Frame
import proofs.«400093_j38671885533689_1_alg».proof.Proof.Spec
import proofs.«400093_j38671885533689_1_alg».proof.Proof.Consts
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Val

open Cert.KernelIdeal Cert.KernelIdeal.Gen Idealize.ShloMosaic Idealize.ShloMosaic.TcCoe Idealize.ShloMosaic.ValueIdx
open Idealize.SL.Sem
open Idealize.ShloMosaic.Pipeline (Dat Cfg Window)
open Cert.Ghm

variable (m : (ℓ : Loc nD τ sig) → Buf (Elt Ideal) ℓ) (ρ : Dev nD → PrngReg)

/-- After the first region its output array is what its last grid point left in the output block.
    The array is the fold of the write-backs over the grid points; the only point that writes the block back is the
    last one (point 63), its block sits at block index (0, 0) and has the size of the whole 1 × 128 array, so reading
    any contents through that block gives the contents back and the block covers every index of the array. -/
theorem hist_array (c : Dev nD) (h : 63 < cfg0.N) :
    W2 (F := Ideal) m ρ c (Proc.devRef .tc main_v1) = outsAt0 (F := Ideal) (V1 m ρ) c 63 h := by
  have hN : cfg0.N = 64 := N_0
  -- the block's offsets in the array, index × size per axis, are all zero
  have hz : (fun a => win0_2.index ⟨63, h⟩ a * main_v1.ty.shape.size a) = fun _ => 0 :=
    funext fun a => by fin_cases a <;> rfl
  refine (W2_arr (F := Ideal) m ρ c 2).trans ?_
  refine (dat0 (F := Ideal) (V1 m ρ) c).arrAt_eq_of_cover 2 (outsAt0 (F := Ideal) (V1 m ρ) c 63 h)
    (fun t hf => ?_) (fun i => ⟨⟨63, h⟩, (flush0_2 _).mpr rfl, ?_⟩)
  · -- a point that writes back is point 63; what it writes is what it left, read through the whole-array block
    have h63 : t.val = 63 := by have := (flush0_2 t).mp hf; have := t.isLt; omega
    obtain rfl : t = ⟨63, h⟩ := Fin.ext h63
    show (cfg0.win 2).cut (grid0.coords ⟨63, h⟩) ((dat0 (F := Ideal) (V1 m ρ) c).after 2 ⟨63, h⟩) = _
    rw [after0_2]
    exact (Memref.read_access_unit_zero (Elt Ideal) main_v1 hz (fun a => by rw [congrFun hz a]; simp) _).symm
  · -- every index of the array lies in that block
    show i ∈ ((View.whole main_v1).slice (win0_2.rect ⟨63, h⟩)).set
    rw [View.set_slice_whole]
    exact View.mem_set_unit_zero hz _ i

/-- After the second region its output array is what its last grid point left in the output block: the same
    argument, the one write-back at point 63 through a block that is the whole 1 × 128 array. -/
theorem loss_array (c : Dev nD) (h : 63 < cfg1.N) :
    W4 (F := Ideal) m ρ c (Proc.devRef .tc main_v20) = outsAt1 (F := Ideal) (V3 m ρ) c 63 h := by
  have hN : cfg1.N = 64 := N_1
  -- the block's offsets in the array, index × size per axis, are all zero
  have hz : (fun a => win1_3.index ⟨63, h⟩ a * main_v20.ty.shape.size a) = fun _ => 0 :=
    funext fun a => by fin_cases a <;> rfl
  refine (W4_arr (F := Ideal) m ρ c 3).trans ?_
  refine (dat1 (F := Ideal) (V3 m ρ) c).arrAt_eq_of_cover 3 (outsAt1 (F := Ideal) (V3 m ρ) c 63 h)
    (fun t hf => ?_) (fun i => ⟨⟨63, h⟩, (flush1_3 _).mpr rfl, ?_⟩)
  · -- a point that writes back is point 63; what it writes is what it left, read through the whole-array block
    have h63 : t.val = 63 := by have := (flush1_3 t).mp hf; have := t.isLt; omega
    obtain rfl : t = ⟨63, h⟩ := Fin.ext h63
    show (cfg1.win 3).cut (grid1.coords ⟨63, h⟩) ((dat1 (F := Ideal) (V3 m ρ) c).after 3 ⟨63, h⟩) = _
    rw [after1_3]
    exact (Memref.read_access_unit_zero (Elt Ideal) main_v20 hz (fun a => by rw [congrFun hz a]; simp) _).symm
  · -- every index of the array lies in that block
    show i ∈ ((View.whole main_v20).slice (win1_3.rect ⟨63, h⟩)).set
    rw [View.set_slice_whole]
    exact View.mem_set_unit_zero hz _ i

end Cert.KernelIdeal.Val

end
-- ==== Proof.HostCount.lean ====
/- The two short host computations on the ten counts that both programs spell with the same operations:
   the number of non-empty bins (compare each count with 0, widen the mask, add the ten words, convert to a float)
   and the reciprocal of the count clamped below by 1. Read here once, for any vector of ten extended reals. -/
import proofs.«400093_j38671885533689_1_alg».proof.Proof.Spec
import proofs.«400093_j38671885533689_1_alg».proof.Proof.Consts
import Idealize.ShloMosaic.PureOps
import Idealize.ShloMosaic.Lib.ValueIdx
import Idealize.ShloMosaic.Lib.Pipeline.Value
import Idealize.ShloMosaic.PureOps.Reduce
import Idealize.ShloMosaic.Lib.StableHlo.Predicate
import Idealize.ShloMosaic.Lib.ValueIdxRank1

noncomputable section

namespace Cert.Ghm.HostCount

open Idealize.ShloMosaic Idealize.ShloMosaic.ValueIdx

/-- The ten counts of a vector, as a function of the bin's number (0 beyond the ten). -/
def countsOf (cn : (⟨1, ![10]⟩ : Shape).Idx → EReal) : ℕ → EReal :=
  fun b => if h : b < 10 then cn (ix1 ⟨b, h⟩) else 0

/-- The widened comparison of one count with 0 is the word 1 when the count is positive, else the word 0:
    the comparison's bit is set exactly when 0 lies strictly below the count, and widening keeps the bit's value. -/
theorem word_toNat (hb : (⟨0, ![]⟩ : Shape).BroadcastsInDim ⟨1, ![10]⟩ (![] : Fin 0 → Fin 1)) (hlt : 1 < 32)
    (cn : (⟨1, ![10]⟩ : Shape).Idx → EReal) (i : (⟨1, ![10]⟩ : Shape).Idx) :
    ((extui 32 (cmpf (F := Ideal) .ogt cn (broadcastInDim ⟨1, ![10]⟩ ![] hb (constant (F := Ideal) ⟨0, ![]⟩ .f32 0x00000000#32))) hlt) i).toNat
      = if 0 < cn i then 1 else 0 := by
  -- a constant of rank 0 laid along the ten bins reads the constant's value at every bin
  show ((Ideal.cmp .ogt (cn i) (Ideal.ofBits .f32 0x00000000#32)).setWidth 32).toNat = _
  rw [Cert.Ghm.Consts.ofBits_zero, StableHlo.Predicate.toNat_setWidth_bit]
  show (if BitVec.ofBool (decide (0 < cn i)) = 1#1 then 1 else 0) = _
  simp only [StableHlo.Predicate.ofBool_eq_one_iff, decide_eq_true_eq]

/-- Comparing each count with 0, widening the mask to words, adding the ten words from 0 and converting the sum
    to a float gives the number of non-empty bins. -/
theorem nonEmpty_chain (hb : (⟨0, ![]⟩ : Shape).BroadcastsInDim ⟨1, ![10]⟩ (![] : Fin 0 → Fin 1))
    (hred : (⟨1, ![10]⟩ : Shape).ReducesTo [0] ⟨0, ![]⟩) (hpos : 0 < (⟨0, ![]⟩ : Shape).numel)
    (hlt : 1 < 32) (cn : (⟨1, ![10]⟩ : Shape).Idx → EReal) :
    (sitofp (F := Ideal) .f32
      (Host.reduce IntOp.addi
        (extui 32 (cmpf (F := Ideal) .ogt cn (broadcastInDim ⟨1, ![10]⟩ ![] hb (constant (F := Ideal) ⟨0, ![]⟩ .f32 0x00000000#32))) hlt)
        (constantI ⟨0, ![]⟩ 32 0#32) hred hpos) : (⟨0, ![]⟩ : Shape).Idx → EReal)
      = fun _ => Cert.Ghm.nonEmpty (countsOf cn) := by
  funext j
  generalize hx : extui 32 (cmpf (F := Ideal) .ogt cn (broadcastInDim ⟨1, ![10]⟩ ![] hb (constant (F := Ideal) ⟨0, ![]⟩ .f32 0x00000000#32))) hlt = x
  have hw : ∀ i, (x i).toNat = if 0 < cn i then 1 else 0 := fun i => by rw [← hx]; exact word_toNat hb hlt cn i
  -- the conversion to a float reads the sum word as a signed integer
  show (((Host.reduce IntOp.addi x (constantI ⟨0, ![]⟩ 32 0#32) hred hpos j).toInt : ℝ) : EReal) = _
  -- ten terms, each 0 or 1: the sum is at most 10
  have hle : ∑ b : Fin 10, (if 0 < cn (ix1 b) then 1 else 0) ≤ 10 := by
    calc ∑ b : Fin 10, (if 0 < cn (ix1 b) then 1 else 0) ≤ ∑ _b : Fin 10, 1 :=
          Finset.sum_le_sum (fun b _ => by split_ifs <;> omega)
      _ = 10 := by simp
  -- the sum of the words' values over the ten indices, re-indexed by the bin's number
  have hsum : ∑ i : (⟨1, ![10]⟩ : Shape).Idx, (x i).toNat = ∑ b : Fin 10, if 0 < cn (ix1 b) then 1 else 0 :=
    ((idxEquiv1 (n := 10)).symm.sum_comp (fun i => (x i).toNat)).symm.trans
      (Finset.sum_congr rfl fun b _ => hw (ix1 b))
  -- the reduction into rank 0 folds word addition from 0 over every index; with no wrap (10 < 2³²) the
  -- sum word's value is the sum of the words' values
  have hnat : (Host.reduce IntOp.addi x (constantI ⟨0, ![]⟩ 32 0#32) hred hpos j).toNat
      = ∑ b : Fin 10, if 0 < cn (ix1 b) then 1 else 0 := by
    rw [Host.reduce_eq_fold]
    have hS : (Finset.univ.filter fun i => hred.drop i = j) = Finset.univ :=
      Finset.filter_true_of_mem (fun i _ => funext fun a => a.elim0)
    rw [hS]
    show (Finset.fold IntOp.addi 0#32 x Finset.univ).toNat = _
    rw [StableHlo.Predicate.toNat_fold_addi _ _ (by rw [hsum]; omega), hsum]
  -- below 2³¹ the signed reading is the unsigned one
  rw [StableHlo.Predicate.toInt_eq_toNat_of_lt (by rw [hnat]; omega), hnat]
  unfold Cert.Ghm.nonEmpty
  have hc : ∀ b : Fin 10, countsOf cn b.val = cn (ix1 b) := fun b => by unfold countsOf; rw [dif_pos b.isLt]
  simp only [hc]
  push_cast
  rfl

/-- One over the count clamped below by one, entry by entry. -/
theorem recip_chain (hb : (⟨0, ![]⟩ : Shape).BroadcastsInDim ⟨1, ![10]⟩ (![] : Fin 0 → Fin 1))
    (cn : (⟨1, ![10]⟩ : Shape).Idx → EReal) (i : (⟨1, ![10]⟩ : Shape).Idx) :
    (Host.divf (F := Ideal) (broadcastInDim ⟨1, ![10]⟩ ![] hb (constant (F := Ideal) ⟨0, ![]⟩ .f32 0x3F800000#32))
        (maximumf cn (broadcastInDim ⟨1, ![10]⟩ ![] hb (constant (F := Ideal) ⟨0, ![]⟩ .f32 0x3F800000#32))) : (⟨1, ![10]⟩ : Shape).Idx → EReal) i
      = Ideal.div 1 (max (cn i) 1) := by
  -- quotient and maximum act entry by entry; the constant 1 laid along the ten bins reads 1 at every bin
  show Ideal.div (Ideal.ofBits .f32 0x3F800000#32) (max (cn i) (Ideal.ofBits .f32 0x3F800000#32)) = _
  rw [Cert.Ghm.Consts.ofBits_one]

end Cert.Ghm.HostCount

end
-- ==== Proof.KHost.lean ====
/- The kernel's host side, and the whole kernel's value. The first stretch reshapes the labels into a column; the
   second slices the ten histogram lanes out of the first region's output, turns them into the ten bin weights
   ((1 / max(count, 1)) / number of non-empty bins) and writes them into lanes 0..9 of a zero row, the weight table; the
   third takes lane 0 of the second region's output and divides it by the number of rows. Put together with the two
   regions' values, the kernel's result is the loss in the tile-by-tile arrangement. -/
import proofs.«400093_j38671885533689_1_alg».proof.Proof.Gen.KernelIdeal.Frame
import proofs.«400093_j38671885533689_1_alg».proof.Proof.Spec
import proofs.«400093_j38671885533689_1_alg».proof.Proof.Consts
import proofs.«400093_j38671885533689_1_alg».proof.Proof.KView
import proofs.«400093_j38671885533689_1_alg».proof.Proof.Hist
import proofs.«400093_j38671885533689_1_alg».proof.Proof.Loss
import proofs.«400093_j38671885533689_1_alg».proof.Proof.KArr
import proofs.«400093_j38671885533689_1_alg».proof.Proof.HostCount
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Val

open Cert.KernelIdeal Cert.KernelIdeal.Gen Idealize.ShloMosaic Idealize.ShloMosaic.TcCoe Idealize.ShloMosaic.ValueIdx
open Idealize.SL.Sem
open Idealize.ShloMosaic.Pipeline (Dat Cfg Window)
open Cert.Ghm

section FoldSet
variable {ι β α : Type} [DecidableEq β]

/-- A run of single-entry writes, read at an entry none of them addresses, leaves what was there. -/
theorem foldl_set_apply_of_forall_ne (e : ι → β) (v : ι → α) :
    ∀ (l : List ι) (x : β → α) (i' : β), (∀ n ∈ l, e n ≠ i') →
      (l.foldl (fun r n => fun i'' => if i'' = e n then v n else r i'') x) i' = x i'
  | [], x, i', _ => rfl
  | a :: l, x, i', h => by
      rw [List.foldl_cons, foldl_set_apply_of_forall_ne e v l _ i' (fun n hn => h n (List.mem_cons_of_mem _ hn))]
      exact if_neg (fun hh => h a List.mem_cons_self hh.symm)

/-- A run of single-entry writes, read at an entry some write addresses, all such writes carrying one value,
    holds that value. -/
theorem foldl_set_apply_of_exists (e : ι → β) (v : ι → α) (v₀ : α) :
    ∀ (l : List ι) (x : β → α) (i' : β), (∃ n ∈ l, e n = i') → (∀ n ∈ l, e n = i' → v n = v₀) →
      (l.foldl (fun r n => fun i'' => if i'' = e n then v n else r i'') x) i' = v₀
  | [], x, i', ⟨n, hn, _⟩, _ => absurd hn List.not_mem_nil
  | a :: l, x, i', hex, hv => by
      rw [List.foldl_cons]
      by_cases hl : ∃ n ∈ l, e n = i'
      · exact foldl_set_apply_of_exists e v v₀ l _ i' hl (fun n hn => hv n (List.mem_cons_of_mem _ hn))
      · rw [foldl_set_apply_of_forall_ne e v l _ i' (fun n hn hh => hl ⟨n, hn, hh⟩)]
        obtain ⟨n, hn, hne⟩ := hex
        rcases List.mem_cons.mp hn with rfl | hn'
        · rw [if_pos hne.symm]; exact hv n List.mem_cons_self hne
        · exact absurd ⟨n, hn', hne⟩ hl

end FoldSet

section ScatterRead
variable {α : Type} {s si u : Shape} {w : Nat}

/-- A scatter whose body returns the update, every update landing inside the operand at `e j`, is the run of
    single-entry writes of the updates in row-major order. -/
theorem scatter_set_eq_foldl (d : ScatterDims s si u) (x : s.Idx → α) (idx : IVec si w) (upd : u.Idx → α)
    (e : u.Idx → s.Idx) (he : ∀ j, d.resultIdx? j idx = some (e j)) :
    Host.scatter d (fun _ b => b) x idx upd
      = (List.finRange u.numel).foldl
          (fun r n => fun i'' => if i'' = e (u.rowMajor.symm n) then upd (u.rowMajor.symm n) else r i'') x := by
  unfold Host.scatter
  simp only [he]

/-- Such a scatter with pairwise distinct landing entries, read at update `j`'s landing entry, holds update `j`. -/
theorem scatter_set_apply_hit (d : ScatterDims s si u) (x : s.Idx → α) (idx : IVec si w) (upd : u.Idx → α)
    (e : u.Idx → s.Idx) (he : ∀ j, d.resultIdx? j idx = some (e j)) (hinj : Function.Injective e) (j : u.Idx) :
    Host.scatter d (fun _ b => b) x idx upd (e j) = upd j := by
  rw [scatter_set_eq_foldl d x idx upd e he]
  refine foldl_set_apply_of_exists (fun n => e (u.rowMajor.symm n)) (fun n => upd (u.rowMajor.symm n)) (upd j) _ x (e j)
    ⟨u.rowMajor j, List.mem_finRange _, by rw [Equiv.symm_apply_apply]⟩ (fun n _ hn => ?_)
  exact congrArg upd (hinj hn)

/-- Such a scatter read at an entry no update lands on holds the operand's entry. -/
theorem scatter_set_apply_miss (d : ScatterDims s si u) (x : s.Idx → α) (idx : IVec si w) (upd : u.Idx → α)
    (e : u.Idx → s.Idx) (he : ∀ j, d.resultIdx? j idx = some (e j)) (i' : s.Idx) (hmiss : ∀ j, e j ≠ i') :
    Host.scatter d (fun _ b => b) x idx upd i' = x i' := by
  rw [scatter_set_eq_foldl d x idx upd e he]
  exact foldl_set_apply_of_forall_ne (fun n => e (u.rowMajor.symm n)) (fun n => upd (u.rowMajor.symm n)) _ x i' (fun n _ => hmiss _)

end ScatterRead

/-- Where update `j` of the ten lands in the 1 × 128 row: lane `j` of row 0. -/
def laneOf (j : S10.Idx) : S1x128.Idx := ix2 (0 : Fin 1) (Fin.castLE (by decide : 10 ≤ 128) (j 0 : Fin 10))

theorem table_start (idx : IVec S2 32) (hidx : ∀ k, idx k = 0#32) (j : S10.Idx) (a : Fin 2) :
    scatter_S1x128_S2_S10_0_0_01_0.start j idx a = 0 := by
  unfold ScatterDims.start
  split
  · rw [hidx]; rfl
  · rfl

theorem table_window0 (j : S10.Idx) : scatter_S1x128_S2_S10_0_0_01_0.window j (0 : Fin 2) = 0 := by
  unfold ScatterDims.window
  exact dif_neg (by decide)

theorem table_window1 (j : S10.Idx) : scatter_S1x128_S2_S10_0_0_01_0.window j (1 : Fin 2) = (j 0).val := by
  unfold ScatterDims.window
  rw [dif_pos (by decide)]
  rfl

/-- With a zero start index, update `j` lands at lane `j` of row 0: the start contributes 0 on both axes, the
    window coordinate is 0 on the inserted row axis and `j` on the lane axis. -/
theorem table_resultIdx (idx : IVec S2 32) (hidx : ∀ k, idx k = 0#32) (j : S10.Idx) :
    scatter_S1x128_S2_S10_0_0_01_0.resultIdx? j idx = some (laneOf j) := by
  have hj : (j 0).val < 10 := (j 0).isLt
  have h : ∀ a : Fin 2, 0 ≤ scatter_S1x128_S2_S10_0_0_01_0.start j idx a + scatter_S1x128_S2_S10_0_0_01_0.window j a
      ∧ scatter_S1x128_S2_S10_0_0_01_0.start j idx a + scatter_S1x128_S2_S10_0_0_01_0.window j a < S1x128.size a := by
    intro a
    rw [table_start idx hidx]
    match a with
    | ⟨0, _⟩ => rw [show (⟨0, by omega⟩ : Fin 2) = 0 from rfl, table_window0]; exact ⟨by decide, by decide⟩
    | ⟨1, _⟩ =>
      rw [show (⟨1, by omega⟩ : Fin 2) = 1 from rfl, table_window1]
      refine ⟨by omega, ?_⟩
      show (0 : ℤ) + ((j 0).val : ℤ) < ((128 : ℕ) : ℤ)
      omega
  unfold ScatterDims.resultIdx?
  rw [dif_pos h]
  refine congrArg some (funext fun a => Fin.ext ?_)
  show (scatter_S1x128_S2_S10_0_0_01_0.start j idx a + scatter_S1x128_S2_S10_0_0_01_0.window j a).toNat = (laneOf j a).val
  rw [table_start idx hidx]
  match a with
  | ⟨0, _⟩ => rw [show (⟨0, by omega⟩ : Fin 2) = 0 from rfl, table_window0]; rfl
  | ⟨1, _⟩ =>
    rw [show (⟨1, by omega⟩ : Fin 2) = 1 from rfl, table_window1]
    show ((0 : ℤ) + ((j 0).val : ℤ)).toNat = (j 0).val
    omega

theorem laneOf_injective : Function.Injective laneOf := by
  intro j j' h
  have h1 : (laneOf j 1).val = (laneOf j' 1).val := by rw [h]
  funext a
  match a with
  | ⟨0, _⟩ => exact Fin.ext h1

/-- The start index vector, two zeros laid end to end, is zero at both entries. -/
theorem startVec_zero (k : S2.Idx) :
    concatenate S2 0
        [⟨S1, broadcastInDim S1 ![] bcast_S_S1 (constantI S_ 32 0#32)⟩,
          ⟨S1, broadcastInDim S1 ![] bcast_S_S1 (constantI S_ 32 0#32)⟩]
        concatenates_S1_S1_S2_d0 k = 0#32 := by
  obtain ⟨q, rfl⟩ : ∃ q : Fin 2, k = ix1 q := ⟨k 0, eq_ix1 k⟩
  fin_cases q <;> rfl

/-- The ten weights from the ten counts, as the program spells them. -/
def weightsOf (cn : S10.Idx → EReal) : S10.Idx → EReal :=
  Host.divf (F := Ideal)
    (Host.divf (F := Ideal) (broadcastInDim S10 ![] bcast_S_S10 (constant (F := Ideal) S_ .f32 0x3F800000#32))
      (maximumf cn (broadcastInDim S10 ![] bcast_S_S10 (constant (F := Ideal) S_ .f32 0x3F800000#32))))
    (broadcastInDim S10 ![] bcast_S_S10
      (sitofp (F := Ideal) .f32
        (Host.reduce IntOp.addi
          (extui 32 (cmpf (F := Ideal) .ogt cn (broadcastInDim S10 ![] bcast_S_S10 (constant (F := Ideal) S_ .f32 0x00000000#32))) natLt_1_32)
          (constantI S_ 32 0#32) reducesTo_S10_S_d0 h_S_)))

/-- A weight is the reciprocal of the clamped count over the number of non-empty bins. -/
theorem weightsOf_apply (cn : S10.Idx → EReal) (i : S10.Idx) :
    weightsOf cn i = Ideal.div (Ideal.div 1 (max (cn i) 1)) (nonEmpty (HostCount.countsOf cn)) := by
  unfold weightsOf
  show Ideal.div
      ((Host.divf (F := Ideal) (broadcastInDim S10 ![] bcast_S_S10 (constant (F := Ideal) S_ .f32 0x3F800000#32))
        (maximumf cn (broadcastInDim S10 ![] bcast_S_S10 (constant (F := Ideal) S_ .f32 0x3F800000#32))) : S10.Idx → EReal) i)
      ((sitofp (F := Ideal) .f32
        (Host.reduce IntOp.addi
          (extui 32 (cmpf (F := Ideal) .ogt cn (broadcastInDim S10 ![] bcast_S_S10 (constant (F := Ideal) S_ .f32 0x00000000#32))) natLt_1_32)
          (constantI S_ 32 0#32) reducesTo_S10_S_d0 h_S_) : S_.Idx → EReal) _) = _
  rw [HostCount.recip_chain, HostCount.nonEmpty_chain]

/-- The ten counts: lanes 0..9 of the histogram row, as a vector of ten. -/
def countsVec (h1 : S1x128.Idx → EReal) : S10.Idx → EReal :=
  shapeCast S10 (extractStridedSlice S1x10 ![0, 0] h1 slices_S1x128_S1x10_0_0) shapeCasts_S1x10_S10

/-- Count `b` of the ten is lane `b` of the histogram row: the slice starts at lane 0 and dropping the unit row axis
    keeps the row-major position. -/
theorem countsVec_apply (h1 : S1x128.Idx → EReal) (b : Fin 10) :
    countsVec h1 (ix1 b) = h1 (ix2 (0 : Fin 1) (Fin.castLE (by decide : 10 ≤ 128) b)) := by
  unfold countsVec
  refine (shapeCast_apply _ _ (ix1 b) (ix2 (0 : Fin 1) b) ?_).trans ?_
  · rw [Shape.rowMajor_val_one, Shape.rowMajor_val_two]
    show 0 * 10 + b.val = b.val
    omega
  · refine extractStridedSlice_apply _ _ _ _ _ (fun a => ?_)
    match a with
    | ⟨0, _⟩ => rfl
    | ⟨1, _⟩ =>
      show b.val = 0 + b.val
      omega

/-- The weight table from the histogram row, as the program spells it: the ten weights written at lanes 0..9 of a
    zero row. -/
def tableOf (h1 : S1x128.Idx → EReal) : S1x128.Idx → EReal :=
  Host.scatter scatter_S1x128_S2_S10_0_0_01_0 (fun _ b => b)
    (broadcastInDim S1x128 ![] bcast_S_S1x128 (constant (F := Ideal) S_ .f32 0x00000000#32))
    (concatenate S2 0
      [⟨S1, broadcastInDim S1 ![] bcast_S_S1 (constantI S_ 32 0#32)⟩,
        ⟨S1, broadcastInDim S1 ![] bcast_S_S1 (constantI S_ 32 0#32)⟩]
      concatenates_S1_S1_S2_d0)
    (weightsOf (countsVec h1))

/-- Lane `b < 10` of the table is weight `b`. -/
theorem tableOf_lane (h1 : S1x128.Idx → EReal) (b : Fin 10) :
    tableOf h1 (ix2 (0 : Fin 1) (Fin.castLE (by decide : 10 ≤ 128) b))
      = Ideal.div (Ideal.div 1 (max (h1 (ix2 (0 : Fin 1) (Fin.castLE (by decide : 10 ≤ 128) b))) 1))
          (nonEmpty (HostCount.countsOf (countsVec h1))) := by
  unfold tableOf
  refine (scatter_set_apply_hit scatter_S1x128_S2_S10_0_0_01_0 _ _ (weightsOf (countsVec h1)) laneOf
    (table_resultIdx _ startVec_zero) laneOf_injective (ix1 b)).trans ?_
  rw [weightsOf_apply, countsVec_apply]

/-- A lane from 10 on keeps the zero it started with. -/
theorem tableOf_rest (h1 : S1x128.Idx → EReal) (q : Fin 128) (hq : 10 ≤ q.val) :
    tableOf h1 (ix2 (0 : Fin 1) q) = 0 := by
  unfold tableOf
  refine (scatter_set_apply_miss scatter_S1x128_S2_S10_0_0_01_0 _ _ (weightsOf (countsVec h1)) laneOf
    (table_resultIdx _ startVec_zero) (ix2 (0 : Fin 1) q) (fun j hj => ?_)).trans ?_
  · have h1 : (laneOf j 1).val = ((ix2 (0 : Fin 1) q : S1x128.Idx) 1).val := by rw [hj]
    have hj' : (j 0).val < 10 := (j 0).isLt
    change (j 0).val = q.val at h1
    omega
  · show Ideal.ofBits .f32 0x00000000#32 = 0
    exact Consts.ofBits_zero

/-- Over a histogram row holding the counts `cnt` in lanes 0..9, the table holds the bins' weights in lanes 0..9 and
    zero beyond: the number of non-empty bins and a bin's weight read the counts at 0..9 only. -/
theorem tableOf_hist (cnt : ℕ → EReal) (p : ℕ) (hp : p < 128) :
    tableOf (fun i => if (i 1).val < 10 then cnt (i 1).val else 0) (ix2 (0 : Fin 1) (⟨p, hp⟩ : Fin 128))
      = if p < 10 then binWeight cnt p else 0 := by
  by_cases h : p < 10
  · rw [if_pos h]
    refine (tableOf_lane _ (⟨p, h⟩ : Fin 10)).trans ?_
    have hc : ∀ b : Fin 10,
        HostCount.countsOf (countsVec (fun i : S1x128.Idx => if (i 1).val < 10 then cnt (i 1).val else 0)) b.val = cnt b.val := by
      intro b
      unfold HostCount.countsOf
      rw [dif_pos b.isLt, countsVec_apply]
      show (if b.val < 10 then cnt b.val else 0) = _
      exact if_pos b.isLt
    unfold binWeight nonEmpty
    simp only [hc]
    show Ideal.div (Ideal.div 1 (max (if p < 10 then cnt p else 0) 1)) _ = _
    rw [if_pos h]
  · rw [if_neg h]
    exact tableOf_rest _ (⟨p, hp⟩ : Fin 128) (by show 10 ≤ p; omega)

/-- The chain of ten selects reads its table at 0..9 only. -/
theorem pick_congr (W W' : ℕ → EReal) (h : ∀ p, p < 10 → W p = W' p) (bn : BitVec 32) : pick W bn = pick W' bn := by
  unfold pick
  rw [h 9 (by decide), h 8 (by decide), h 7 (by decide), h 6 (by decide), h 5 (by decide), h 4 (by decide),
    h 3 (by decide), h 2 (by decide), h 1 (by decide), h 0 (by decide)]

variable (m : (ℓ : Loc nD τ sig) → Buf (Elt Ideal) ℓ) (ρ : Dev nD → PrngReg)

/-- The logits at launch. -/
abbrev launchLogits (c : Dev nD) : Logits :=
  fun r j => (m ((c : Thread nD τ).loc main_arg0) : S32768x1000.Idx → EReal) (ix2 r j)
/-- The labels at launch. -/
abbrev launchLabels (c : Dev nD) : LabelVec :=
  fun r => (m ((c : Thread nD τ).loc main_arg1) : S32768.Idx → BitVec 32) (ix1 r)

/-- The first stretch writes only the label column: the logits' buffer is as launched. -/
theorem W1_arg0 (c : Dev nD) : W1 (F := Ideal) m ρ c (Proc.devRef .tc main_arg0) = m ((c : Thread nD τ).loc main_arg0) :=
  calc W1 m ρ c (Proc.devRef .tc main_arg0)
    _ = W0 m ρ c (Proc.devRef .tc main_arg0) := StableHlo.after_of_forall_not_mem (b := Proc.devRef .tc main_arg0) _ _ (List.forall_iff_forall_mem.mp (by
          simp only [hostOps0, List.Forall, StableHlo.reshape_writes, Finset.mem_singleton]
          exact StableHlo.devRef_ne_of_ne (by decide)))
    _ = m ((c : Thread nD τ).loc main_arg0) := rfl

/-- The first region finds the launch logits. -/
theorem entry0_logits (c : Dev nD) : logitsAt (V1 (F := Ideal) m ρ) c = launchLogits m c := by
  funext r j
  show (W1 (F := Ideal) m ρ c (Proc.devRef .tc main_arg0) : S32768x1000.Idx → EReal) (ix2 r j) = _
  rw [W1_arg0]

/-- The label column after the first stretch: the label vector under another shape. -/
theorem W1_v0 (c : Dev nD) : (W1 (F := Ideal) m ρ c (Proc.devRef .tc main_v0) : S32768x1.Idx → BitVec 32)
    = shapeCast S32768x1 (m ((c : Thread nD τ).loc main_arg1) : S32768.Idx → BitVec 32) shapeCasts_S32768_S32768x1 := by
  show StableHlo.after hostOps0 (W0 (F := Ideal) m ρ c) (Proc.devRef .tc main_v0) = _
  after_results
  rfl

/-- The first region finds the launch labels, as a column: entry (r, 0) of the column sits at row-major position r. -/
theorem entry0_labels (c : Dev nD) : labelsAt (V1 (F := Ideal) m ρ) c = launchLabels m c := by
  funext r
  show (W1 (F := Ideal) m ρ c (Proc.devRef .tc main_v0) : S32768x1.Idx → BitVec 32) (ix2 r (0 : Fin 1)) = _
  rw [W1_v0]
  refine shapeCast_apply _ _ _ (ix1 r) ?_
  rw [Shape.rowMajor_val_one, Shape.rowMajor_val_two]
  show r.val = r.val * 1 + 0
  omega

/-- Neither the first region (the logits are an input window's array) nor the second stretch writes the logits. -/
theorem W3_arg0 (c : Dev nD) : W3 (F := Ideal) m ρ c (Proc.devRef .tc main_arg0) = m ((c : Thread nD τ).loc main_arg0) :=
  calc W3 m ρ c (Proc.devRef .tc main_arg0)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := (W2_arr m ρ c 0).trans (((dat0 (V1 m ρ) c).arrAt_in 0 rfl _).trans (A_eq0 (V1 m ρ) c 0))
    _ = m ((c : Thread nD τ).loc main_arg0) := W1_arg0 m ρ c

/-- The second region finds the launch logits. -/
theorem entry1_logits (c : Dev nD) : logitsAt (V3 (F := Ideal) m ρ) c = launchLogits m c := by
  funext r j
  show (W3 (F := Ideal) m ρ c (Proc.devRef .tc main_arg0) : S32768x1000.Idx → EReal) (ix2 r j) = _
  rw [W3_arg0]

/-- Neither the first region (the label column is an input window's array) nor the second stretch writes the label
    column. -/
theorem W3_v0 (c : Dev nD) : W3 (F := Ideal) m ρ c (Proc.devRef .tc main_v0) = W1 (F := Ideal) m ρ c (Proc.devRef .tc main_v0) :=
  calc W3 m ρ c (Proc.devRef .tc main_v0)
    _ = W2 m ρ c (Proc.devRef .tc main_v0) := StableHlo.after_of_forall_not_mem (b := Proc.devRef .tc main_v0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v0) := (W2_arr m ρ c 1).trans (((dat0 (V1 m ρ) c).arrAt_in 1 rfl _).trans (A_eq0 (V1 m ρ) c 1))

/-- The second region finds the launch labels, as a column. -/
theorem entry1_labels (c : Dev nD) : labelsAt (V3 (F := Ideal) m ρ) c = launchLabels m c := by
  have h := entry0_labels m ρ c
  funext r
  show (W3 (F := Ideal) m ρ c (Proc.devRef .tc main_v0) : S32768x1.Idx → BitVec 32) (ix2 r (0 : Fin 1)) = _
  rw [W3_v0]
  exact congrFun h r

/-- The weight table after the second stretch, as a function of the histogram row the first region left. -/
theorem W3_v19 (c : Dev nD) : (W3 (F := Ideal) m ρ c (Proc.devRef .tc main_v19) : S1x128.Idx → EReal)
    = tableOf (W2 (F := Ideal) m ρ c (Proc.devRef .tc main_v1)) := by
  show StableHlo.after hostOps1 (W2 (F := Ideal) m ρ c) (Proc.devRef .tc main_v19) = _
  after_results
  rfl

/-- The result after the last stretch: lane 0 of the second region's output row over the number of rows. -/
theorem W5_v23 (c : Dev nD) : (W5 (F := Ideal) m ρ c (Proc.devRef .tc main_v23) : S_.Idx → EReal)
    = fun _ => Ideal.div ((W4 (F := Ideal) m ρ c (Proc.devRef .tc main_v20) : S1x128.Idx → EReal) (ix2 (0 : Fin 1) (0 : Fin 128)))
        ((32768 : ℝ) : EReal) := by
  show StableHlo.after hostOps2 (W4 (F := Ideal) m ρ c) (Proc.devRef .tc main_v23) = _
  after_results
  funext i
  show Ideal.div
      (shapeCast S_ (extractStridedSlice S1x1 ![0, 0] (W4 (F := Ideal) m ρ c (Proc.devRef .tc main_v20) : S1x128.Idx → EReal) slices_S1x128_S1x1_0_0)
        shapeCasts_S1x1_S_ i)
      (Ideal.ofBits .f32 0x47000000#32) = _
  rw [Consts.ofBits_rows]
  refine congrArg (fun z => Ideal.div z ((32768 : ℝ) : EReal)) ?_
  refine (shapeCast_apply _ _ i (ix2 (0 : Fin 1) (0 : Fin 1)) ?_).trans ?_
  · rw [Shape.rowMajor_val_two]
    have h1 : S_.numel = 1 := by decide
    have h2 := (S_.rowMajor i).isLt
    show 0 * 1 + 0 = (S_.rowMajor i).val
    omega
  · refine extractStridedSlice_apply _ _ _ _ _ (fun a => ?_)
    match a with
    | ⟨0, _⟩ => rfl
    | ⟨1, _⟩ => rfl

/-- The histogram row the first region leaves: the tile-by-tile histogram of the launch operands in lanes 0..9. -/
theorem hist_lanes (c : Dev nD) : (W2 (F := Ideal) m ρ c (Proc.devRef .tc main_v1) : S1x128.Idx → EReal)
    = fun i => if (i 1).val < 10 then countTiled (launchLogits m c) (launchLabels m c) (i 1).val else 0 := by
  have h : 63 < cfg0.N := lt_of_lt_of_eq (by decide) N_0.symm
  rw [hist_array m ρ c h, hist_value (V1 m ρ) c h, entry0_logits m ρ c, entry0_labels m ρ c]
  rfl

/-- The second region finds, in lane p < 10 of the weight table, the weight of bin p over the tile-by-tile
    histogram, and 0 in the other lanes. -/
theorem entry1_table (c : Dev nD) (p : ℕ) :
    tableAt (V3 (F := Ideal) m ρ) c p
      = if p < 10 then binWeight (countTiled (launchLogits m c) (launchLabels m c)) p else 0 := by
  show ((if h : p < 128 then (W3 (F := Ideal) m ρ c (Proc.devRef .tc main_v19) : S1x128.Idx → EReal) (ix2 (0 : Fin 1) ⟨p, h⟩) else (0 : EReal)) : EReal) = _
  by_cases hp : p < 128
  · rw [dif_pos hp, W3_v19, hist_lanes]
    exact tableOf_hist _ p hp
  · rw [dif_neg hp, if_neg (by omega)]

/-- The kernel's result buffer after the last host stretch holds the loss in the tile-by-tile arrangement. -/
theorem kernel_value (c : Dev nD) :
    (W5 (F := Ideal) m ρ c (Proc.devRef .tc main_v23) : S_.Idx → EReal)
      = fun _ => lossTiled (launchLogits m c) (launchLabels m c) := by
  have h : 63 < cfg1.N := lt_of_lt_of_eq (by decide) N_1.symm
  -- the select chain reads the table at 0..9, where it holds the bins' weights
  have hpick : pick (tableAt (V3 (F := Ideal) m ρ) c) = pick (binWeight (countTiled (launchLogits m c) (launchLabels m c))) :=
    funext fun bn => pick_congr _ _ (fun p hp => by rw [entry1_table m ρ c p, if_pos hp]) bn
  rw [W5_v23, loss_array m ρ c h, loss_value (V3 m ρ) c h]
  funext _
  -- lane 0 of the output row is the sum of the rows' losses
  show Ideal.div (if ((ix2 (0 : Fin 1) (0 : Fin 128) : S1x128.Idx) 1).val = 0 then _ else _) _ = _
  rw [if_pos (show ((ix2 (0 : Fin 1) (0 : Fin 128) : S1x128.Idx) 1).val = 0 from rfl),
    entry1_logits m ρ c, entry1_labels m ρ c, hpick]
  rfl

end Cert.KernelIdeal.Val

end
-- ==== Proof.RefHist.lean ====
/- The reference's histogram read at an index. Its one-hot array is the one-hot row of the label; its array of bins
   is the bin of each entry; and its histogram — a scatter-add of ones into ten zero cells at the flattened bins — has
   in cell b one unit per entry whose bin is b: the count over all entries. -/
import proofs.«400093_j38671885533689_1_alg».proof.Proof.RefRead
import proofs.«400093_j38671885533689_1_alg».proof.Proof.Spec
import proofs.«400093_j38671885533689_1_alg».proof.Proof.Consts
import proofs.«400093_j38671885533689_1_alg».proof.Proof.MathBins
import Idealize.ShloMosaic.Lib.ValueIdx
import Idealize.ShloMosaic.Lib.Pipeline.Value
import Idealize.ShloMosaic.PureOps.Ideal.Laws
import Mathlib.Tactic.IntervalCases

noncomputable section

namespace Cert.ReferenceIdeal.RefValue

open Cert.ReferenceIdeal Cert.ReferenceIdeal.Gen Cert.ReferenceIdeal.Read Idealize.ShloMosaic Idealize.ShloMosaic.TcCoe
  Idealize.ShloMosaic.ValueIdx Cert.Ghm

/-- The logits of an argument array, row by column. -/
abbrev logitsOf (x0 : S32768x1000.Idx → EReal) : Logits := fun r j => x0 (ix2 r j)
/-- The labels of an argument array, row by row. -/
abbrev labelsOf (x1 : S32768.Idx → BitVec 32) : LabelVec := fun r => x1 (ix1 r)

/-- The reference's one-hot array at (r, j) is the one-hot row of row r's label at j. -/
theorem ref_hot (x1 : S32768.Idx → BitVec 32) (r : Fin 32768) (j : Fin 1000) :
    val_main_v0 (F := Ideal) x1 (ix2 r j) = hot (labelsOf x1) r j := by
  -- at (r, j) the array compares row r's label (broadcast over the columns) with the column number j, and turns
  -- the resulting bit into a number: 1 when they agree, 0 when not
  rw [val_main_v0_apply, val_main_call0_v4_apply, val_main_call0_v2_apply, val_main_call0_v0_apply,
    val_main_call0_v3_apply, val_main_call0_v1_apply]
  have h1 : idx_main_call0_v0 (idx_main_call0_v2 (ix2 r j)) = ix1 r := by
    funext a; match a with | ⟨0, _⟩ => rfl
  rw [h1]
  show (((IntOp.cmpi .eq (x1 (ix1 r)) (BitVec.ofNat 32 j.val)).toNat : ℝ) : EReal) = hot (labelsOf x1) r j
  show (((BitVec.ofBool (x1 (ix1 r) == BitVec.ofNat 32 j.val)).toNat : ℝ) : EReal)
    = if x1 (ix1 r) = BitVec.ofNat 32 j.val then 1 else 0
  by_cases h : x1 (ix1 r) = BitVec.ofNat 32 j.val
  · rw [if_pos h, h]; simp
  · rw [if_neg h]
    have hb : (x1 (ix1 r) == BitVec.ofNat 32 j.val) = false := by simpa using h
    rw [hb]; simp

/-- The reference's array of bins at (r, j) is the bin of entry (r, j). -/
theorem ref_bin (x0 : S32768x1000.Idx → EReal) (x1 : S32768.Idx → BitVec 32) (r : Fin 32768) (j : Fin 1000) :
    val_main_v13 (F := Ideal) x0 x1 (ix2 r j) = bin (logitsOf x0) (labelsOf x1) r j := by
  -- at (r, j) the chain of elementwise operations is min(trunc(|1 / (1 + exp(-x)) - h| · 10), 9) with x the logit
  -- and h the one-hot value; 1 / (1 + exp(-x)) is the logistic function by definition, so this is the bin
  rw [val_main_v13_apply, val_main_v11_apply, val_main_v10_apply, val_main_v8_apply, val_main_v7_apply,
    val_main_v6_apply, val_main_v5_apply, val_main_cst_0_apply, val_main_v4_apply, val_main_v3_apply,
    val_main_cst_apply, val_main_v2_apply, val_main_v1_apply, val_main_v9_apply, val_main_cst_1_apply,
    val_main_v12_apply, val_main_c_apply, ref_hot]
  simp only [Ideal.ofBits_def, Consts.ofBits_one, Consts.ofBits_ten]
  rfl

/-! ### The histogram's scatter, read at a cell

The scatter adds update k (a one) into the cell named by the k-th entry of the index column, read as a signed
integer, and drops it when that integer is outside 0..9. Below: which cell an update lands on; the negative-index
wrap is the identity on a bin; the flat index k of an entry is the pair (k / 1000, k mod 1000). -/

/-- The dimension numbers of the histogram's scatter: ten cells, a column of 32768000 start indices, one update each. -/
private abbrev histDims := scatter_S10_S32768000x1_S32768000_n_0_0_1

/-- No axis of the ten cells is a window axis: the window coordinate is 0. -/
private theorem hist_window (k : S32768000.Idx) (a : Fin S10.rank) : histDims.window k a = 0 := by
  unfold ScatterDims.window
  rw [dif_neg]
  revert a
  decide

/-- Update k reads its start index at row k of the index column (the column's only entry of that row). -/
private theorem hist_siIdx (k : S32768000.Idx) (c : Fin histDims.scatterDimsToOperandDims.length) :
    histDims.siIdx k c = ix2 (k 0) 0 := by
  funext b
  match b with
  | ⟨0, _⟩ =>
    unfold ScatterDims.siIdx
    rw [dif_neg (by show ¬ (0 : Nat) = 1; decide)]
    unfold ScatterDims.siCoord
    apply Fin.ext
    show (k _).val = (k 0).val
    -- the updates have one axis, so any axis of theirs is axis 0
    have h1 : ∀ x : Fin S32768000.rank, x = 0 := fun x =>
      Fin.ext (by have : x.val < 1 := x.isLt; show x.val = 0; omega)
    exact congrArg (fun x => (k x).val) (h1 _)
  | ⟨1, _⟩ =>
    unfold ScatterDims.siIdx
    rw [dif_pos (by rfl)]
    apply Fin.ext
    show c.val = 0
    have : c.val < 1 := c.isLt
    omega

/-- The start of update k on the cells' axis is entry k of the index column, read signed. -/
private theorem hist_start (k : S32768000.Idx) (idx : IVec S32768000x1 32) (a : Fin S10.rank) :
    histDims.start k idx a = (idx (ix2 (k 0) 0)).toInt := by
  unfold ScatterDims.start
  rw [dif_pos (by revert a; decide)]
  rw [hist_siIdx]
  rfl

/-- Update k lands on cell i exactly when entry k of the index column, read signed, is i. -/
private theorem hist_lands (k : S32768000.Idx) (idx : IVec S32768000x1 32) (i : S10.Idx) :
    histDims.resultIdx? k idx = some i ↔ (idx (ix2 (k 0) 0)).toInt = ((i 0).val : Int) := by
  suffices key : ∀ z : Int, (∀ a, histDims.start k idx a = z) →
      (histDims.resultIdx? k idx = some i ↔ z = ((i 0).val : Int)) from
    key _ (fun a => hist_start k idx a)
  intro z hz
  unfold ScatterDims.resultIdx?
  simp only [hz, hist_window]
  have hi : (i 0).val < 10 := (i 0).isLt
  constructor
  · intro h
    split at h
    · rename_i hc
      have h0 := congrFun (Option.some.inj h) 0
      have h1 : (z + ((0 : Nat) : Int)).toNat = (i 0).val := congrArg Fin.val h0
      have h2 := (hc 0).1
      omega
    · exact absurd h (by simp)
  · intro h
    have hc : ∀ a : Fin 1, 0 ≤ z + ((0 : Nat) : Int) ∧ z + ((0 : Nat) : Int) < ((![10] a : Nat) : Int) := by
      intro a
      have ha : a = 0 := Subsingleton.elim _ _
      subst ha
      show 0 ≤ z + ((0 : Nat) : Int) ∧ z + ((0 : Nat) : Int) < ((10 : Nat) : Int)
      omega
    rw [dif_pos hc]
    congr 1
    funext a
    match a with
    | ⟨0, _⟩ =>
      apply Fin.ext
      show (z + ((0 : Nat) : Int)).toNat = (i 0).val
      omega

/-- On a word B among 0..9 the negative-index wrap (B + 10 where B < 0) leaves B, and B read signed is b exactly
    when B is the word of b. -/
private theorem hist_wrap (B : BitVec 32) (hB : B.toNat < 10) (b : Fin 10) :
    (Scalar.select (IntOp.cmpi .slt B 0#32) (IntOp.addi B 10#32) B).toInt = ((b.val : Nat) : Int)
      ↔ B = BitVec.ofNat 32 b.val := by
  have hBn : B = BitVec.ofNat 32 B.toNat := by simp
  generalize B.toNat = n at hB hBn
  subst hBn
  interval_cases n <;> revert b <;> decide

/-- The flat index of an entry is its (row, column): k ↦ (k / 1000, k mod 1000), with inverse (r, j) ↦ 1000 r + j. -/
private def flatEquiv : S32768000.Idx ≃ Fin 32768 × Fin 1000 where
  toFun k := (⟨(k 0).val / 1000, by have h0 : (k 0).val < 32768000 := (k 0).isLt; omega⟩,
    ⟨(k 0).val % 1000, Nat.mod_lt _ (by decide)⟩)
  invFun p := ix1 ⟨1000 * p.1.val + p.2.val, by have := p.1.isLt; have := p.2.isLt; omega⟩
  left_inv k := by
    funext a
    match a with
    | ⟨0, _⟩ =>
      apply Fin.ext
      show 1000 * ((k 0).val / 1000) + (k 0).val % 1000 = (k 0).val
      omega
  right_inv p := by
    obtain ⟨r, j⟩ := p
    have := j.isLt
    apply Prod.ext <;> apply Fin.ext
    · show (1000 * r.val + j.val) / 1000 = r.val
      omega
    · show (1000 * r.val + j.val) % 1000 = j.val
      omega

/-- An accumulating scatter at a cell, for any shapes: the cell's operand element plus the sum of the updates that
    land on it. Stated over arbitrary shapes, so that no sum over a literal index set is ever evaluated. -/
private theorem scatterAdd_at {s si u : Shape} {φ : FTy} {w : Nat} (d : ScatterDims s si u) (x : FVec Ideal s φ)
    (idx : IVec si w) (upd : FVec Ideal u φ) (i : s.Idx) :
    Host.scatterAdd (F := Ideal) d x idx upd i
      = x i + ∑ j ∈ Finset.univ.filter (fun j => d.resultIdx? j idx = some i), upd j := rfl

/-- The reference's histogram at a cell: the zero cell plus the sum of the ones that land on it. -/
private theorem hist_read (x0 : S32768x1000.Idx → EReal) (x1 : S32768.Idx → BitVec 32) (i : S10.Idx) :
    val_main_v23 (F := Ideal) x0 x1 i
      = val_main_v14 (F := Ideal) i + ∑ k ∈ Finset.univ.filter
          (fun k => histDims.resultIdx? k (val_main_v21 (F := Ideal) x0 x1) = some i), val_main_v22 (F := Ideal) k := by
  unfold val_main_v23
  exact scatterAdd_at _ _ _ _ i

/-- With real logits, the one of flat entry k lands on cell b exactly when the bin of entry (k / 1000, k mod 1000)
    is b: the index column at k is that bin, the wrap leaves it, and it is read signed. -/
private theorem hist_entry (x0 : S32768x1000.Idx → EReal) (x1 : S32768.Idx → BitVec 32)
    (hX : ∀ r j, ∃ a : ℝ, logitsOf x0 r j = (a : EReal)) (b : Fin 10) (k : S32768000.Idx) :
    (histDims.resultIdx? k (val_main_v21 (F := Ideal) x0 x1) = some (ix1 b)) ↔
      bin (logitsOf x0) (labelsOf x1) (flatEquiv k).1 (flatEquiv k).2 = BitVec.ofNat 32 b.val := by
  rw [hist_lands, val_main_v21_apply, val_main_v20_apply, val_main_v17_apply, val_main_v19_apply,
    val_main_v16_apply, val_main_c_3_apply, val_main_v18_apply, val_main_c_4_apply, val_main_v15_apply]
  have hk : idx_main_v15 (idx_main_v21 (ix2 (k 0) 0)) = ix2 (flatEquiv k).1 (flatEquiv k).2 := by
    funext a
    match a with
    | ⟨0, _⟩ => rfl
    | ⟨1, _⟩ => rfl
  rw [hk, ref_bin]
  exact hist_wrap _ (bin_toNat_lt _ _ hX _ _) b

/-- With real logits, cell b of the reference's histogram holds the count of bin b over all entries. -/
theorem ref_count (x0 : S32768x1000.Idx → EReal) (x1 : S32768.Idx → BitVec 32)
    (hX : ∀ r j, ∃ a : ℝ, logitsOf x0 r j = (a : EReal)) (b : Fin 10) :
    val_main_v23 (F := Ideal) x0 x1 (ix1 b) = countWhole (logitsOf x0) (labelsOf x1) b.val := by
  -- the cell is 0 plus one unit per flat entry landing on it; re-indexed by (row, column) that is the count
  rw [hist_read, val_main_v14_apply, val_main_cst_2_apply, Ideal.ofBits_def, Consts.ofBits_zero, zero_add,
    Finset.sum_filter, countWhole, ← Fintype.sum_prod_type']
  refine Fintype.sum_equiv flatEquiv _ _ (fun k => ?_)
  rw [val_main_v22_apply, val_main_cst_5_apply, Ideal.ofBits_def, Consts.ofBits_one, inBin]
  exact if_congr (hist_entry x0 x1 hX b k) rfl rfl

end Cert.ReferenceIdeal.RefValue

end
-- ==== Proof.RefWeights.lean ====
/- The reference's weights read at an index: the array of
   per-entry weights it divides by (the bin's reciprocal clamped count, gathered at the entry's bin, over the number
   of non-empty bins) is the bin's weight over the whole histogram. The histogram's cells are the counts
   over all entries (Proof/RefHist.lean). -/
import proofs.«400093_j38671885533689_1_alg».proof.Proof.RefRead
import proofs.«400093_j38671885533689_1_alg».proof.Proof.Spec
import proofs.«400093_j38671885533689_1_alg».proof.Proof.Consts
import proofs.«400093_j38671885533689_1_alg».proof.Proof.MathBins
import proofs.«400093_j38671885533689_1_alg».proof.Proof.RefHist
import proofs.«400093_j38671885533689_1_alg».proof.Proof.HostCount
import Idealize.ShloMosaic.Lib.ValueIdx
import Idealize.ShloMosaic.Lib.Pipeline.Value
import Idealize.ShloMosaic.PureOps.Ideal.Laws
import Idealize.ShloMosaic.Lib.StableHlo.Predicate

noncomputable section

namespace Cert.ReferenceIdeal.RefValue

open Cert.ReferenceIdeal Cert.ReferenceIdeal.Gen Cert.ReferenceIdeal.Read Idealize.ShloMosaic Idealize.ShloMosaic.TcCoe
  Idealize.ShloMosaic.ValueIdx Cert.Ghm

/-- A word whose value is below ten is not negative as a signed word: "less than zero" is the bit 0. -/
private theorem slt_zero_of_small {bn : BitVec 32} (h : bn.toNat < 10) : IntOp.cmpi .slt bn 0#32 = 0#1 := by
  refine eq_zero_of_ne_one fun hc => ?_
  have h2 := (StableHlo.Predicate.slt_iff_toNat (a := bn) (b := 0#32) (by omega) (by decide)).mp hc
  simp at h2

/-- A word whose value is below ten reads the same signed as unsigned. -/
private theorem toInt_toNat_of_small {bn : BitVec 32} (h : bn.toNat < 10) : bn.toInt.toNat = bn.toNat := by
  rw [StableHlo.Predicate.toInt_eq_toNat_of_lt (by omega)]
  exact Int.toNat_natCast _

/-- A table of ten cells read at an array of start indices: where the start index is a word below ten, the clamp
    into 0..9 is the identity and the element is the table's cell at the word's value. -/
private theorem take_small {α : Type} {R C : Nat}
    (wf : GatherDims.WF ⟨1, ![10]⟩ ⟨3, ![R, C, 1]⟩ ⟨2, ![R, C]⟩ [] [0] [] [0] [] 2 ![1])
    (x : (⟨1, ![10]⟩ : Shape).Idx → α) (idx : IVec ⟨3, ![R, C, 1]⟩ 32) (y : (⟨2, ![R, C]⟩ : Shape).Idx)
    (h : (idx (takeIdx y)).toNat < 10) :
    Host.gather (takeDims 10 R C wf) x idx y = x (ix1 ⟨(idx (takeIdx y)).toNat, h⟩) := by
  rw [gather_take_apply (by decide)]
  refine congrArg (fun k => x (ix1 k)) (Fin.ext ?_)
  show min (idx (takeIdx y)).toInt.toNat (10 - 1) = (idx (takeIdx y)).toNat
  rw [toInt_toNat_of_small h]
  omega

/-- The reference's per-entry weight at (r, j), on admissible inputs, is the weight of the entry's bin over the
    whole histogram. -/
theorem ref_weight (x0 : S32768x1000.Idx → EReal) (x1 : S32768.Idx → BitVec 32)
    (hadm : Admissible (logitsOf x0) (labelsOf x1)) (r : Fin 32768) (j : Fin 1000) :
    val_main_v41 (F := Ideal) x0 x1 (ix2 r j) = weightWhole (logitsOf x0) (labelsOf x1) r j := by
  obtain ⟨hX, _⟩ := hadm
  have hb : (bin (logitsOf x0) (labelsOf x1) r j).toNat < 10 := bin_toNat_lt _ _ hX r j
  -- the divisor: the number of non-empty bins of the whole histogram
  have hden : val_main_v40 (F := Ideal) x0 x1 (ix2 r j) = nonEmpty (countWhole (logitsOf x0) (labelsOf x1)) := by
    rw [val_main_v40_apply]
    have h28 : val_main_v28 (F := Ideal) x0 x1
        = fun _ => nonEmpty (HostCount.countsOf (val_main_v23 (F := Ideal) x0 x1)) :=
      HostCount.nonEmpty_chain bcast_S_S10 reducesTo_S10_S_d0 h_S_ natLt_1_32 (val_main_v23 (F := Ideal) x0 x1)
    rw [h28]
    have hc : ∀ b : Fin 10, HostCount.countsOf (val_main_v23 (F := Ideal) x0 x1) b.val
        = countWhole (logitsOf x0) (labelsOf x1) b.val := fun b => by
      unfold HostCount.countsOf
      rw [dif_pos b.isLt]
      exact ref_count x0 x1 hX b
    show nonEmpty _ = nonEmpty _
    unfold nonEmpty
    simp only [hc]
  -- the start index of entry (r, j) is its bin
  have h38 : val_main_v38 (F := Ideal) x0 x1 (takeIdx (ix2 r j)) = bin (logitsOf x0) (labelsOf x1) r j := by
    rw [val_main_v38_apply]
    have hi : idx_main_v38 (takeIdx (ix2 r j)) = ix2 r j := by
      funext a; match a with | ⟨0, _⟩ => rfl | ⟨1, _⟩ => rfl
    rw [hi, val_main_v37_apply, val_main_v34_apply, val_main_v33_apply, val_main_c_10_apply, ref_bin,
      slt_zero_of_small hb, select_zero]
  have hb38 : (val_main_v38 (F := Ideal) x0 x1 (takeIdx (ix2 r j))).toNat < 10 := by rw [h38]; exact hb
  -- the dividend: the reciprocal clamped count of the entry's bin
  have hnum : val_main_v39 (F := Ideal) x0 x1 (ix2 r j)
      = Ideal.div 1 (max (countWhole (logitsOf x0) (labelsOf x1) (bin (logitsOf x0) (labelsOf x1) r j).toNat) 1) := by
    have hg : val_main_v39 (F := Ideal) x0 x1 (ix2 r j) = _ :=
      take_small gather_S10_S32768x1000x1_S32768x1000_n_0_n_n_0_2_1_wf (val_main_v32 (F := Ideal) x0 x1)
        (val_main_v38 (F := Ideal) x0 x1) (ix2 r j) hb38
    rw [hg]
    have h32 : ∀ i, val_main_v32 (F := Ideal) x0 x1 i = Ideal.div 1 (max (val_main_v23 (F := Ideal) x0 x1 i) 1) :=
      fun i => HostCount.recip_chain bcast_S_S10 (val_main_v23 (F := Ideal) x0 x1) i
    rw [h32, ref_count x0 x1 hX]
    show Ideal.div 1 (max (countWhole _ _ (val_main_v38 (F := Ideal) x0 x1 (takeIdx (ix2 r j))).toNat) 1) = _
    rw [h38]
  rw [val_main_v41_apply, Ideal.hostDivf_def, hnum, hden]
  rfl

end Cert.ReferenceIdeal.RefValue

end
-- ==== Proof.RefLoss.lean ====
/- The reference's second half: from the per-entry weights to the result. The label entry's weight is read by a
   gather at the label (in range on admissible inputs, so the out-of-range fill never shows); the shifted logits go
   through the log-softmax (row maximum from minus infinity, exponentials summed, log taken); the result is minus the
   one-hot-weighted sum of the log-softmax over all entries, over the number of rows. -/
import proofs.«400093_j38671885533689_1_alg».proof.Proof.RefRead
import proofs.«400093_j38671885533689_1_alg».proof.Proof.Spec
import proofs.«400093_j38671885533689_1_alg».proof.Proof.Consts
import proofs.«400093_j38671885533689_1_alg».proof.Proof.RefWeights
import Idealize.ShloMosaic.Lib.ValueIdx
import Idealize.ShloMosaic.Lib.Pipeline.Value
import Idealize.ShloMosaic.Lib.Affine
import Idealize.ShloMosaic.PureOps.Reduce
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.TcCoe
  Idealize.ShloMosaic.ValueIdx Cert.Ghm

/-! ### A batched gather of one entry per row, read at an index

A table `[B, N]` and one start index per row, `[B, 1, 1]`: axis 0 of the table is a batching axis (paired with axis 0 of
the start indices), axis 1 is the collapsed axis the start index names, and there is no offset axis. Result element
`(b, 0)` is the table at row `b`, at the start index of row `b` read signed and clamped into `[0, N − 1]`. -/

section Gather
variable {α : Type} {B N w : Nat}

/-- Those dimension numbers; their conditions are decided on literal shapes. -/
abbrev rowDims (B N : Nat)
    (wf : GatherDims.WF ⟨2, ![B, N]⟩ ⟨3, ![B, 1, 1]⟩ ⟨2, ![B, 1]⟩ [] [1] [0] [1] [0] 2 ![1, 1]) :
    GatherDims ⟨2, ![B, N]⟩ ⟨3, ![B, 1, 1]⟩ ⟨2, ![B, 1]⟩ where
  offsetDims := []
  collapsedSliceDims := [1]
  operandBatchingDims := [0]
  startIndicesBatchingDims := [0]
  startIndexMap := [1]
  indexVectorDim := 2
  sliceSizes := ![1, 1]
  wf := wf

variable (wf : GatherDims.WF ⟨2, ![B, N]⟩ ⟨3, ![B, 1, 1]⟩ ⟨2, ![B, 1]⟩ [] [1] [0] [1] [0] 2 ![1, 1])
  (idx : IVec ⟨3, ![B, 1, 1]⟩ w) (b : Fin B)

/-- Result index `(b, 0)` reads its start index at `[b, 0, 0]`: its own coordinates on the two batch axes, and the one
    component there is on the index vector's axis. -/
theorem siIdx_at (c : Fin (rowDims B N wf).startIndexMap.length) :
    (rowDims B N wf).siIdx (ix2 b (0 : Fin 1)) c = ix3 b (0 : Fin 1) (0 : Fin 1) := by
  have hc : c.val = 0 := Nat.lt_one_iff.mp c.isLt
  funext a
  refine Fin.ext ?_
  match a with
  | ⟨0, _⟩ => rfl
  | ⟨1, _⟩ => rfl
  | ⟨2, _⟩ => exact hc

/-- Axis 0 of the table is a batching axis: the slice starts at 0 there, no offset, and the batch coordinate is the
    result's row. -/
theorem operandIdx_axis0 :
    ((rowDims B N wf).operandIdx (ix2 b (0 : Fin 1)) idx (0 : Fin 2)).val = b.val := by
  show (rowDims B N wf).start _ idx 0 + (rowDims B N wf).batchCoord _ 0 + (rowDims B N wf).offCoord _ 0 = b.val
  have hs : (rowDims B N wf).start (ix2 b (0 : Fin 1)) idx 0 = 0 :=
    GatherDims.start_batching _ _ _ _ (List.mem_singleton.mpr rfl)
  have ho : (rowDims B N wf).offCoord (ix2 b (0 : Fin 1)) 0 = 0 :=
    GatherDims.offCoord_eq_zero _ _ _ (fun h => ((GatherDims.mem_sKept _ _).mp h).2 (List.mem_singleton.mpr rfl))
  have hb : (rowDims B N wf).batchCoord (ix2 b (0 : Fin 1)) 0 = b.val := by
    unfold GatherDims.batchCoord
    rw [dif_pos (List.mem_singleton.mpr rfl)]
    rfl
  rw [hs, ho, hb, Nat.zero_add, Nat.add_zero]

/-- Axis 1 of the table is the collapsed axis: the slice starts at the clamped start index, with no batch coordinate
    and no offset. -/
theorem operandIdx_axis1 :
    ((rowDims B N wf).operandIdx (ix2 b (0 : Fin 1)) idx (1 : Fin 2)).val
      = min (idx (ix3 b (0 : Fin 1) (0 : Fin 1))).toInt.toNat (N - 1) := by
  show (rowDims B N wf).start _ idx 1 + (rowDims B N wf).batchCoord _ 1 + (rowDims B N wf).offCoord _ 1 = _
  have hb : (rowDims B N wf).batchCoord (ix2 b (0 : Fin 1)) 1 = 0 :=
    GatherDims.batchCoord_eq_zero _ _ _ (show ¬(1 : Fin 2) ∈ ([0] : List (Fin 2)) by decide)
  have ho : (rowDims B N wf).offCoord (ix2 b (0 : Fin 1)) 1 = 0 :=
    GatherDims.offCoord_eq_zero _ _ _ (fun h => ((GatherDims.mem_sKept _ _).mp h).1 (List.mem_singleton.mpr rfl))
  rw [hb, ho, Nat.add_zero]
  unfold GatherDims.start
  rw [dif_pos (show (1 : Fin 2) ∈ (rowDims B N wf).startIndexMap from List.mem_singleton.mpr rfl), siIdx_at]
  rfl

/-- The gather read at `(b, 0)`. -/
theorem gather_row_apply (hN : 0 < N) (x : (⟨2, ![B, N]⟩ : Shape).Idx → α) :
    Host.gather (rowDims B N wf) x idx (ix2 b (0 : Fin 1))
      = x (ix2 b ⟨min (idx (ix3 b (0 : Fin 1) (0 : Fin 1))).toInt.toNat (N - 1), by omega⟩) := by
  unfold Host.gather
  refine congrArg x (funext fun a => Fin.ext ?_)
  match a with
  | ⟨0, _⟩ => exact operandIdx_axis0 wf idx b
  | ⟨1, _⟩ => exact operandIdx_axis1 wf idx b

end Gather

/-! ### Words -/

/-- A word below 1000 reads the same signed as unsigned. -/
theorem toInt_small {v : BitVec 32} (hv : v.toNat < 1000) : v.toInt = (v.toNat : Int) :=
  BitVec.toInt_eq_toNat_of_lt (by omega)

/-- A left fold of `and` from 1 over words that are all 1 is 1. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_ones f hf l

/-! ### The label's weight

With every label a column index (non-negative as a signed word and below 1000), the wrap-around of a negative index is
never taken, the in-bounds mask is 1 everywhere, and the gather's clamp leaves the label as it is. -/

section Label
variable (x0 : S32768x1000.Idx → EReal) (x1 : S32768.Idx → BitVec 32)

/-- The start index before the reshape: the label itself (the branch "label + 1000" is for negative labels only). -/
theorem start_eq (hlab : ∀ i, (x1 i).toNat < 1000) (i : S32768x1.Idx) :
    val_main_call1_v4 (F := Ideal) x1 i = x1 (idx_main_v42 i) := by
  rw [val_main_call1_v4_apply, val_main_call1_v1_apply, val_main_v42_apply, val_main_call1_v0_apply,
    val_main_call1_c_apply]
  have hc : IntOp.cmpi .slt (x1 (idx_main_v42 i)) 0#32 = 0#1 := by
    refine eq_zero_of_ne_one fun h => ?_
    rw [IntOp.cmpi_slt, toInt_small (hlab _), show (0#32 : BitVec 32).toInt = 0 from by decide] at h
    omega
  rw [hc, select_zero]

/-- The start index after the reshape. -/
theorem start3_eq (hlab : ∀ i, (x1 i).toNat < 1000) (i : S32768x1x1.Idx) :
    val_main_call1_v5 (F := Ideal) x1 i = x1 (idx_main_v42 (idx_main_call1_v5 i)) := by
  rw [val_main_call1_v5_apply, start_eq x1 hlab]

/-- Every element of the in-bounds test (0 ≤ index and index ≤ 999) is 1. -/
theorem inb_eq_one (hlab : ∀ i, (x1 i).toNat < 1000) (i : S32768x1x1.Idx) :
    val_main_call1_v11 (F := Ideal) x1 i = 1#1 := by
  rw [val_main_call1_v11_apply, val_main_call1_v7_apply, val_main_call1_v10_apply, start3_eq x1 hlab,
    val_main_call1_v6_apply, val_main_call1_c_2_apply, val_main_call1_v9_apply, val_main_call1_v8_apply,
    val_main_call1_c_1_apply]
  have h := hlab (idx_main_v42 (idx_main_call1_v5 i))
  rw [IntOp.andi_eq_one, IntOp.cmpi_sge, IntOp.cmpi_sle, toInt_small h,
    show (0#32 : BitVec 32).toInt = 0 from by decide, show (999#32 : BitVec 32).toInt = 999 from by decide]
  constructor <;> omega

/-- So the mask, their conjunction along the last axis from 1, is 1. -/
theorem mask_eq_one (hlab : ∀ i, (x1 i).toNat < 1000) (j : S32768x1.Idx) :
    val_main_call1_v12 (F := Ideal) x1 j = 1#1 := by
  unfold val_main_call1_v12
  rw [Host.reduce_eq_foldl, val_main_call1_c_3_apply]
  exact foldl_andi_ones _ (inb_eq_one x1 hlab) _

/-- The reference's gather is the batched gather of one entry per row. -/
theorem gatherDims_eq :
    gather_S32768x1000_S32768x1x1_S32768x1_n_1_0_0_1_2_11
      = rowDims 32768 1000 gather_S32768x1000_S32768x1x1_S32768x1_n_1_0_0_1_2_11_wf := rfl

/-- The index maps of the reshape and of the label's broadcast, at `(r, 0, 0)`: row `r`. -/
theorem idx_start_row (r : Fin 32768) :
    idx_main_v42 (idx_main_call1_v5 (ix3 r (0 : Fin 1) (0 : Fin 1))) = ix1 r := by
  funext a
  match a with
  | ⟨0, _⟩ => exact Fin.ext (show ((r.val * 1 + 0) * 1 + 0) / 1 = r.val by omega)

/-- The label's weight: the per-entry weight at the label's column. -/
theorem label_weight (hadm : Admissible (logitsOf x0) (labelsOf x1)) (r : Fin 32768) :
    val_main_v43 (F := Ideal) x0 x1 (ix2 r (0 : Fin 1))
      = weightWhole (logitsOf x0) (labelsOf x1) r (labelCol (labelsOf x1) r) := by
  have hlab : ∀ i, (x1 i).toNat < 1000 := fun i => by rw [eq_ix1 i]; exact hadm.2 (i 0)
  have h5 : val_main_call1_v5 (F := Ideal) x1 (ix3 r (0 : Fin 1) (0 : Fin 1)) = x1 (ix1 r) := by
    rw [start3_eq x1 hlab, idx_start_row]
  rw [val_main_v43_apply, mask_eq_one x1 hlab, select_one]
  unfold val_main_call1_v13
  rw [gatherDims_eq, gather_row_apply _ _ _ (by decide)]
  simp only [h5]
  have hr : (x1 (ix1 r)).toNat < 1000 := hadm.2 r
  have hcol : (⟨min (x1 (ix1 r)).toInt.toNat (1000 - 1), by omega⟩ : Fin 1000) = labelCol (labelsOf x1) r := by
    refine Fin.ext ?_
    show min (x1 (ix1 r)).toInt.toNat (1000 - 1) = (x1 (ix1 r)).toNat % 1000
    rw [toInt_small hr, Int.toNat_natCast, Nat.mod_eq_of_lt hr]
    omega
  rw [hcol]
  exact ref_weight x0 x1 hadm r _

end Label

/-! ### From the weights to the result -/

section Loss
variable (x0 : S32768x1000.Idx → EReal) (x1 : S32768.Idx → BitVec 32)

/-- A column broadcast reads column 0 of its row (the label weight's). -/
theorem idx_col0 (r : Fin 32768) (j : Fin 1000) : idx_main_v44 (ix2 r j) = ix2 r (0 : Fin 1) := by
  funext a
  match a with
  | ⟨0, _⟩ => rfl
  | ⟨1, _⟩ => rfl

/-- The row maximum's two broadcasts read row `r`. -/
theorem idx_rowmax (r : Fin 32768) (j : Fin 1000) : idx_main_call2_v3 (idx_main_call2_v4 (ix2 r j)) = ix1 r := by
  funext a
  match a with
  | ⟨0, _⟩ => rfl

/-- The two broadcasts of the sum of exponentials read row `r`. -/
theorem idx_sumexp (r : Fin 32768) (j : Fin 1000) : idx_main_call2_v8 (idx_main_call2_v10 (ix2 r j)) = ix1 r := by
  funext a
  match a with
  | ⟨0, _⟩ => rfl

/-- The shifted logit at (r, j): the logit plus the log of the label weight over the entry's weight, clamped at 1. -/
theorem shifted_apply (hadm : Admissible (logitsOf x0) (labelsOf x1)) (r : Fin 32768) (j : Fin 1000) :
    val_main_v49 (F := Ideal) x0 x1 (ix2 r j)
      = shiftBy (weightWhole (logitsOf x0) (labelsOf x1) r (labelCol (labelsOf x1) r)) (logitsOf x0 r j)
          (weightWhole (logitsOf x0) (labelsOf x1) r j) := by
  rw [val_main_v49_apply, val_main_v48_apply, val_main_v47_apply, val_main_v45_apply, val_main_v44_apply, idx_col0,
    label_weight x0 x1 hadm, ref_weight x0 x1 hadm, val_main_v46_apply, val_main_cst_12_apply]
  simp only [Ideal.addf_def, Ideal.hostUnary_log_def, Ideal.minimumf_def, Ideal.hostDivf_def, Ideal.ofBits_def,
    Consts.ofBits_one]
  rfl

/-- The row maximum: the running maximum from minus infinity over the row's columns (the maximum with minus infinity
    taken once more changes nothing). -/
theorem row_max (r : Fin 32768) :
    val_main_call2_v2 (F := Ideal) x0 x1 (ix1 r)
      = rowMax (fun k => val_main_v49 (F := Ideal) x0 x1 (ix2 r k)) := by
  rw [val_main_call2_v2_apply, val_main_call2_v1_apply, val_main_call2_cst_0_apply]
  unfold val_main_call2_v0
  generalize val_main_v49 (F := Ideal) x0 x1 = y
  rw [Host.reduce_eq_fold_single (FloatOps.maximumf (F := Ideal) (φ := .f32)) y _ reducesTo_S32768x1000_S32768_d1 (by decide) h_S_ (ix1 r),
    val_main_call2_cst_apply]
  simp only [Ideal.maximumf_def, Ideal.ofBits_def, Consts.ofBits_neg_inf]
  rw [max_eq_right bot_le]
  unfold rowMax
  exact Finset.fold_congr fun k _ => congrArg y (funext fun a => Fin.ext (by
    match a with
    | ⟨0, _⟩ => rfl
    | ⟨1, _⟩ => rfl))

/-- The logits less their row maximum. -/
theorem centered_apply (r : Fin 32768) (j : Fin 1000) :
    val_main_call2_v5 (F := Ideal) x0 x1 (ix2 r j)
      = val_main_v49 (F := Ideal) x0 x1 (ix2 r j) - rowMax (fun k => val_main_v49 (F := Ideal) x0 x1 (ix2 r k)) := by
  rw [val_main_call2_v5_apply, val_main_call2_v4_apply, val_main_call2_v3_apply, idx_rowmax, row_max]
  rfl

/-- The row's sum of exponentials (the sum starts from 0). -/
theorem sumexp_apply (r : Fin 32768) :
    val_main_call2_v7 (F := Ideal) x0 x1 (ix1 r)
      = ∑ k : Fin 1000, Ideal.exp (val_main_call2_v5 (F := Ideal) x0 x1 (ix2 r k)) := by
  rw [val_main_call2_v7_apply, val_main_call2_cst_1_apply]
  simp only [Ideal.ofBits_def, Consts.ofBits_zero, zero_add]
  refine Finset.sum_congr rfl fun k _ => ?_
  rw [show idx_main_call2_v7 (ix1 r) k = ix2 r k from funext fun a => by
    match a with
    | ⟨0, _⟩ => rfl
    | ⟨1, _⟩ => rfl]
  rfl

/-- The log-softmax at (r, j) is the log-softmax of row r's shifted logits at j. -/
theorem logsoftmax_apply (r : Fin 32768) (j : Fin 1000) :
    val_main_v50 (F := Ideal) x0 x1 (ix2 r j)
      = logSoftmaxAt (fun k => val_main_v49 (F := Ideal) x0 x1 (ix2 r k)) j := by
  rw [val_main_v50_apply, val_main_call2_v10_apply, val_main_call2_v9_apply, val_main_call2_v8_apply, idx_sumexp,
    sumexp_apply]
  simp only [centered_apply, Ideal.subf_def, Ideal.hostUnary_log_def]
  rfl

/-- One term of the final sum: the one-hot value times the log-softmax of the row's shifted logits. -/
theorem term_apply (hadm : Admissible (logitsOf x0) (labelsOf x1)) (r : Fin 32768) (j : Fin 1000) :
    val_main_v51 (F := Ideal) x0 x1 (ix2 r j)
      = hot (labelsOf x1) r j * logSoftmaxAt (fun k =>
          shiftBy (weightWhole (logitsOf x0) (labelsOf x1) r (labelCol (labelsOf x1) r)) (logitsOf x0 r k)
            (weightWhole (logitsOf x0) (labelsOf x1) r k)) j := by
  rw [val_main_v51_apply, ref_hot, logsoftmax_apply]
  simp only [shifted_apply x0 x1 hadm, Ideal.mulf_def]

end Loss

/-- The reference's result, on admissible inputs, is the loss in the reference's arrangement. -/
theorem ref_value (x0 : S32768x1000.Idx → EReal) (x1 : S32768.Idx → BitVec 32)
    (hadm : Admissible (logitsOf x0) (labelsOf x1)) :
    val_main_v54 (F := Ideal) x0 x1 = fun _ => lossWhole (logitsOf x0) (labelsOf x1) := by
  funext i
  rw [val_main_v54_apply, val_main_v53_apply, val_main_v52_apply, val_main_cst_13_apply, val_main_cst_14_apply,
    sum_idx2 (val_main_v51 (F := Ideal) x0 x1)]
  simp only [term_apply x0 x1 hadm, Ideal.hostDivf_def, Ideal.hostNegf_def, Ideal.negf_def, Ideal.ofBits_def,
    Consts.ofBits_zero, Consts.ofBits_rows]
  rfl

end Cert.ReferenceIdeal.RefValue

end
-- ==== Proof.PreFacts.lean ====
/- What the precondition says of the launch memory: every logit is a real number (its absolute value is below plus
   infinity) and every label is a column index (at least 0 and below 1000, compared as signed words). -/
import proofs.«400093_j38671885533689_1_alg».proof.Defs
import proofs.«400093_j38671885533689_1_alg».proof.Proof.Gen.Pre_finite_inputs
import proofs.«400093_j38671885533689_1_alg».proof.Proof.Spec
import Idealize.ShloMosaic.Lib.ValueIdx
import Idealize.ShloMosaic.Lib.ReduceAll
import Idealize.ShloMosaic.Lib.Pipeline.Value

noncomputable section

namespace Cert.PreFacts

open Idealize.ShloMosaic Idealize.ShloMosaic.ValueIdx Idealize.SL.Sem Cert.Ghm Cert.Pre_finite_inputs

/-- The pattern of `+inf` denotes the top element. -/
theorem ofBits_pos_inf : Ideal.ofBits .f32 0x7F800000#32 = ⊤ := by
  simp [Ideal.ofBits, Ideal.ieee]

/-- An extended real whose absolute value is below plus infinity is a real number. -/
theorem real_of_abs_lt_top (z : EReal) (h : max z (-z) < ⊤) : ∃ a : ℝ, z = (a : EReal) := by
  induction z using EReal.rec with
  | bot => exact absurd h (by simp)
  | coe a => exact ⟨a, rfl⟩
  | top => exact absurd h (by simp)

/-- A word that is at least 0 and below 1000 as a signed integer is below 1000 as a natural number. -/
theorem toNat_lt_of_signed (w : BitVec 32) (h0 : (0#32).sle w = true) (h1 : w.slt 1000#32 = true) : w.toNat < 1000 := by
  rw [BitVec.sle_eq_decide, decide_eq_true_eq] at h0
  rw [BitVec.slt_eq_decide, decide_eq_true_eq] at h1
  have e0 : (0#32 : BitVec 32).toInt = 0 := by decide
  have e1 : (1000#32 : BitVec 32).toInt = 1000 := by decide
  rw [e0] at h0; rw [e1] at h1
  have := BitVec.toInt_eq_toNat_cond w
  split at this <;> omega

/-- A one-bit word made from a Boolean is 1 only if the Boolean is true. -/
theorem of_ofBool_eq_one {b : Bool} (h : BitVec.ofBool b = 1#1) : b = true := by
  cases b
  · exact absurd h (by decide)
  · rfl

/-- Under the printed precondition, evaluated to all ones on two arrays, the logits are real and the labels in range. -/
theorem admissible_of_fn [hP : Cert.Pre_finite_inputs.Facts]
    (x0 : Cert.Pre_finite_inputs.S32768x1000.Idx → EReal) (x1 : Cert.Pre_finite_inputs.S32768.Idx → BitVec 32)
    (h : Cert.Pre_finite_inputs.fn (F := Ideal) x0 x1 = fun _ => 1#1) :
    Admissible (fun r j => x0 (ix2 r j)) (fun r => x1 (ix1 r)) := by
  haveI : Subsingleton S_.Idx := ⟨fun a b => funext fun d => d.elim0⟩
  have h0 := congrFun h ix0
  dsimp only [Cert.Pre_finite_inputs.fn] at h0
  obtain ⟨h12, h3⟩ := IntOp.andi_eq_one.1 h0
  obtain ⟨h1, h2⟩ := IntOp.andi_eq_one.1 h12
  refine ⟨fun r j => ?_, fun r => ?_⟩
  · -- the entry's absolute value compares below the broadcast plus infinity
    have e := Host.reduce_andi_all _ _ _ _ ix0 h1 (ix2 r j)
    have hb : broadcastInDim S32768x1000 ![] Facts.bcast_S_S32768x1000 (constant (F := Ideal) S_ .f32 0x7F800000#32) (ix2 r j)
        = Ideal.ofBits .f32 0x7F800000#32 :=
      (broadcastInDim_apply _ _ _ _ (fun a => a.elim0) (fun a => a.elim0)).trans rfl
    change Ideal.cmp .olt (max (x0 (ix2 r j)) (-(x0 (ix2 r j))))
      (broadcastInDim S32768x1000 ![] Facts.bcast_S_S32768x1000 (constant (F := Ideal) S_ .f32 0x7F800000#32) (ix2 r j)) = 1#1 at e
    rw [hb, ofBits_pos_inf] at e
    exact real_of_abs_lt_top _ (of_decide_eq_true (of_ofBool_eq_one e))
  · -- the label compares at least the broadcast 0 and below the broadcast 1000, as signed words
    have e2 := Host.reduce_andi_all _ _ _ _ ix0 h2 (ix1 r)
    have e3 := Host.reduce_andi_all _ _ _ _ ix0 h3 (ix1 r)
    have hb0 : broadcastInDim S32768 ![] Facts.bcast_S_S32768 (constantI S_ 32 0#32) (ix1 r) = 0#32 :=
      (broadcastInDim_apply _ _ _ _ (fun a => a.elim0) (fun a => a.elim0)).trans rfl
    have hb1 : broadcastInDim S32768 ![] Facts.bcast_S_S32768 (constantI S_ 32 1000#32) (ix1 r) = 1000#32 :=
      (broadcastInDim_apply _ _ _ _ (fun a => a.elim0) (fun a => a.elim0)).trans rfl
    change BitVec.ofBool ((broadcastInDim S32768 ![] Facts.bcast_S_S32768 (constantI S_ 32 0#32) (ix1 r)).sle (x1 (ix1 r))) = 1#1 at e2
    change BitVec.ofBool ((x1 (ix1 r)).slt (broadcastInDim S32768 ![] Facts.bcast_S_S32768 (constantI S_ 32 1000#32) (ix1 r))) = 1#1 at e3
    rw [hb0] at e2; rw [hb1] at e3
    exact toNat_lt_of_signed _ (of_ofBool_eq_one e2) (of_ofBool_eq_one e3)

end Cert.PreFacts

end
-- ==== Proof.lean ====
/- The certificate of the two-pass histogram-weighted cross-entropy kernel against its jnp reference.

   Both programs compute one number from the logits X (32768 × 1000) and the labels T: every entry's gradient
   density |σ(X) − onehot(T)| falls in one of ten bins; a bin weighs (1 / max(count, 1)) / (number of non-empty
   bins); each row's logits are shifted by log(min(w_label / w, 1)) and the result is the mean over the rows of
   logsumexp(shifted row) − X[label]. The kernel takes the histogram and the row sums tile by tile (64 tiles of 512
   rows), reads the label's entries as sums against the one-hot row and an entry's weight through ten selects; the
   reference scatters the histogram at once, reads the label's weight by index and sums one-hot × log-softmax.
   On real logits and labels in 0..999 the two are equal: the weight ratio at the label is 1, so the shifted logit
   there is the logit, and logsumexp − logit is minus the log-softmax at the label (Proof/MathRows.lean).

   The frames are the generated ones (the reference's: its run with the result dropped). The kernel's run with its
   result named is Proof/KRun.lean; the value it leaves is read region by region (Proof/Hist.lean, Proof/Loss.lean)
   and through the host stretches (Proof/KHost.lean); the reference's value is read operation by operation
   (Proof/RefStaged.lean for its run over the stages, Proof/RefWeights.lean and Proof/RefLoss.lean for the stages' values); the precondition is decoded in Proof/PreFacts.lean. -/
import proofs.«400093_j38671885533689_1_alg».proof.Defs
import proofs.«400093_j38671885533689_1_alg».proof.Proof.Gen.Kernel
import proofs.«400093_j38671885533689_1_alg».proof.Proof.Gen.Kernel.Skeleton
import proofs.«400093_j38671885533689_1_alg».proof.Proof.Gen.Kernel.Launch
import proofs.«400093_j38671885533689_1_alg».proof.Proof.Gen.Kernel.Points
import proofs.«400093_j38671885533689_1_alg».proof.Proof.Gen.Kernel.Frame
import proofs.«400093_j38671885533689_1_alg».proof.Proof.Gen.KernelIdeal
import proofs.«400093_j38671885533689_1_alg».proof.Proof.Gen.KernelIdeal.Skeleton
import proofs.«400093_j38671885533689_1_alg».proof.Proof.Gen.KernelIdeal.Launch
import proofs.«400093_j38671885533689_1_alg».proof.Proof.Gen.KernelIdeal.Points
import proofs.«400093_j38671885533689_1_alg».proof.Proof.Gen.KernelIdeal.Frame
import proofs.«400093_j38671885533689_1_alg».proof.Proof.Gen.ReferenceIdeal
import proofs.«400093_j38671885533689_1_alg».proof.Proof.Gen.Pre_finite_inputs
import proofs.«400093_j38671885533689_1_alg».proof.Proof.RefRun
import proofs.«400093_j38671885533689_1_alg».proof.Proof.RefRead
import proofs.«400093_j38671885533689_1_alg».proof.Proof.RefStaged
import proofs.«400093_j38671885533689_1_alg».proof.Proof.Spec
import proofs.«400093_j38671885533689_1_alg».proof.Proof.MathRows
import proofs.«400093_j38671885533689_1_alg».proof.Proof.KRun
import proofs.«400093_j38671885533689_1_alg».proof.Proof.KHost
import proofs.«400093_j38671885533689_1_alg».proof.Proof.RefLoss
import proofs.«400093_j38671885533689_1_alg».proof.Proof.PreFacts
import Idealize.ShloMosaic.Adequacy
import Idealize.ShloMosaic.Init

noncomputable section

namespace Cert.Proof

open Idealize.ShloMosaic Idealize.ShloMosaic.TcCoe Idealize.ShloMosaic.ValueIdx Idealize.SL.Sem Cert.Ghm

/-- The kernel as printed runs and leaves its arguments: the generated frame. -/
theorem frame_k : Cert.frame_Kernel (hKernel := Cert.Kernel.Gen.facts) (hPre_finite_inputs := Cert.Pre_finite_inputs.Gen.facts) :=
  fun m ρ _ => Cert.Kernel.Gen.frame m ρ

/-- The idealized kernel runs and leaves its arguments: the generated frame. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference runs and leaves its arguments: its run, the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Staged.run (F := Ideal) m ρ)

/-- From memories agreeing on the arguments and meeting the precondition, the kernel ends at the loss in its
    tile-by-tile arrangement and the reference at the loss in its whole-array arrangement: one number. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => fun _ => lossTiled (Cert.KernelIdeal.Val.launchLogits m c) (Cert.KernelIdeal.Val.launchLabels m c), ?_, ?_⟩
  · exact (θ_run Cert.KernelIdeal.defs _ _).mono
      (fun r h c => ⟨(h c).1.trans (Cert.KernelIdeal.Val.kernel_value m ρ c), (h c).2.1, (h c).2.2⟩)
      (Cert.KernelIdeal.Gen.Result.run_result (F := Ideal) m ρ)
  · refine (θ_run Cert.ReferenceIdeal.defs _ _).mono (fun r h c => ⟨(h c).1.trans ?_, (h c).2.1, (h c).2.2⟩)
      (Cert.ReferenceIdeal.Staged.run (F := Ideal) m' ρ')
    have hadm : Admissible (Cert.KernelIdeal.Val.launchLogits m c) (Cert.KernelIdeal.Val.launchLabels m c) :=
      Cert.PreFacts.admissible_of_fn (hP := Cert.Pre_finite_inputs.Gen.facts) _ _ (hpre c)
    rw [(hagree c).1, (hagree c).2]
    exact (Cert.ReferenceIdeal.RefValue.ref_value _ _ hadm).trans
      (funext fun _ => (lossTiled_eq_lossWhole _ _ hadm).symm)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
